-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v194) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32 : Shape := ⟨2, ![100000, 32]⟩
abbrev S2x625000 : Shape := ⟨2, ![2, 625000]⟩
abbrev S32x128 : Shape := ⟨2, ![32, 128]⟩
abbrev S128 : Shape := ⟨1, ![128]⟩
abbrev S3x128x128 : Shape := ⟨3, ![3, 128, 128]⟩
abbrev S3x128 : Shape := ⟨2, ![3, 128]⟩
abbrev S_ : Shape := ⟨0, ![]⟩

class Facts : Prop where
  bcast_S_S100000x32 : S_.BroadcastsInDim S100000x32 (![] : Fin 0 → Fin S100000x32.rank)
  reducesTo_S100000x32_S_d0_1 : S100000x32.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part2 {F : FTy → Type} [FloatOps F] (main_arg8 : FVec F S3x128 .f32) (main_arg9 : FVec F S3x128 .f32) (main_v33 : IVec S_ 1) : IVec S_ 1 :=
  let main_v34 : FVec F S3x128 .f32 := Host.absf main_arg8
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  main_v43

def fn_part1 {F : FTy → Type} [FloatOps F] (main_arg5 : FVec F S128 .f32) (main_arg6 : FVec F S3x128x128 .f32) (main_arg7 : FVec F S3x128 .f32) (main_arg8 : FVec F S3x128 .f32) (main_arg9 : FVec F S3x128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_v33

def fn {F : FTy → Type} [FloatOps F] (main_arg0 : FVec F S100000x32 .f32) (main_arg1 : IVec S2x625000 32) (main_arg2 : FVec F S32x128 .f32) (main_arg3 : FVec F S128 .f32) (main_arg4 : FVec F S128 .f32) (main_arg5 : FVec F S128 .f32) (main_arg6 : FVec F S3x128x128 .f32) (main_arg7 : FVec F S3x128 .f32) (main_arg8 : FVec F S3x128 .f32) (main_arg9 : FVec F S3x128 .f32) : IVec S_ 1 :=
  let main_v0 : FVec F S100000x32 .f32 := Host.absf main_arg0
  let main_cst : FVec F S_ .f32 := constant S_ .f32 0x7F800000#32
  let main_v1 : FVec F S100000x32 .f32 := broadcastInDim S100000x32 ![] bcast_S_S100000x32 main_cst
  let main_v2 : IVec S100000x32 1 := cmpf .olt main_v0 main_v1
  let main_c : IVec S_ 1 := constantI S_ 1 1#1
  let main_v3 : IVec S_ 1 := (fun x v => Host.reduce IntOp.andi x v reducesTo_S100000x32_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_v13 main_v16
-- ==== Kernel.lean ====
abbrev S100000x32 : Shape := ⟨2, ![100000, 32]⟩
abbrev S2x625000 : Shape := ⟨2, ![2, 625000]⟩
abbrev S32x128 : Shape := ⟨2, ![32, 128]⟩
abbrev S128 : Shape := ⟨1, ![128]⟩
abbrev S3x128x128 : Shape := ⟨3, ![3, 128, 128]⟩
abbrev S3x128 : Shape := ⟨2, ![3, 128]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S100000x1 : Shape := ⟨2, ![100000, 1]⟩
abbrev S1x128 : Shape := ⟨2, ![1, 128]⟩
abbrev S1x128x128 : Shape := ⟨3, ![1, 128, 128]⟩
abbrev S128x128 : Shape := ⟨2, ![128, 128]⟩
abbrev S100000x128 : Shape := ⟨2, ![100000, 128]⟩
abbrev S2000x32 : Shape := ⟨2, ![2000, 32]⟩
abbrev S2000x128 : Shape := ⟨2, ![2000, 128]⟩
abbrev S2000 : Shape := ⟨1, ![2000]⟩
abbrev S2000x1 : Shape := ⟨2, ![2000, 1]⟩
abbrev S625000x128 : Shape := ⟨2, ![625000, 128]⟩

abbrev nBuf : Space → Nat
  | .hbm => 118
  | .vmem => 42
  | .smem => 0
  | _ => 0

abbrev bufTy : (tb : Table) → Fin (tcTables nBuf tb) → BufTy
  | .hbm, ⟨0, _⟩ => ⟨S100000x32, .f32⟩
  | .hbm, ⟨1, _⟩ => ⟨S2x625000, .i32⟩
  | .hbm, ⟨2, _⟩ => ⟨S32x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S3x128x128, .f32⟩
  | .hbm, ⟨7, _⟩ => ⟨S3x128, .f32⟩
  | .hbm, ⟨8, _⟩ => ⟨S3x128, .f32⟩
  | .hbm, ⟨9, _⟩ => ⟨S3x128, .f32⟩
  | .hbm, ⟨10, _⟩ => ⟨S1x625000, .i32⟩
  | .hbm, ⟨11, _⟩ => ⟨S625000, .i32⟩
  | .hbm, ⟨12, _⟩ => ⟨S1x625000, .i32⟩
  | .hbm, ⟨13, _⟩ => ⟨S625000, .i32⟩
  | .hbm, ⟨14, _⟩ => ⟨S_, .f32⟩
  | .hbm, ⟨15, _⟩ => ⟨S625000, .f32⟩
  | .hbm, ⟨16, _⟩ => ⟨S_, .f32⟩
  | .hbm, ⟨17, _⟩ => ⟨S100000, .f32⟩
  | .hbm, ⟨18, _⟩ => ⟨S625000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .f32⟩
  | .hbm, ⟨30, _⟩ => ⟨S_, .f32⟩
  | .hbm, ⟨31, _⟩ => ⟨S100000, .f32⟩
  | .hbm, ⟨32, _⟩ => ⟨S100000, .f32⟩
  | .hbm, ⟨33, _⟩ => ⟨S100000x1, .f32⟩
  | .hbm, ⟨34, _⟩ => ⟨S1x128, .f32⟩
  | .hbm, ⟨35, _⟩ => ⟨S1x128, .f32⟩
  | .hbm, ⟨36, _⟩ => ⟨S1x128, .f32⟩
  | .hbm, ⟨37, _⟩ => ⟨S1x128x128, .f32⟩
  | .hbm, ⟨38, _⟩ => ⟨S128x128, .f32⟩
  | .hbm, ⟨39, _⟩ => ⟨S1x128, .f32⟩
  | .hbm, ⟨40, _⟩ => ⟨S128, .f32⟩
  | .hbm, ⟨41, _⟩ => ⟨S1x128, .f32⟩
  | .hbm, ⟨42, _⟩ => ⟨S1x128, .f32⟩
  | .hbm, ⟨43, _⟩ => ⟨S128, .f32⟩
  | .hbm, ⟨44, _⟩ => ⟨S1x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S100000x128, .f32⟩
  | .hbm, ⟨49, _⟩ => ⟨S100000x128, .f32⟩
  | .hbm, ⟨50, _⟩ => ⟨S_, .i32⟩
  | .hbm, ⟨51, _⟩ => ⟨S625000, .i32⟩
  | .hbm, ⟨52, _⟩ => ⟨S625000, .i1⟩
  | .hbm, ⟨53, _⟩ => ⟨S_, .i32⟩
  | .hbm, ⟨54, _⟩ => ⟨S625000, .i32⟩
  | .hbm, ⟨55, _⟩ => ⟨S625000, .i32⟩
  | .hbm, ⟨56, _⟩ => ⟨S625000, .i32⟩
  | .hbm, ⟨57, _⟩ => ⟨S625000x1, .i32⟩
  | .hbm, ⟨58, _⟩ => ⟨S625000x128, .f32⟩
  | .hbm, ⟨59, _⟩ => ⟨S_, .f32⟩
  | .hbm, ⟨60, _⟩ => ⟨S100000x128, .f32⟩
  | .hbm, ⟨61, _⟩ => ⟨S625000x1, .i32⟩
  | .hbm, ⟨62, _⟩ => ⟨S100000x128, .f32⟩
  | .hbm, ⟨63, _⟩ => ⟨S1x128x128, .f32⟩
  | .hbm, ⟨64, _⟩ => ⟨S128x128, .f32⟩
  | .hbm, ⟨65, _⟩ => ⟨S1x128, .f32⟩
  | .hbm, ⟨66, _⟩ => ⟨S128, .f32⟩
  | .hbm, ⟨67, _⟩ => ⟨S1x128, .f32⟩
  | .hbm, ⟨68, _⟩ => ⟨S1x128, .f32⟩
  | .hbm, ⟨69, _⟩ => ⟨S128, .f32⟩
  | .hbm, ⟨70, _⟩ => ⟨S1x128, .f32⟩
  | .hbm, ⟨71, _⟩ => ⟨S1x128, .f32⟩
  | .hbm, ⟨72, _⟩ => ⟨S128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .i32⟩
  | .hbm, ⟨77, _⟩ => ⟨S625000, .i32⟩
  | .hbm, ⟨78, _⟩ => ⟨S625000, .i1⟩
  | .hbm, ⟨79, _⟩ => ⟨S_, .i32⟩
  | .hbm, ⟨80, _⟩ => ⟨S625000, .i32⟩
  | .hbm, ⟨81, _⟩ => ⟨S625000, .i32⟩
  | .hbm, ⟨82, _⟩ => ⟨S625000, .i32⟩
  | .hbm, ⟨83, _⟩ => ⟨S625000x1, .i32⟩
  | .hbm, ⟨84, _⟩ => ⟨S625000x128, .f32⟩
  | .hbm, ⟨85, _⟩ => ⟨S_, .f32⟩
  | .hbm, ⟨86, _⟩ => ⟨S100000x128, .f32⟩
  | .hbm, ⟨87, _⟩ => ⟨S625000x1, .i32⟩
  | .hbm, ⟨88, _⟩ => ⟨S100000x128, .f32⟩
  | .hbm, ⟨89, _⟩ => ⟨S1x128x128, .f32⟩
  | .hbm, ⟨90, _⟩ => ⟨S128x128, .f32⟩
  | .hbm, ⟨91, _⟩ => ⟨S1x128, .f32⟩
  | .hbm, ⟨92, _⟩ => ⟨S128, .f32⟩
  | .hbm, ⟨93, _⟩ => ⟨S1x128, .f32⟩
  | .hbm, ⟨94, _⟩ => ⟨S1x128, .f32⟩
  | .hbm, ⟨95, _⟩ => ⟨S128, .f32⟩
  | .hbm, ⟨96, _⟩ => ⟨S1x128, .f32⟩
  | .hbm, ⟨97, _⟩ => ⟨S1x128, .f32⟩
  | .hbm, ⟨98, _⟩ => ⟨S128, .f32⟩
  | .hbm, ⟨99, _⟩ => ⟨S1x128, .f32⟩
  | .hbm, ⟨100, _⟩ => ⟨S100000x128, .f32⟩
  | .hbm, ⟨101, _⟩ => ⟨S100000x128, .f32⟩
  | .hbm, ⟨102, _⟩ => ⟨S_, .i32⟩
  | .hbm, ⟨103, _⟩ => ⟨S625000, .i32⟩
  | .hbm, ⟨104, _⟩ => ⟨S625000, .i1⟩
  | .hbm, ⟨105, _⟩ => ⟨S_, .i32⟩
  | .hbm, ⟨106, _⟩ => ⟨S625000, .i32⟩
  | .hbm, ⟨107, _⟩ => ⟨S625000, .i32⟩
  | .hbm, ⟨108, _⟩ => ⟨S625000, .i32⟩
  | .hbm, ⟨109, _⟩ => ⟨S625000x1, .i32⟩
  | .hbm, ⟨110, _⟩ => ⟨S625000x128, .f32⟩
  | .hbm, ⟨111, _⟩ => ⟨S_, .f32⟩
  | .hbm, ⟨112, _⟩ => ⟨S100000x128, .f32⟩
  | .hbm, ⟨113, _⟩ => ⟨S625000x1, .i32⟩
  | .hbm, ⟨114, _⟩ => ⟨S100000x128, .f32⟩
  | .hbm, ⟨115, _⟩ => ⟨S100000x128, .f32⟩
  | .hbm, ⟨116, _⟩ => ⟨S100000x128, .f32⟩
  | .hbm, ⟨117, _⟩ => ⟨S100000x128, .f32⟩
  | .local _ .vmem, ⟨0, _⟩ => ⟨S2000x32, .f32⟩
  | .local _ .vmem, ⟨1, _⟩ => ⟨S2000x32, .f32⟩
  | .local _ .vmem, ⟨2, _⟩ => ⟨S32x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S2000x128, .f32⟩
  | .local _ .vmem, ⟨19, _⟩ => ⟨S2000x128, .f32⟩
  | .local _ .vmem, ⟨20, _⟩ => ⟨S128x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S2000x1, .f32⟩
  | .local _ .vmem, ⟨31, _⟩ => ⟨S2000x1, .f32⟩
  | .local _ .vmem, ⟨32, _⟩ => ⟨S2000x128, .f32⟩
  | .local _ .vmem, ⟨33, _⟩ => ⟨S2000x128, .f32⟩
  | .local _ .vmem, ⟨34, _⟩ => ⟨S128x128, .f32⟩
  | .local _ .vmem, ⟨35, _⟩ => ⟨S1x128, .f32⟩
  | .local _ .vmem, ⟨36, _⟩ => ⟨S1x128, .f32⟩
  | .local _ .vmem, ⟨37, _⟩ => ⟨S1x128, .f32⟩
  | .local _ .vmem, ⟨38, _⟩ => ⟨S2000x128, .f32⟩
  | .local _ .vmem, ⟨39, _⟩ => ⟨S2000x128, .f32⟩
  | .local _ .vmem, ⟨40, _⟩ => ⟨S2000x128, .f32⟩
  | .local _ .vmem, ⟨41, _⟩ => ⟨S2000x128, .f32⟩
  | _, _ => ⟨S100000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30_0 : Ref sig .tc := ⟨.hbm, 48, rfl⟩
abbrev main_v30_1 : Ref sig .tc := ⟨.hbm, 49, rfl⟩
abbrev main_c : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_6 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52_0 : Ref sig .tc := ⟨.hbm, 74, rfl⟩
abbrev main_v52_1 : Ref sig .tc := ⟨.hbm, 75, rfl⟩
abbrev main_c_7 : Ref sig .tc := ⟨.hbm, 76, rfl⟩
abbrev main_v53 : Ref sig .tc := ⟨.hbm, 77, rfl⟩
abbrev main_v54 : Ref sig .tc := ⟨.hbm, 78, rfl⟩
abbrev main_c_8 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74_0 : Ref sig .tc := ⟨.hbm, 100, rfl⟩
abbrev main_v74_1 : Ref sig .tc := ⟨.hbm, 101, rfl⟩
abbrev main_c_10 : Ref sig .tc := ⟨.hbm, 102, rfl⟩
abbrev main_v75 : Ref sig .tc := ⟨.hbm, 103, rfl⟩
abbrev main_v76 : Ref sig .tc := ⟨.hbm, 104, rfl⟩
abbrev main_c_11 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_12 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg7_1 : Ref sig .tc := ⟨.vmem, 25, rfl⟩
abbrev cc1_stg8_0 : Ref sig .tc := ⟨.vmem, 26, rfl⟩
abbrev cc1_stg8_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg4_0 : Ref sig .tc := ⟨.vmem, 35, rfl⟩
abbrev cc2_stg5_0 : Ref sig .tc := ⟨.vmem, 36, rfl⟩
abbrev cc2_stg6_0 : Ref sig .tc := ⟨.vmem, 37, rfl⟩
abbrev cc2_stg7_0 : Ref sig .tc := ⟨.vmem, 38, rfl⟩
abbrev cc2_stg7_1 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem7_1 : DmaSem sig := 25
abbrev cc1_sem8_0 : DmaSem sig := 26
abbrev cc1_sem8_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem4_0 : DmaSem sig := 35
abbrev cc2_sem5_0 : DmaSem sig := 36
abbrev cc2_sem6_0 : DmaSem sig := 37
abbrev cc2_sem7_0 : DmaSem sig := 38
abbrev cc2_sem7_1 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2000x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S2000x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S2000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S2000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S100000_S100000x1_0 : S100000.BroadcastsInDim S100000x1 (![0] : Fin 1 → Fin S100000x1.rank)
  shapeCasts_S128_S1x128 : S128.ShapeCasts S1x128
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  inb_S2000x32_S2000x32_0_0 : ∀ a, (![0, 0] : Fin 2 → Nat) a + S2000x32.size a ≤ S2000x32.size a
  h_S2000x32 : 0 < S2000x32.numel
  bitsLt_bf16_f32 : FTy.bits .bf16 < FTy.bits .f32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bcast_S_S100000x128 : S_.BroadcastsInDim S100000x128 (![] : Fin 0 → Fin S100000x128.rank)
  slices_S3x128x128_S1x128x128_1_0_0 : S3x128x128.Slices ![1, 0, 0] S1x128x128
  slices_S3x128_S1x128_1_0 : S3x128.Slices ![1, 0] S1x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  slices_S3x128x128_S1x128x128_2_0_0 : S3x128x128.Slices ![2, 0, 0] S1x128x128
  slices_S3x128_S1x128_2_0 : S3x128.Slices ![2, 0] S1x128
  bcast_S100000x1_S100000x128_0_1 : S100000x1.BroadcastsInDim S100000x128 (![0, 1] : Fin 2 → Fin S100000x128.rank)
  scatter_S100000_S625000x1_S625000_n_0_0_1_wf : ScatterDims.WF S100000 S625000x1 S625000 [] [0] [0] 1
  dot_S2000x32_S32x128_S2000x128_1_0_0_1_n_n_wf : DotDims.WF S2000x32 S32x128 S2000x128 [1] [0] [0] [1] [] []
  dot_S2000x128_S128x128_S2000x128_1_0_0_1_n_n_wf : DotDims.WF S2000x128 S128x128 S2000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x32.size a ≤ S100000x32.size a
  hwx0_0 : ∀ i : grid0.Coords, EltTy.bits .f32 = 32 ∨ (Rect.block (s := S100000x32) S2000x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2000x128.size a ≤ S100000x128.size a
  hwx0_9 : ∀ i : grid0.Coords, EltTy.bits .f32 = 32 ∨ (Rect.block (s := S100000x128) S2000x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2000x128.size a ≤ S100000x128.size a
  hwx0_10 : ∀ i : grid0.Coords, EltTy.bits .f32 = 32 ∨ (Rect.block (s := S100000x128) S2000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S100000x128.size a
  hwx1_7 : ∀ i : grid1.Coords, EltTy.bits .f32 = 32 ∨ (Rect.block (s := S100000x128) S2000x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S2000x128.size a ≤ S100000x128.size a
  hwx1_8 : ∀ i : grid1.Coords, EltTy.bits .f32 = 32 ∨ (Rect.block (s := S100000x128) S2000x128.size (cc1_transform_8 i) (hinb1_8 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2000x128.size a ≤ S100000x128.size a
  hwx2_7 : ∀ i : grid2.Coords, EltTy.bits .f32 = 32 ∨ (Rect.block (s := S100000x128) S2000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S2000x128.size a ≤ S100000x128.size a
  hwx2_8 : ∀ i : grid2.Coords, EltTy.bits .f32 = 32 ∨ (Rect.block (s := S100000x128) S2000x128.size (cc2_transform_8 i) (hinb2_8 i)).WholeWords (EltTy.packing .f32)

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf

abbrev win0_0 : Pipeline.Window sig grid0 :=
  Pipeline.Window.ofSpec (Memref.whole main_arg0) S2000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v18) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v29) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v30_0) S2000x128.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v30_1) S2000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v30_0) S2000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v51) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v52_0) S2000x128.size cc1_transform_7 reads1_7 true false 2 stage1_7 sem1_7
    hrank1 hreads1_7 hinb1_7 nbuf1_7 (Memref.isWhole_whole _) hwx1_7 hstage1_7

abbrev win1_8 : Pipeline.Window sig grid1 :=
  Pipeline.Window.ofSpec (Memref.whole main_v52_1) S2000x128.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev win2_0 : Pipeline.Window sig grid2 :=
  Pipeline.Window.ofSpec (Memref.whole main_v62) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v52_0) S2000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v64) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v67) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v70) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v73) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v74_0) S2000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v74_1) S2000x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S100000x32 : Shape := ⟨2, ![100000, 32]⟩
abbrev S2x625000 : Shape := ⟨2, ![2, 625000]⟩
abbrev S32x128 : Shape := ⟨2, ![32, 128]⟩
abbrev S128 : Shape := ⟨1, ![128]⟩
abbrev S3x128x128 : Shape := ⟨3, ![3, 128, 128]⟩
abbrev S3x128 : Shape := ⟨2, ![3, 128]⟩
abbrev S1x625000 : Shape := ⟨2, ![1, 625000]⟩
abbrev S625000 : Shape := ⟨1, ![625000]⟩
abbrev S_ : Shape := ⟨0, ![]⟩
abbrev S100000 : Shape := ⟨1, ![100000]⟩
abbrev S625000x1 : Shape := ⟨2, ![625000, 1]⟩
abbrev S100000x1 : Shape := ⟨2, ![100000, 1]⟩
abbrev S100000x128 : Shape := ⟨2, ![100000, 128]⟩
abbrev S1x128 : Shape := ⟨2, ![1, 128]⟩
abbrev S1x128x128 : Shape := ⟨3, ![1, 128, 128]⟩
abbrev S128x128 : Shape := ⟨2, ![128, 128]⟩
abbrev S625000x128 : Shape := ⟨2, ![625000, 128]⟩

abbrev nBuf : Space → Nat
  | .hbm => 274
  | .vmem => 0
  | .smem => 0
  | _ => 0

abbrev hbmTy0_0 (i : Nat) : BufTy := match i % 128 with
  | 0 => ⟨S100000x32, .f32⟩
  | 1 => ⟨S2x625000, .i32⟩
  | 2 => ⟨S32x128, .f32⟩
  | 3 => ⟨S128, .f32⟩
  | 4 => ⟨S128, .f32⟩
  | 5 => ⟨S128, .f32⟩
  | 6 => ⟨S3x128x128, .f32⟩
  | 7 => ⟨S3x128, .f32⟩
  | 8 => ⟨S3x128, .f32⟩
  | 9 => ⟨S3x128, .f32⟩
  | 10 => ⟨S1x625000, .i32⟩
  | 11 => ⟨S625000, .i32⟩
  | 12 => ⟨S1x625000, .i32⟩
  | 13 => ⟨S625000, .i32⟩
  | 14 => ⟨S_, .f32⟩
  | 15 => ⟨S625000, .f32⟩
  | 16 => ⟨S_, .f32⟩
  | 17 => ⟨S100000, .f32⟩
  | 18 => ⟨S625000x1, .i32⟩
  | 19 => ⟨S100000, .f32⟩
  | 20 => ⟨S_, .f32⟩
  | 21 => ⟨S100000, .f32⟩
  | 22 => ⟨S100000, .i1⟩
  | 23 => ⟨S_, .f32⟩
  | 24 => ⟨S100000, .f32⟩
  | 25 => ⟨S100000, .f32⟩
  | 26 => ⟨S_, .f32⟩
  | 27 => ⟨S100000, .f32⟩
  | 28 => ⟨S100000, .f32⟩
  | 29 => ⟨S_, .f32⟩
  | 30 => ⟨S_, .f32⟩
  | 31 => ⟨S100000, .f32⟩
  | 32 => ⟨S100000, .f32⟩
  | 33 => ⟨S100000x1, .f32⟩
  | 34 => ⟨S100000x128, .f32⟩
  | 35 => ⟨S1x128, .f32⟩
  | 36 => ⟨S100000x128, .f32⟩
  | 37 => ⟨S100000x128, .f32⟩
  | 38 => ⟨S100000x128, .f32⟩
  | 39 => ⟨S100000x128, .f32⟩
  | 40 => ⟨S_, .f32⟩
  | 41 => ⟨S100000x128, .f32⟩
  | 42 => ⟨S100000x128, .f32⟩
  | 43 => ⟨S_, .f32⟩
  | 44 => ⟨S100000x128, .f32⟩
  | 45 => ⟨S100000x128, .f32⟩
  | 46 => ⟨S100000x128, .f32⟩
  | 47 => ⟨S_, .f32⟩
  | 48 => ⟨S100000, .f32⟩
  | 49 => ⟨S100000x1, .f32⟩
  | 50 => ⟨S_, .f32⟩
  | 51 => ⟨S100000x1, .f32⟩
  | 52 => ⟨S100000x1, .f32⟩
  | 53 => ⟨S100000x128, .f32⟩
  | 54 => ⟨S100000x128, .f32⟩
  | 55 => ⟨S100000x128, .f32⟩
  | 56 => ⟨S_, .f32⟩
  | 57 => ⟨S100000, .f32⟩
  | 58 => ⟨S100000x1, .f32⟩
  | 59 => ⟨S_, .f32⟩
  | 60 => ⟨S100000x1, .f32⟩
  | 61 => ⟨S100000x1, .f32⟩
  | 62 => ⟨S100000x128, .f32⟩
  | 63 => ⟨S100000x128, .f32⟩
  | 64 => ⟨S_, .f32⟩
  | 65 => ⟨S100000x1, .f32⟩
  | 66 => ⟨S100000x1, .f32⟩
  | 67 => ⟨S100000x1, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S1x128x128, .f32⟩
  | 77 => ⟨S128x128, .f32⟩
  | 78 => ⟨S100000x128, .f32⟩
  | 79 => ⟨S1x128, .f32⟩
  | 80 => ⟨S128, .f32⟩
  | 81 => ⟨S1x128, .f32⟩
  | 82 => ⟨S100000x128, .f32⟩
  | 83 => ⟨S100000x128, .f32⟩
  | 84 => ⟨S100000x128, .f32⟩
  | 85 => ⟨S100000x128, .f32⟩
  | 86 => ⟨S_, .f32⟩
  | 87 => ⟨S100000x128, .f32⟩
  | 88 => ⟨S100000x128, .f32⟩
  | 89 => ⟨S_, .f32⟩
  | 90 => ⟨S100000x128, .f32⟩
  | 91 => ⟨S100000x128, .f32⟩
  | 92 => ⟨S100000x128, .f32⟩
  | 93 => ⟨S1x128, .f32⟩
  | 94 => ⟨S128, .f32⟩
  | 95 => ⟨S1x128, .f32⟩
  | 96 => ⟨S128, .f32⟩
  | 97 => ⟨S_, .f32⟩
  | 98 => ⟨S100000, .f32⟩
  | 99 => ⟨S100000x1, .f32⟩
  | 100 => ⟨S_, .f32⟩
  | 101 => ⟨S100000x1, .f32⟩
  | 102 => ⟨S100000x1, .f32⟩
  | 103 => ⟨S100000x128, .f32⟩
  | 104 => ⟨S100000x128, .f32⟩
  | 105 => ⟨S100000x128, .f32⟩
  | 106 => ⟨S_, .f32⟩
  | 107 => ⟨S100000, .f32⟩
  | 108 => ⟨S100000x1, .f32⟩
  | 109 => ⟨S_, .f32⟩
  | 110 => ⟨S100000x1, .f32⟩
  | 111 => ⟨S100000x1, .f32⟩
  | 112 => ⟨S100000x128, .f32⟩
  | 113 => ⟨S100000x128, .f32⟩
  | 114 => ⟨S_, .f32⟩
  | 115 => ⟨S100000x1, .f32⟩
  | 116 => ⟨S100000x1, .f32⟩
  | 117 => ⟨S100000x1, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .i32⟩
  | 127 => ⟨S625000, .i32⟩
  | _ => ⟨S100000x32, .f32⟩

abbrev hbmTy0_1 (i : Nat) : BufTy := match i % 128 with
  | 0 => ⟨S625000, .i1⟩
  | 1 => ⟨S_, .i32⟩
  | 2 => ⟨S625000, .i32⟩
  | 3 => ⟨S625000, .i32⟩
  | 4 => ⟨S625000, .i32⟩
  | 5 => ⟨S625000x1, .i32⟩
  | 6 => ⟨S625000x128, .f32⟩
  | 7 => ⟨S_, .f32⟩
  | 8 => ⟨S100000x128, .f32⟩
  | 9 => ⟨S625000x1, .i32⟩
  | 10 => ⟨S100000x128, .f32⟩
  | 11 => ⟨S100000x128, .f32⟩
  | 12 => ⟨S100000x128, .f32⟩
  | 13 => ⟨S100000x128, .f32⟩
  | 14 => ⟨S1x128x128, .f32⟩
  | 15 => ⟨S128x128, .f32⟩
  | 16 => ⟨S100000x128, .f32⟩
  | 17 => ⟨S1x128, .f32⟩
  | 18 => ⟨S128, .f32⟩
  | 19 => ⟨S1x128, .f32⟩
  | 20 => ⟨S100000x128, .f32⟩
  | 21 => ⟨S100000x128, .f32⟩
  | 22 => ⟨S100000x128, .f32⟩
  | 23 => ⟨S100000x128, .f32⟩
  | 24 => ⟨S_, .f32⟩
  | 25 => ⟨S100000x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S1x128, .f32⟩
  | 32 => ⟨S128, .f32⟩
  | 33 => ⟨S1x128, .f32⟩
  | 34 => ⟨S128, .f32⟩
  | 35 => ⟨S_, .f32⟩
  | 36 => ⟨S100000, .f32⟩
  | 37 => ⟨S100000x1, .f32⟩
  | 38 => ⟨S_, .f32⟩
  | 39 => ⟨S100000x1, .f32⟩
  | 40 => ⟨S100000x1, .f32⟩
  | 41 => ⟨S100000x128, .f32⟩
  | 42 => ⟨S100000x128, .f32⟩
  | 43 => ⟨S100000x128, .f32⟩
  | 44 => ⟨S_, .f32⟩
  | 45 => ⟨S100000, .f32⟩
  | 46 => ⟨S100000x1, .f32⟩
  | 47 => ⟨S_, .f32⟩
  | 48 => ⟨S100000x1, .f32⟩
  | 49 => ⟨S100000x1, .f32⟩
  | 50 => ⟨S100000x128, .f32⟩
  | 51 => ⟨S100000x128, .f32⟩
  | 52 => ⟨S_, .f32⟩
  | 53 => ⟨S100000x1, .f32⟩
  | 54 => ⟨S100000x1, .f32⟩
  | 55 => ⟨S100000x1, .f32⟩
  | 56 => ⟨S100000x128, .f32⟩
  | 57 => ⟨S100000x128, .f32⟩
  | 58 => ⟨S1x128, .f32⟩
  | 59 => ⟨S100000x128, .f32⟩
  | 60 => ⟨S100000x128, .f32⟩
  | 61 => ⟨S1x128, .f32⟩
  | 62 => ⟨S100000x128, .f32⟩
  | 63 => ⟨S100000x128, .f32⟩
  | 64 => ⟨S_, .i32⟩
  | 65 => ⟨S625000, .i32⟩
  | 66 => ⟨S625000, .i1⟩
  | 67 => ⟨S_, .i32⟩
  | 68 => ⟨S625000, .i32⟩
  | 69 => ⟨S625000, .i32⟩
  | 70 => ⟨S625000, .i32⟩
  | 71 => ⟨S625000x1, .i32⟩
  | 72 => ⟨S625000x128, .f32⟩
  | 73 => ⟨S_, .f32⟩
  | 74 => ⟨S100000x128, .f32⟩
  | 75 => ⟨S625000x1, .i32⟩
  | 76 => ⟨S100000x128, .f32⟩
  | 77 => ⟨S100000x128, .f32⟩
  | 78 => ⟨S100000x128, .f32⟩
  | 79 => ⟨S100000x128, .f32⟩
  | 80 => ⟨S1x128x128, .f32⟩
  | 81 => ⟨S128x128, .f32⟩
  | 82 => ⟨S100000x128, .f32⟩
  | 83 => ⟨S1x128, .f32⟩
  | 84 => ⟨S128, .f32⟩
  | 85 => ⟨S1x128, .f32⟩
  | 86 => ⟨S100000x128, .f32⟩
  | 87 => ⟨S100000x128, .f32⟩
  | 88 => ⟨S100000x128, .f32⟩
  | 89 => ⟨S100000x128, .f32⟩
  | 90 => ⟨S_, .f32⟩
  | 91 => ⟨S100000x128, .f32⟩
  | 92 => ⟨S100000x128, .f32⟩
  | 93 => ⟨S_, .f32⟩
  | 94 => ⟨S100000x128, .f32⟩
  | 95 => ⟨S100000x128, .f32⟩
  | 96 => ⟨S100000x128, .f32⟩
  | 97 => ⟨S1x128, .f32⟩
  | 98 => ⟨S128, .f32⟩
  | 99 => ⟨S1x128, .f32⟩
  | 100 => ⟨S128, .f32⟩
  | 101 => ⟨S_, .f32⟩
  | 102 => ⟨S100000, .f32⟩
  | 103 => ⟨S100000x1, .f32⟩
  | 104 => ⟨S_, .f32⟩
  | 105 => ⟨S100000x1, .f32⟩
  | 106 => ⟨S100000x1, .f32⟩
  | 107 => ⟨S100000x128, .f32⟩
  | 108 => ⟨S100000x128, .f32⟩
  | 109 => ⟨S100000x128, .f32⟩
  | 110 => ⟨S_, .f32⟩
  | 111 => ⟨S100000, .f32⟩
  | 112 => ⟨S100000x1, .f32⟩
  | 113 => ⟨S_, .f32⟩
  | 114 => ⟨S100000x1, .f32⟩
  | 115 => ⟨S100000x1, .f32⟩
  | 116 => ⟨S100000x128, .f32⟩
  | 117 => ⟨S100000x128, .f32⟩
  | 118 => ⟨S_, .f32⟩
  | 119 => ⟨S100000x1, .f32⟩
  | 120 => ⟨S100000x1, .f32⟩
  | 121 => ⟨S100000x1, .f32⟩
  | 122 => ⟨S100000x128, .f32⟩
  | 123 => ⟨S100000x128, .f32⟩
  | 124 => ⟨S1x128, .f32⟩
  | 125 => ⟨S100000x128, .f32⟩
  | 126 => ⟨S100000x128, .f32⟩
  | 127 => ⟨S1x128, .f32⟩
  | _ => ⟨S100000x32, .f32⟩

abbrev hbmTy0_2 (i : Nat) : BufTy := match i % 128 with
  | 0 => ⟨S100000x128, .f32⟩
  | 1 => ⟨S100000x128, .f32⟩
  | 2 => ⟨S_, .i32⟩
  | 3 => ⟨S625000, .i32⟩
  | 4 => ⟨S625000, .i1⟩
  | 5 => ⟨S_, .i32⟩
  | 6 => ⟨S625000, .i32⟩
  | 7 => ⟨S625000, .i32⟩
  | 8 => ⟨S625000, .i32⟩
  | 9 => ⟨S625000x1, .i32⟩
  | 10 => ⟨S625000x128, .f32⟩
  | 11 => ⟨S_, .f32⟩
  | 12 => ⟨S100000x128, .f32⟩
  | 13 => ⟨S625000x1, .i32⟩
  | 14 => ⟨S100000x128, .f32⟩
  | 15 => ⟨S100000x128, .f32⟩
  | 16 => ⟨S100000x128, .f32⟩
  | 17 => ⟨S100000x128, .f32⟩
  | _ => ⟨S100000x32, .f32⟩

abbrev hbmTy (i : Nat) : BufTy := match i / 128 with
  | 0 => hbmTy0_0 i
  | 1 => hbmTy0_1 i
  | 2 => hbmTy0_2 i
  | _ => ⟨S100000x32, .f32⟩

abbrev bufTy : (tb : Table) → Fin (tcTables nBuf tb) → BufTy
  | .hbm, ⟨i, _⟩ => hbmTy i
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_v11 : Ref sig .tc := ⟨.hbm, 25, rfl⟩
abbrev main_cst_3 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_call0_v0 : Ref sig .tc := ⟨.hbm, 30, rfl⟩
abbrev main_call0_v1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v20 : Ref sig .tc := ⟨.hbm, 46, rfl⟩
abbrev main_cst_5 : Ref sig .tc := ⟨.hbm, 47, rfl⟩
abbrev main_v21 : Ref sig .tc := ⟨.hbm, 48, rfl⟩
abbrev main_v22 : Ref sig .tc := ⟨.hbm, 49, rfl⟩
abbrev main_cst_6 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_cst_7 : Ref sig .tc := ⟨.hbm, 56, rfl⟩
abbrev main_v28 : Ref sig .tc := ⟨.hbm, 57, rfl⟩
abbrev main_v29 : Ref sig .tc := ⟨.hbm, 58, rfl⟩
abbrev main_cst_8 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_cst_9 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_call2_v0 : Ref sig .tc := ⟨.hbm, 84, rfl⟩
abbrev main_call2_v1 : Ref sig .tc := ⟨.hbm, 85, rfl⟩
abbrev main_call2_cst : Ref sig .tc := ⟨.hbm, 86, rfl⟩
abbrev main_call2_v2 : Ref sig .tc := ⟨.hbm, 87, rfl⟩
abbrev main_call2_v3 : Ref sig .tc := ⟨.hbm, 88, rfl⟩
abbrev main_call2_cst_0 : Ref sig .tc := ⟨.hbm, 89, rfl⟩
abbrev main_call2_v4 : Ref sig .tc := ⟨.hbm, 90, rfl⟩
abbrev main_call2_v5 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_cst_10 : Ref sig .tc := ⟨.hbm, 97, rfl⟩
abbrev main_v58 : Ref sig .tc := ⟨.hbm, 98, rfl⟩
abbrev main_v59 : Ref sig .tc := ⟨.hbm, 99, rfl⟩
abbrev main_cst_11 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_12 : Ref sig .tc := ⟨.hbm, 106, rfl⟩
abbrev main_v65 : Ref sig .tc := ⟨.hbm, 107, rfl⟩
abbrev main_v66 : Ref sig .tc := ⟨.hbm, 108, rfl⟩
abbrev main_cst_13 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_cst_14 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_c : Ref sig .tc := ⟨.hbm, 126, rfl⟩
abbrev main_v82 : Ref sig .tc := ⟨.hbm, 127, rfl⟩
abbrev main_v83 : Ref sig .tc := ⟨.hbm, 128, rfl⟩
abbrev main_c_15 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_cst_16 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_call3_v0 : Ref sig .tc := ⟨.hbm, 150, rfl⟩
abbrev main_call3_v1 : Ref sig .tc := ⟨.hbm, 151, rfl⟩
abbrev main_call3_cst : Ref sig .tc := ⟨.hbm, 152, rfl⟩
abbrev main_call3_v2 : Ref sig .tc := ⟨.hbm, 153, rfl⟩
abbrev main_call3_v3 : Ref sig .tc := ⟨.hbm, 154, rfl⟩
abbrev main_call3_cst_0 : Ref sig .tc := ⟨.hbm, 155, rfl⟩
abbrev main_call3_v4 : Ref sig .tc := ⟨.hbm, 156, rfl⟩
abbrev main_call3_v5 : Ref sig .tc := ⟨.hbm, 157, rfl⟩
abbrev main_v103 : Ref sig .tc := ⟨.hbm, 158, rfl⟩
abbrev main_v104 : Ref sig .tc := ⟨.hbm, 159, rfl⟩
abbrev main_v105 : Ref sig .tc := ⟨.hbm, 160, rfl⟩
abbrev main_v106 : Ref sig .tc := ⟨.hbm, 161, rfl⟩
abbrev main_v107 : Ref sig .tc := ⟨.hbm, 162, rfl⟩
abbrev main_cst_17 : Ref sig .tc := ⟨.hbm, 163, rfl⟩
abbrev main_v108 : Ref sig .tc := ⟨.hbm, 164, rfl⟩
abbrev main_v109 : Ref sig .tc := ⟨.hbm, 165, rfl⟩
abbrev main_cst_18 : Ref sig .tc := ⟨.hbm, 166, rfl⟩
abbrev main_v110 : Ref sig .tc := ⟨.hbm, 167, rfl⟩
abbrev main_v111 : Ref sig .tc := ⟨.hbm, 168, rfl⟩
abbrev main_v112 : Ref sig .tc := ⟨.hbm, 169, rfl⟩
abbrev main_v113 : Ref sig .tc := ⟨.hbm, 170, rfl⟩
abbrev main_v114 : Ref sig .tc := ⟨.hbm, 171, rfl⟩
abbrev main_cst_19 : Ref sig .tc := ⟨.hbm, 172, rfl⟩
abbrev main_v115 : Ref sig .tc := ⟨.hbm, 173, rfl⟩
abbrev main_v116 : Ref sig .tc := ⟨.hbm, 174, rfl⟩
abbrev main_cst_20 : Ref sig .tc := ⟨.hbm, 175, rfl⟩
abbrev main_v117 : Ref sig .tc := ⟨.hbm, 176, rfl⟩
abbrev main_v118 : Ref sig .tc := ⟨.hbm, 177, rfl⟩
abbrev main_v119 : Ref sig .tc := ⟨.hbm, 178, rfl⟩
abbrev main_v120 : Ref sig .tc := ⟨.hbm, 179, rfl⟩
abbrev main_cst_21 : Ref sig .tc := ⟨.hbm, 180, rfl⟩
abbrev main_v121 : Ref sig .tc := ⟨.hbm, 181, rfl⟩
abbrev main_v122 : Ref sig .tc := ⟨.hbm, 182, rfl⟩
abbrev main_v123 : Ref sig .tc := ⟨.hbm, 183, rfl⟩
abbrev main_v124 : Ref sig .tc := ⟨.hbm, 184, rfl⟩
abbrev main_v125 : Ref sig .tc := ⟨.hbm, 185, rfl⟩
abbrev main_v126 : Ref sig .tc := ⟨.hbm, 186, rfl⟩
abbrev main_v127 : Ref sig .tc := ⟨.hbm, 187, rfl⟩
abbrev main_v128 : Ref sig .tc := ⟨.hbm, 188, rfl⟩
abbrev main_v129 : Ref sig .tc := ⟨.hbm, 189, rfl⟩
abbrev main_v130 : Ref sig .tc := ⟨.hbm, 190, rfl⟩
abbrev main_v131 : Ref sig .tc := ⟨.hbm, 191, rfl⟩
abbrev main_c_22 : Ref sig .tc := ⟨.hbm, 192, rfl⟩
abbrev main_v132 : Ref sig .tc := ⟨.hbm, 193, rfl⟩
abbrev main_v133 : Ref sig .tc := ⟨.hbm, 194, rfl⟩
abbrev main_c_23 : Ref sig .tc := ⟨.hbm, 195, rfl⟩
abbrev main_v134 : Ref sig .tc := ⟨.hbm, 196, rfl⟩
abbrev main_v135 : Ref sig .tc := ⟨.hbm, 197, rfl⟩
abbrev main_v136 : Ref sig .tc := ⟨.hbm, 198, rfl⟩
abbrev main_v137 : Ref sig .tc := ⟨.hbm, 199, rfl⟩
abbrev main_v138 : Ref sig .tc := ⟨.hbm, 200, rfl⟩
abbrev main_cst_24 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_v147 : Ref sig .tc := ⟨.hbm, 210, rfl⟩
abbrev main_v148 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_call4_v0 : Ref sig .tc := ⟨.hbm, 216, rfl⟩
abbrev main_call4_v1 : Ref sig .tc := ⟨.hbm, 217, rfl⟩
abbrev main_call4_cst : Ref sig .tc := ⟨.hbm, 218, rfl⟩
abbrev main_call4_v2 : Ref sig .tc := ⟨.hbm, 219, rfl⟩
abbrev main_call4_v3 : Ref sig .tc := ⟨.hbm, 220, rfl⟩
abbrev main_call4_cst_0 : Ref sig .tc := ⟨.hbm, 221, rfl⟩
abbrev main_call4_v4 : Ref sig .tc := ⟨.hbm, 222, rfl⟩
abbrev main_call4_v5 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_v156 : Ref sig .tc := ⟨.hbm, 227, rfl⟩
abbrev main_v157 : Ref sig .tc := ⟨.hbm, 228, rfl⟩
abbrev main_cst_25 : Ref sig .tc := ⟨.hbm, 229, rfl⟩
abbrev main_v158 : Ref sig .tc := ⟨.hbm, 230, rfl⟩
abbrev main_v159 : Ref sig .tc := ⟨.hbm, 231, rfl⟩
abbrev main_cst_26 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_cst_27 : Ref sig .tc := ⟨.hbm, 238, rfl⟩
abbrev main_v165 : Ref sig .tc := ⟨.hbm, 239, rfl⟩
abbrev main_v166 : Ref sig .tc := ⟨.hbm, 240, rfl⟩
abbrev main_cst_28 : Ref sig .tc := ⟨.hbm, 241, rfl⟩
abbrev main_v167 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_cst_29 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_c_30 : Ref sig .tc := ⟨.hbm, 258, rfl⟩
abbrev main_v182 : Ref sig .tc := ⟨.hbm, 259, rfl⟩
abbrev main_v183 : Ref sig .tc := ⟨.hbm, 260, rfl⟩
abbrev main_c_31 : Ref sig .tc := ⟨.hbm, 261, rfl⟩
abbrev main_v184 : Ref sig .tc := ⟨.hbm, 262, rfl⟩
abbrev main_v185 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_cst_32 : Ref sig .tc := ⟨.hbm, 267, rfl⟩
abbrev main_v189 : Ref sig .tc := ⟨.hbm, 268, rfl⟩
abbrev main_v190 : Ref sig .tc := ⟨.hbm, 269, rfl⟩
abbrev main_v191 : Ref sig .tc := ⟨.hbm, 270, rfl⟩
abbrev main_v192 : Ref sig .tc := ⟨.hbm, 271, rfl⟩
abbrev main_v193 : Ref sig .tc := ⟨.hbm, 272, rfl⟩
abbrev main_v194 : Ref sig .tc := ⟨.hbm, 273, rfl⟩

abbrev nD : Nat := 1
abbrev τ : Topo := Topo.v7x

variable {F : FTy → Type} [FloatOps F]

class Facts₀ : Prop where
  slices_S2x625000_S1x625000_0_0 : S2x625000.Slices ![0, 0] S1x625000
  shapeCasts_S1x625000_S625000 : S1x625000.ShapeCasts S625000
  slices_S2x625000_S1x625000_1_0 : S2x625000.Slices ![1, 0] S1x625000
  bcast_S_S625000 : S_.BroadcastsInDim S625000 (![] : Fin 0 → Fin S625000.rank)
  bcast_S_S100000 : S_.BroadcastsInDim S100000 (![] : Fin 0 → Fin S100000.rank)
  bcast_S625000_S625000x1_0 : S625000.BroadcastsInDim S625000x1 (![0] : Fin 1 → Fin S625000x1.rank)
  bcast_S100000_S100000x1_0 : S100000.BroadcastsInDim S100000x1 (![0] : Fin 1 → Fin S100000x1.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S625000x1_S625000_n_0_0_1_wf : ScatterDims.WF S100000 S625000x1 S625000 [] [0] [0] 1
  dot_S100000x32_S32x128_S100000x128_1_0_0_1_n_n_wf : DotDims.WF S100000x32 S32x128 S100000x128 [1] [0] [0] [1] [] []
  dot_S100000x128_S128x128_S100000x128_1_0_0_1_n_n_wf : DotDims.WF S100000x128 S128x128 S100000x128 [1] [0] [0] [1] [] []
  gather_S100000x128_S625000x1_S625000x128_1_0_n_n_0_1_1128_wf : GatherDims.WF S100000x128 S625000x1 S625000x128 [1] [0] [] [0] [] 1 ![1, 128]
  scatter_S100000x128_S625000x1_S625000x128_1_0_0_1_wf : ScatterDims.WF S100000x128 S625000x1 S625000x128 [1] [0] [0] 1

variable [Facts₀]

def scatter_S100000_S625000x1_S625000_n_0_0_1 : ScatterDims S100000 S625000x1 S625000 where
  updateWindowDims := []
  insertedWindowDims := [0]
  scatterDimsToOperandDims := [0]
  indexVectorDim := 1
  wf := scatter_S100000_S625000x1_S625000_n_0_0_1_wf
def dot_S100000x32_S32x128_S100000x128_1_0_0_1_n_n : DotDims S100000x32 S32x128 S100000x128 where
  lhsContracting := [1]
  rhsContracting := [0]
  lhsNonContracting := [0]
  rhsNonContracting := [1]
  lhsBatch := []
  rhsBatch := []
  wf := dot_S100000x32_S32x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S625000x1_S625000x128_1_0_n_n_0_1_1128 : GatherDims S100000x128 S625000x1 S625000x128 where
  offsetDims := [1]
  collapsedSliceDims := [0]
  operandBatchingDims := []
  startIndicesBatchingDims := []
  startIndexMap := [0]
  indexVectorDim := 1
  sliceSizes := ![1, 128]
  wf := gather_S100000x128_S625000x1_S625000x128_1_0_n_n_0_1_1128_wf
def scatter_S100000x128_S625000x1_S625000x128_1_0_0_1 : ScatterDims S100000x128 S625000x1 S625000x128 where
  updateWindowDims := [1]
  insertedWindowDims := [0]
  scatterDimsToOperandDims := [0]
  indexVectorDim := 1
  wf := scatter_S100000x128_S625000x1_S625000x128_1_0_0_1_wf

class Facts : Prop extends Facts₀ where

variable [Facts]
-- ==== Proof.Spec.lean ====
/-
  The mathematics both programs compute, over the extended reals, row by row.

  A node's feature row `x` goes through a dense layer: the affine map `x · W + b`, the gate `y · σ(y)` with
  `σ(y) = 1 / (1 + e^{-y})`, and a normalisation over the 128 features: subtract the mean, scale by the inverse
  square root of the variance plus a small constant, then scale by `g` and shift by `be`. Between dense layers
  the node state is updated by `a · i + h`: the aggregated messages `a` of the node's in-neighbours, the node's
  inverse in-degree `i`, and the previous state `h`. Which rows are summed into `a` depends on the edge list;
  that aggregation is kept here as a parameter.
-/
import Idealize.ShloMosaic.PureOps.Ideal
import Idealize.ShloMosaic.Lib.ValueIdx

noncomputable section

namespace Cert.Spec

open Idealize.ShloMosaic Idealize.ShloMosaic.ValueIdx

/-- A rank-two array of extended reals with `n0` rows and `n1` columns. -/
abbrev Arr2 (n0 n1 : Nat) : Type := (⟨2, ![n0, n1]⟩ : Shape).Idx → EReal
/-- A rank-one array. -/
abbrev Arr1 (n : Nat) : Type := (⟨1, ![n]⟩ : Shape).Idx → EReal
/-- A rank-three array. -/
abbrev Arr3 (n0 n1 n2 : Nat) : Type := (⟨3, ![n0, n1, n2]⟩ : Shape).Idx → EReal

/-! ## One row -/

/-- The affine map of a row: entry `j` of `x · W + b`. -/
def lin {K : Nat} (x : Fin K → EReal) (w : Fin K → Fin 128 → EReal) (b : Fin 128 → EReal) (j : Fin 128) : EReal :=
  (∑ k : Fin K, x k * w k j) + b j

/-- The gate `y · σ(y)`. -/
def silu (y : EReal) : EReal := y * Ideal.logistic y

/-- The number of features, 128, as both programs spell it. -/
def n128 : EReal := Ideal.ofBits .f32 0x43000000#32
/-- The small constant added to the variance, the single-precision value nearest to 10⁻⁵ in both programs. -/
def eps : EReal := Ideal.ofBits .f32 0x3727C5AC#32

/-- The mean of a row of 128 features. -/
def mean (a : Fin 128 → EReal) : EReal := Ideal.div (∑ j : Fin 128, a j) n128
/-- The mean squared deviation of a row from its mean. -/
def var (a : Fin 128 → EReal) : EReal := Ideal.div (∑ j : Fin 128, (a j - mean a) * (a j - mean a)) n128

/-- The normalisation of a row: `(a_j - mean) · (var + eps)^{-1/2} · g_j + be_j`. -/
def ln (a g be : Fin 128 → EReal) (j : Fin 128) : EReal :=
  (a j - mean a) * Ideal.rsqrt (var a + eps) * g j + be j

/-- One dense layer on a row: affine map, gate, normalisation. -/
def layer {K : Nat} (x : Fin K → EReal) (w : Fin K → Fin 128 → EReal) (b g be : Fin 128 → EReal) : Fin 128 → EReal :=
  ln (fun j => silu (lin x w b j)) g be

/-- The state update of one entry: aggregated messages times inverse in-degree, plus the previous state. -/
def resid (a i h : EReal) : EReal := a * i + h

/-! ## Arrays as rows -/

/-- Row `r` of a rank-two array. -/
def row {n0 n1 : Nat} (X : Arr2 n0 n1) (r : Fin n0) : Fin n1 → EReal := fun k => X (ix2 r k)
/-- A rank-two array as a function of its two coordinates. -/
def mat {n0 n1 : Nat} (X : Arr2 n0 n1) : Fin n0 → Fin n1 → EReal := fun k j => X (ix2 k j)
/-- The rank-two array with the given rows. -/
def ofRows {n0 n1 : Nat} (f : Fin n0 → Fin n1 → EReal) : Arr2 n0 n1 := fun i => f (i 0) (i 1)

theorem ofRows_ix2 {n0 n1 : Nat} (f : Fin n0 → Fin n1 → EReal) (r : Fin n0) (j : Fin n1) :
    ofRows f (ix2 r j) = f r j := rfl

theorem ofRows_apply {n0 n1 : Nat} (f : Fin n0 → Fin n1 → EReal) (i : (⟨2, ![n0, n1]⟩ : Shape).Idx) :
    ofRows f i = f (i 0) (i 1) := rfl

/-- A vector of 128 entries laid out as the one row of a [1, 128] array. -/
def vec1 (b : Arr1 128) : Arr2 1 128 := fun i => b (ix1 (i 1))
/-- Slice `l` of a stack of three 128 × 128 matrices. -/
def wsl (ws : Arr3 3 128 128) (l : Fin 3) : Arr2 128 128 := fun i => ws (ix3 l (i 0) (i 1))
/-- Row `l` of a [3, 128] array laid out as the one row of a [1, 128] array. -/
def vsl (bs : Arr2 3 128) (l : Fin 3) : Arr2 1 128 := fun i => bs (ix2 l (i 1))

/-! ## Whole arrays -/

/-- A dense layer applied to every row: row `r` of the result depends on row `r` of `X` only. -/
def dense {N K : Nat} (X : Arr2 N K) (W : Arr2 K 128) (b g be : Arr2 1 128) : Arr2 N 128 :=
  ofRows fun r => layer (row X r) (mat W) (row b 0) (row g 0) (row be 0)

/-- The state update applied to every entry; the inverse in-degree is a column. -/
def update {N : Nat} (A : Arr2 N 128) (I : Arr2 N 1) (H : Arr2 N 128) : Arr2 N 128 :=
  ofRows fun r j => resid (A (ix2 r j)) (I (ix2 r 0)) (H (ix2 r j))

/-- The whole network: an embedding layer, then three rounds of message layer, aggregation and state update. -/
def model {N : Nat} (agg : Arr2 N 128 → Arr2 N 128) (inv : Arr2 N 1)
    (x : Arr2 N 32) (w0 : Arr2 32 128) (b0 g0 be0 : Arr1 128)
    (ws : Arr3 3 128 128) (bs gs bes : Arr2 3 128) : Arr2 N 128 :=
  let h0 := dense x w0 (vec1 b0) (vec1 g0) (vec1 be0)
  let z0 := dense h0 (wsl ws 0) (vsl bs 0) (vsl gs 0) (vsl bes 0)
  let h1 := update (agg z0) inv h0
  let z1 := dense h1 (wsl ws 1) (vsl bs 1) (vsl gs 1) (vsl bes 1)
  let h2 := update (agg z1) inv h1
  let z2 := dense h2 (wsl ws 2) (vsl bs 2) (vsl gs 2) (vsl bes 2)
  update (agg z2) inv h2

end Cert.Spec

end
-- ==== Proof.KerBody.lean ====
/-
  The arithmetic of each kernel body on one block of 2000 rows, read entry by entry: every stored value at row `p`,
  feature `q` is the row-level formula of `Spec` applied to row `p` of the loaded blocks.

  A body is cut into stages on whole blocks: the affine map (a product into the zero block plus a bias row), the gate,
  the normalisation before its scale and shift (row means and variances as columns laid back over the features), and the
  closing scale and shift by two rows. Each stage is read at (p, q); the six stored values are compositions of the stages.
-/
import proofs.«400524_j3736621548265_3_alg».proof.Proof.Gen.KernelIdeal.Skeleton
import proofs.«400524_j3736621548265_3_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Body

open Cert.KernelIdeal Cert.KernelIdeal.Gen Cert.Spec
open Idealize.ShloMosaic Idealize.ShloMosaic.ValueIdx

/-! ## Layout operations of one block, read at row p, feature q -/

/-- A [1,128] row broadcast over the 2000 rows reads, at (p, q), the row's entry q. -/
theorem bcastRow_apply (v : Vec Ideal S1x128 .f32) (p : Fin 2000) (q : Fin 128) :
    broadcastTo S2000x128 (shapeCast S1x128 v shapeCasts_S1x128_S1x128) broadcasts_S1x128_S2000x128 (ix2 p q)
      = v (ix2 0 q) := by
  rw [shapeCast_self]
  exact broadcastTo_1b_ab_apply v broadcasts_S1x128_S2000x128 p q

/-- A [2000,1] column broadcast over the 128 features reads, at (p, q), the column's entry p. -/
theorem bcastCol_apply (c : FVec Ideal S2000x1 .f32) (p : Fin 2000) (q : Fin 128) :
    broadcastTo S2000x128 c broadcasts_S2000x1_S2000x128 (ix2 p q) = c (ix2 p 0) := by
  refine broadcastTo_apply c broadcasts_S2000x1_S2000x128 (ix2 p q) (ix2 p 0) fun ax => ?_
  match ax with
  | ⟨0, _⟩ =>
    show p.val = if (2000 : Nat) = 1 then 0 else p.val
    rw [if_neg (by decide)]
  | ⟨1, _⟩ =>
    show (0 : Nat) = if (1 : Nat) = 1 then 0 else q.val
    rw [if_pos rfl]

/-- A vector of 2000 entries viewed as a [2000,1] column reads, at (p, u), entry p. -/
theorem colCast_apply (r : FVec Ideal S2000 .f32) (p : Fin 2000) (u : Fin 1) :
    shapeCast S2000x1 r shapeCasts_S2000_S2000x1 (ix2 p u) = r (ix1 p) :=
  shapeCast_apply r shapeCasts_S2000_S2000x1 _ _ (by
    have hu : u.val = 0 := by omega
    rw [Shape.rowMajor_val_two, Shape.rowMajor_val_one]
    show p.val = p.val * 1 + u.val
    rw [hu, Nat.mul_one, Nat.add_zero])

/-- The sum over the 128 features of row p. -/
theorem laneSum_apply (a : FVec Ideal S2000x128 .f32) (p : Fin 2000) :
    multiReduction (F := Ideal) .add [1] S2000 a 0x00000000#32 reduces_S2000x128_S2000 (.inl rfl) rfl (ix1 p)
      = ∑ k : Fin 128, a (ix2 p k) := by
  refine (Ideal.multiReduction_add_single a _ reduces_S2000x128_S2000 _ _ (ix1 p)).trans ?_
  refine Finset.sum_congr rfl fun k _ => congrArg a ?_
  funext ax
  match ax with
  | ⟨0, _⟩ => rfl
  | ⟨1, _⟩ => rfl

/-! ## The two matrix products, read at row p, feature q -/

theorem lhs32_0 (i : S2000x128.Idx) (c : dot_S2000x32_S32x128_S2000x128_1_0_0_1_n_n.contr.Idx) :
    (dot_S2000x32_S32x128_S2000x128_1_0_0_1_n_n.lhsIdx i c 0).val = (i 0).val := by
  unfold DotDims.lhsIdx
  rw [dif_neg (show ¬(0 : Fin S2000x32.rank) ∈ dot_S2000x32_S32x128_S2000x128_1_0_0_1_n_n.lhsBatch by decide), dif_pos (show (0 : Fin S2000x32.rank) ∈ dot_S2000x32_S32x128_S2000x128_1_0_0_1_n_n.lhsNonContracting by decide)]
  rfl
theorem lhs32_1 (i : S2000x128.Idx) (c : dot_S2000x32_S32x128_S2000x128_1_0_0_1_n_n.contr.Idx) :
    (dot_S2000x32_S32x128_S2000x128_1_0_0_1_n_n.lhsIdx i c 1).val = (c ⟨0, by decide⟩).val :=
  dot_S2000x32_S32x128_S2000x128_1_0_0_1_n_n.lhsIdx_val_of_single rfl i c
theorem rhs32_0 (i : S2000x128.Idx) (c : dot_S2000x32_S32x128_S2000x128_1_0_0_1_n_n.contr.Idx) :
    (dot_S2000x32_S32x128_S2000x128_1_0_0_1_n_n.rhsIdx i c 0).val = (c ⟨0, by decide⟩).val :=
  dot_S2000x32_S32x128_S2000x128_1_0_0_1_n_n.rhsIdx_val_of_single rfl i c
theorem rhs32_1 (i : S2000x128.Idx) (c : dot_S2000x32_S32x128_S2000x128_1_0_0_1_n_n.contr.Idx) :
    (dot_S2000x32_S32x128_S2000x128_1_0_0_1_n_n.rhsIdx i c 1).val = (i 1).val := by
  unfold DotDims.rhsIdx
  rw [dif_neg (show ¬(1 : Fin S32x128.rank) ∈ dot_S2000x32_S32x128_S2000x128_1_0_0_1_n_n.rhsBatch by decide), dif_pos (show (1 : Fin S32x128.rank) ∈ dot_S2000x32_S32x128_S2000x128_1_0_0_1_n_n.rhsNonContracting by decide)]
  rfl

/-- The product of a [2000,32] block with a [32,128] matrix into the zero block: at (p, q) the sum over the 32 contracted
    coordinates of row p of the left factor times column q of the right one. -/
theorem matmul32_apply {φ₁ φ₂ : FTy} (l : FVec Ideal S2000x32 φ₁) (r : FVec Ideal S32x128 φ₂) (p : Fin 2000) (q : Fin 128) :
    matmul dot_S2000x32_S32x128_S2000x128_1_0_0_1_n_n none l r (constant (F := Ideal) S2000x128 .f32 0x00000000#32) (ix2 p q)
      = ∑ k : Fin 32, l (ix2 p k) * r (ix2 k q) := by
  simp only [matmul]
  rw [Ideal.matmul_constant_zero_apply, ← Equiv.sum_comp (ValueIdx.contrEquiv1 dot_S2000x32_S32x128_S2000x128_1_0_0_1_n_n 32 rfl rfl).symm]
  refine Finset.sum_congr rfl fun k _ => ?_
  have hk := ValueIdx.contrEquiv1_symm_val dot_S2000x32_S32x128_S2000x128_1_0_0_1_n_n 32 rfl rfl k
  have el : dot_S2000x32_S32x128_S2000x128_1_0_0_1_n_n.lhsIdx (ix2 p q) ((ValueIdx.contrEquiv1 dot_S2000x32_S32x128_S2000x128_1_0_0_1_n_n 32 rfl rfl).symm k) = ix2 p k := funext fun a => Fin.ext (by
    match a with
    | ⟨0, _⟩ => exact lhs32_0 _ _
    | ⟨1, _⟩ => exact (lhs32_1 _ _).trans hk)
  have er : dot_S2000x32_S32x128_S2000x128_1_0_0_1_n_n.rhsIdx (ix2 p q) ((ValueIdx.contrEquiv1 dot_S2000x32_S32x128_S2000x128_1_0_0_1_n_n 32 rfl rfl).symm k) = ix2 k q := funext fun a => Fin.ext (by
    match a with
    | ⟨0, _⟩ => exact (rhs32_0 _ _).trans hk
    | ⟨1, _⟩ => exact rhs32_1 _ _)
  rw [el, er]

theorem lhs128_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs128_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhs128_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhs128_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a [2000,128] block with a [128,128] matrix into the zero block: at (p, q) the sum over the 128 contracted
    coordinates of row p of the left factor times column q of the right one. -/
theorem matmul128_apply {φ₁ φ₂ : FTy} (l : FVec Ideal S2000x128 φ₁) (r : FVec Ideal S128x128 φ₂) (p : Fin 2000) (q : Fin 128) :
    matmul dot_S2000x128_S128x128_S2000x128_1_0_0_1_n_n none l r (constant (F := Ideal) S2000x128 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 p q) ((ValueIdx.contrEquiv1 dot_S2000x128_S128x128_S2000x128_1_0_0_1_n_n 128 rfl rfl).symm k) = ix2 p k := funext fun a => Fin.ext (by
    match a with
    | ⟨0, _⟩ => exact lhs128_0 _ _
    | ⟨1, _⟩ => exact (lhs128_1 _ _).trans hk)
  have er : dot_S2000x128_S128x128_S2000x128_1_0_0_1_n_n.rhsIdx (ix2 p q) ((ValueIdx.contrEquiv1 dot_S2000x128_S128x128_S2000x128_1_0_0_1_n_n 128 rfl rfl).symm k) = ix2 k q := funext fun a => Fin.ext (by
    match a with
    | ⟨0, _⟩ => exact (rhs128_0 _ _).trans hk
    | ⟨1, _⟩ => exact rhs128_1 _ _)
  rw [el, er]

/-! ## The stages of a body as operations on whole blocks -/

/-- A [1,128] row laid over the 2000 rows of a block. -/
def rowBlock (v : Vec Ideal S1x128 .f32) : FVec Ideal S2000x128 .f32 :=
  broadcastTo S2000x128 (shapeCast S1x128 v shapeCasts_S1x128_S1x128) broadcasts_S1x128_S2000x128

/-- The affine map of the embedding layer on a block: product into the zero block, plus the bias row. -/
def affine32 (x : Vec Ideal S2000x32 .f32) (w : Vec Ideal S32x128 .f32) (b : Vec Ideal S1x128 .f32) : FVec Ideal S2000x128 .f32 :=
  addf (matmul dot_S2000x32_S32x128_S2000x128_1_0_0_1_n_n none (truncf .bf16 x bitsLt_bf16_f32 : FVec Ideal S2000x32 .bf16)
      (truncf .bf16 w bitsLt_bf16_f32 : FVec Ideal S32x128 .bf16) (constant (F := Ideal) S2000x128 .f32 0x00000000#32)) (rowBlock b)

/-- The affine map of a message layer on a block. -/
def affine128 (h : FVec Ideal S2000x128 .bf16) (w : Vec Ideal S128x128 .f32) (b : Vec Ideal S1x128 .f32) : FVec Ideal S2000x128 .f32 :=
  addf (matmul dot_S2000x128_S128x128_S2000x128_1_0_0_1_n_n none h
      (truncf .bf16 (shapeCast S128x128 w shapeCasts_S128x128_S128x128 : FVec Ideal S128x128 .f32) bitsLt_bf16_f32 : FVec Ideal S128x128 .bf16)
      (constant (F := Ideal) S2000x128 .f32 0x00000000#32)) (rowBlock b)

/-- The gate y · σ(y) on a block. -/
def gate (y : FVec Ideal S2000x128 .f32) : FVec Ideal S2000x128 .f32 := mulf y (logistic y)

/-- The column of row means of a block: the lane sums, as a column, over 128. -/
def meanCol (a : FVec Ideal S2000x128 .f32) : FVec Ideal S2000x1 .f32 :=
  divf (shapeCast S2000x1 (multiReduction (F := Ideal) .add [1] S2000 a 0x00000000#32 reduces_S2000x128_S2000 (.inl rfl) rfl) shapeCasts_S2000_S2000x1)
    (broadcast S2000x1 (Scalar.ofBits (F := Ideal) .f32 0x43000000#32))

/-- A block with each row's mean subtracted. -/
def centred (a : FVec Ideal S2000x128 .f32) : FVec Ideal S2000x128 .f32 :=
  subf a (broadcastTo S2000x128 (meanCol a) broadcasts_S2000x1_S2000x128)

/-- The normalisation of a block before its scale and shift: centred, times the inverse root of the variance plus the small constant. -/
def normed (a : FVec Ideal S2000x128 .f32) : FVec Ideal S2000x128 .f32 :=
  mulf (centred a) (broadcastTo S2000x128
    (rsqrt (addf (meanCol (mulf (centred a) (centred a))) (broadcast S2000x1 (Scalar.ofBits (F := Ideal) .f32 0x3727C5AC#32))))
    broadcasts_S2000x1_S2000x128)

theorem k0_pay2_eq (x0 : Vec Ideal S2000x32 .f32) (x1 : Vec Ideal S32x128 .f32) (x2 x3 x4 : Vec Ideal S1x128 .f32) :
    k0_pay2 (F := Ideal) x0 x1 x2 x3 x4 = addf (mulf (normed (gate (affine32 x0 x1 x2))) (rowBlock x3)) (rowBlock x4) := rfl

theorem k0_pay1_eq (h : FVec Ideal S2000x128 .bf16) (x5 : Vec Ideal S128x128 .f32) (x6 x7 x8 : Vec Ideal S1x128 .f32) :
    k0_pay1 (F := Ideal) h x5 x6 x7 x8 = addf (mulf (normed (gate (affine128 h x5 x6))) (rowBlock x7)) (rowBlock x8) := rfl

theorem k1_pay3_eq (x0 : Vec Ideal S2000x128 .f32) (x1 : Vec Ideal S2000x1 .f32) (x2 : Vec Ideal S2000x128 .f32)
    (x3 : Vec Ideal S128x128 .f32) (x4 : Vec Ideal S1x128 .f32) :
    k1_pay3 (F := Ideal) x0 x1 x2 x3 x4
      = normed (gate (affine128 (truncf .bf16 (k1_pay2 (F := Ideal) x0 x1 x2) bitsLt_bf16_f32) x3 x4)) := rfl

theorem k1_pay1_eq (a : FVec Ideal S2000x128 .f32) (x5 x6 : Vec Ideal S1x128 .f32) :
    k1_pay1 (F := Ideal) a x5 x6 = addf (mulf a (rowBlock x5)) (rowBlock x6) := rfl

/-! ## Each stage read at row p, feature q -/

theorem rowBlock_apply (v : Vec Ideal S1x128 .f32) (p : Fin 2000) (q : Fin 128) : rowBlock v (ix2 p q) = v (ix2 0 q) :=
  bcastRow_apply v p q

/-- The embedding layer's affine map at (p, q) is the row-level affine map of row p. -/
theorem affine32_apply (x : Vec Ideal S2000x32 .f32) (w : Vec Ideal S32x128 .f32) (b : Vec Ideal S1x128 .f32)
    (p : Fin 2000) (q : Fin 128) : affine32 x w b (ix2 p q) = lin (row x p) (mat w) (row b 0) q :=
  congrArg₂ (· + ·)
    (matmul32_apply (truncf .bf16 x bitsLt_bf16_f32 : FVec Ideal S2000x32 .bf16)
      (truncf .bf16 w bitsLt_bf16_f32 : FVec Ideal S32x128 .bf16) p q)
    (rowBlock_apply b p q)

/-- A message layer's affine map at (p, q) is the row-level affine map of row p of the left factor, whatever that row is
    known to be. -/
theorem affine128_apply (h : FVec Ideal S2000x128 .bf16) (w : Vec Ideal S128x128 .f32) (b : Vec Ideal S1x128 .f32)
    (p : Fin 2000) (q : Fin 128) (X : Fin 128 → EReal) (hX : ∀ k, h (ix2 p k) = X k) :
    affine128 h w b (ix2 p q) = lin X (mat w) (row b 0) q := by
  have hX' : (fun k => h (ix2 p k)) = X := funext hX
  subst hX'
  have hw : (shapeCast S128x128 w shapeCasts_S128x128_S128x128 : FVec Ideal S128x128 .f32) = w := shapeCast_self w _
  exact congrArg₂ (· + ·)
    ((matmul128_apply h
      (truncf .bf16 (shapeCast S128x128 w shapeCasts_S128x128_S128x128 : FVec Ideal S128x128 .f32) bitsLt_bf16_f32 : FVec Ideal S128x128 .bf16) p q).trans
      (Finset.sum_congr rfl fun k _ => congrArg (h (ix2 p k) * ·) (congrFun hw (ix2 k q))))
    (rowBlock_apply b p q)

theorem gate_apply (y : FVec Ideal S2000x128 .f32) (i : S2000x128.Idx) : gate y i = silu (y i) := rfl

/-- The column of means at row p is the mean of row p. -/
theorem meanCol_apply (a : FVec Ideal S2000x128 .f32) (p : Fin 2000) (u : Fin 1) : meanCol a (ix2 p u) = mean (row a p) :=
  congrArg (fun s => Ideal.div s n128) ((colCast_apply _ p u).trans (laneSum_apply a p))

theorem centred_apply (a : FVec Ideal S2000x128 .f32) (p : Fin 2000) (q : Fin 128) :
    centred a (ix2 p q) = a (ix2 p q) - mean (row a p) :=
  congrArg (a (ix2 p q) - ·) ((bcastCol_apply (meanCol a) p q).trans (meanCol_apply a p 0))

/-- The mean of the squared centred row is the row's variance. -/
theorem meanCol_sq_apply (a : FVec Ideal S2000x128 .f32) (p : Fin 2000) :
    meanCol (mulf (centred a) (centred a)) (ix2 p 0) = var (row a p) :=
  (meanCol_apply _ p 0).trans (congrArg (fun s => Ideal.div s n128)
    (Finset.sum_congr rfl fun j _ => congrArg₂ (· * ·) (centred_apply a p j) (centred_apply a p j)))

theorem normed_apply (a : FVec Ideal S2000x128 .f32) (p : Fin 2000) (q : Fin 128) :
    normed a (ix2 p q) = (a (ix2 p q) - mean (row a p)) * Ideal.rsqrt (var (row a p) + eps) :=
  congrArg₂ (· * ·) (centred_apply a p q)
    ((bcastCol_apply _ p q).trans (congrArg (fun v => Ideal.rsqrt (v + eps)) (meanCol_sq_apply a p)))

/-- The normalisation with its scale and shift rows, at (p, q): the row-level normalisation of row p, whatever that row is
    known to be. -/
theorem lnBlock_apply (a : FVec Ideal S2000x128 .f32) (g be : Vec Ideal S1x128 .f32) (p : Fin 2000) (q : Fin 128)
    (A : Fin 128 → EReal) (hA : ∀ j, a (ix2 p j) = A j) :
    (addf (mulf (normed a) (rowBlock g)) (rowBlock be)) (ix2 p q) = ln A (row g 0) (row be 0) q := by
  have hA' : row a p = A := funext hA
  subst hA'
  exact congrArg₂ (· + ·) (congrArg₂ (· * ·) (normed_apply a p q) (rowBlock_apply g p q)) (rowBlock_apply be p q)

/-! ## The six stored values -/

/-- Region 0, first store: the embedding layer of row `p`. -/
theorem pay0_h (x0 : Vec Ideal S2000x32 .f32) (x1 : Vec Ideal S32x128 .f32) (x2 x3 x4 : Vec Ideal S1x128 .f32)
    (p : Fin 2000) (q : Fin 128) :
    k0_pay2 (F := Ideal) x0 x1 x2 x3 x4 (ix2 p q)
      = layer (row x0 p) (mat x1) (row x2 0) (row x3 0) (row x4 0) q := by
  rw [k0_pay2_eq]
  exact lnBlock_apply _ x3 x4 p q _ (fun j => congrArg silu (affine32_apply x0 x1 x2 p j))

/-- Region 0, second store: the first message layer applied to the embedding of row `p`. -/
theorem pay0_z (x0 : Vec Ideal S2000x32 .f32) (x1 : Vec Ideal S32x128 .f32) (x2 x3 x4 : Vec Ideal S1x128 .f32)
    (x5 : Vec Ideal S128x128 .f32) (x6 x7 x8 : Vec Ideal S1x128 .f32) (p : Fin 2000) (q : Fin 128) :
    k0_pay1 (F := Ideal) (k0_pay3 x0 x1 x2 x3 x4) x5 x6 x7 x8 (ix2 p q)
      = layer (layer (row x0 p) (mat x1) (row x2 0) (row x3 0) (row x4 0)) (mat x5) (row x6 0) (row x7 0) (row x8 0) q := by
  rw [k0_pay1_eq]
  exact lnBlock_apply _ x7 x8 p q _ (fun j => congrArg silu
    (affine128_apply (k0_pay3 (F := Ideal) x0 x1 x2 x3 x4) x5 x6 p j _ (fun k => pay0_h x0 x1 x2 x3 x4 p k)))

/-- Region 1, first store: the state update of one entry. -/
theorem pay1_h (x0 : Vec Ideal S2000x128 .f32) (x1 : Vec Ideal S2000x1 .f32) (x2 : Vec Ideal S2000x128 .f32)
    (p : Fin 2000) (q : Fin 128) :
    k1_pay2 (F := Ideal) x0 x1 x2 (ix2 p q) = resid (x0 (ix2 p q)) (x1 (ix2 p 0)) (x2 (ix2 p q)) := by
  have e : k1_pay2 (F := Ideal) x0 x1 x2
      = addf (mulf (x0 : FVec Ideal S2000x128 .f32) (broadcastTo S2000x128 (x1 : FVec Ideal S2000x1 .f32) broadcasts_S2000x1_S2000x128))
          (x2 : FVec Ideal S2000x128 .f32) := by
    unfold k1_pay2
    simp only [shapeCast_self]
  rw [e]
  exact congrArg (fun t => x0 (ix2 p q) * t + x2 (ix2 p q)) (bcastCol_apply x1 p q)

/-- Region 1, second store: the message layer applied to the updated row `p`. -/
theorem pay1_z (x0 : Vec Ideal S2000x128 .f32) (x1 : Vec Ideal S2000x1 .f32) (x2 : Vec Ideal S2000x128 .f32)
    (x3 : Vec Ideal S128x128 .f32) (x4 x5 x6 : Vec Ideal S1x128 .f32) (p : Fin 2000) (q : Fin 128) :
    k1_pay1 (F := Ideal) (k1_pay3 x0 x1 x2 x3 x4) x5 x6 (ix2 p q)
      = layer (fun j => resid (x0 (ix2 p j)) (x1 (ix2 p 0)) (x2 (ix2 p j))) (mat x3) (row x4 0) (row x5 0) (row x6 0) q := by
  rw [k1_pay1_eq, k1_pay3_eq]
  exact lnBlock_apply _ x5 x6 p q _ (fun j => congrArg silu
    (affine128_apply (truncf .bf16 (k1_pay2 (F := Ideal) x0 x1 x2) bitsLt_bf16_f32) x3 x4 p j _ (fun k => pay1_h x0 x1 x2 p k)))

/-- Region 2, first store. -/
theorem pay2_h (x0 : Vec Ideal S2000x128 .f32) (x1 : Vec Ideal S2000x1 .f32) (x2 : Vec Ideal S2000x128 .f32)
    (p : Fin 2000) (q : Fin 128) :
    k2_pay2 (F := Ideal) x0 x1 x2 (ix2 p q) = resid (x0 (ix2 p q)) (x1 (ix2 p 0)) (x2 (ix2 p q)) :=
  pay1_h x0 x1 x2 p q

/-- Region 2, second store. -/
theorem pay2_z (x0 : Vec Ideal S2000x128 .f32) (x1 : Vec Ideal S2000x1 .f32) (x2 : Vec Ideal S2000x128 .f32)
    (x3 : Vec Ideal S128x128 .f32) (x4 x5 x6 : Vec Ideal S1x128 .f32) (p : Fin 2000) (q : Fin 128) :
    k2_pay1 (F := Ideal) (k2_pay3 x0 x1 x2 x3 x4) x5 x6 (ix2 p q)
      = layer (fun j => resid (x0 (ix2 p j)) (x1 (ix2 p 0)) (x2 (ix2 p j))) (mat x3) (row x4 0) (row x5 0) (row x6 0) q :=
  pay1_z x0 x1 x2 x3 x4 x5 x6 p q

end Cert.KernelIdeal.Body

end
-- ==== Proof.KerRegion0.lean ====
/-
  Region 0 (embedding fused with the first message layer): each of the 50 grid points writes back the 2000 rows of its block, a row's result depends on that row of the input only, and the blocks cover the arrays; so each output array is one row-wise function of the input arrays.
-/
import proofs.«400524_j3736621548265_3_alg».proof.Proof.Gen.KernelIdeal.Frame
import proofs.«400524_j3736621548265_3_alg».proof.Proof.Spec
import proofs.«400524_j3736621548265_3_alg».proof.Proof.KerBody
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The zero offset of a whole-block rectangle, as a constant function. -/
theorem hz : (![0, 0] : Fin 2 → Nat) = fun _ => 0 := funext fun a => by fin_cases a <;> rfl

/-- The block index maps over the 50 grid points: the row-blocked windows sit at block (t, 0), the whole-array windows at block (0, 0). -/
theorem idx_facts : ∀ t : Fin cfg0.N,
    (win0_0.index t (0 : Fin 2) = t.val ∧ win0_0.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0) :=
  (by decide +kernel : ∀ t : Fin grid0.N, _)

/-- The input block of 2000 rows at point t is rows 2000 t … 2000 t + 1999 of the input array. -/
theorem xblk_apply (c : Dev nD) (t : Fin cfg0.N) (y : S2000x32.Idx) (i : S100000x32.Idx)
    (h0 : (i 0).val = 2000 * t.val + (y 0).val) (h1 : (i 1).val = (y 1).val) :
    (iblk0 V c 0 t : Vec Ideal S2000x32 .f32) y = (V c main_arg0 : Vec Ideal S100000x32 .f32) i := by
  obtain ⟨⟨e0, e1⟩, -⟩ := idx_facts t
  unfold iblk0
  rw [View.read_apply]
  show V c main_arg0 _ = V c main_arg0 _
  congr 1
  funext a
  apply Fin.ext
  match a with
  | ⟨0, _⟩ => show win0_0.index t (0 : Fin 2) * 2000 + 1 * (y 0).val = (i 0).val; rw [e0, h0]; omega
  | ⟨1, _⟩ => show win0_0.index t (1 : Fin 2) * 32 + 1 * (y 1).val = (i 1).val; rw [e1, h1]; omega

/-- The first weight window's one block is the whole weight array. -/
theorem blk1_eq (c : Dev nD) (t : Fin cfg0.N) :
    (iblk0 V c 1 t : Vec Ideal S32x128 .f32) = (V c main_arg2 : Vec Ideal S32x128 .f32) := by
  obtain ⟨-, -, -, ⟨e0, e1⟩, -⟩ := idx_facts t
  funext y
  unfold iblk0
  rw [View.read_apply]
  show V c main_arg2 _ = V c main_arg2 _
  congr 1
  funext a
  apply Fin.ext
  match a with
  | ⟨0, _⟩ => show win0_1.index t (0 : Fin 2) * 32 + 1 * (y 0).val = (y 0).val; rw [e0]; omega
  | ⟨1, _⟩ => show win0_1.index t (1 : Fin 2) * 128 + 1 * (y 1).val = (y 1).val; rw [e1]; omega

/-- The first bias window's one block is the whole bias row. -/
theorem blk2_eq (c : Dev nD) (t : Fin cfg0.N) :
    (iblk0 V c 2 t : Vec Ideal S1x128 .f32) = (V c main_v16 : Vec Ideal S1x128 .f32) := by
  obtain ⟨-, -, -, -, ⟨e0, e1⟩, -⟩ := idx_facts t
  funext y
  unfold iblk0
  rw [View.read_apply]
  show V c main_v16 _ = V c main_v16 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega

/-- The first scale window's one block is the whole scale row. -/
theorem blk3_eq (c : Dev nD) (t : Fin cfg0.N) :
    (iblk0 V c 3 t : Vec Ideal S1x128 .f32) = (V c main_v17 : Vec Ideal S1x128 .f32) := by
  obtain ⟨-, -, -, -, -, ⟨e0, e1⟩, -⟩ := idx_facts t
  funext y
  unfold iblk0
  rw [View.read_apply]
  show V c main_v17 _ = V c main_v17 _
  congr 1
  funext a
  apply Fin.ext
  match a with
  | ⟨0, _⟩ => show win0_3.index t (0 : Fin 2) * 1 + 1 * (y 0).val = (y 0).val; rw [e0]; omega
  | ⟨1, _⟩ => show win0_3.index t (1 : Fin 2) * 128 + 1 * (y 1).val = (y 1).val; rw [e1]; omega

/-- The first shift window's one block is the whole shift row. -/
theorem blk4_eq (c : Dev nD) (t : Fin cfg0.N) :
    (iblk0 V c 4 t : Vec Ideal S1x128 .f32) = (V c main_v18 : Vec Ideal S1x128 .f32) := by
  obtain ⟨-, -, -, -, -, -, ⟨e0, e1⟩, -⟩ := idx_facts t
  funext y
  unfold iblk0
  rw [View.read_apply]
  show V c main_v18 _ = V c main_v18 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 128 + 1 * (y 1).val = (y 1).val; rw [e1]; omega

/-- The second weight window's one block is the whole weight array. -/
theorem blk5_eq (c : Dev nD) (t : Fin cfg0.N) :
    (iblk0 V c 5 t : Vec Ideal S128x128 .f32) = (V c main_v20 : Vec Ideal S128x128 .f32) := by
  obtain ⟨-, -, -, -, -, -, -, ⟨e0, e1⟩, -⟩ := idx_facts t
  funext y
  unfold iblk0
  rw [View.read_apply]
  show V c main_v20 _ = V c main_v20 _
  congr 1
  funext a
  apply Fin.ext
  match a with
  | ⟨0, _⟩ => show win0_5.index t (0 : Fin 2) * 128 + 1 * (y 0).val = (y 0).val; rw [e0]; omega
  | ⟨1, _⟩ => show win0_5.index t (1 : Fin 2) * 128 + 1 * (y 1).val = (y 1).val; rw [e1]; omega

/-- The second bias window's one block is the whole bias row. -/
theorem blk6_eq (c : Dev nD) (t : Fin cfg0.N) :
    (iblk0 V c 6 t : Vec Ideal S1x128 .f32) = (V c main_v23 : Vec Ideal S1x128 .f32) := by
  obtain ⟨-, -, -, -, -, -, -, -, ⟨e0, e1⟩, -⟩ := idx_facts t
  funext y
  unfold iblk0
  rw [View.read_apply]
  show V c main_v23 _ = V c main_v23 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 128 + 1 * (y 1).val = (y 1).val; rw [e1]; omega

/-- The second scale window's one block is the whole scale row. -/
theorem blk7_eq (c : Dev nD) (t : Fin cfg0.N) :
    (iblk0 V c 7 t : Vec Ideal S1x128 .f32) = (V c main_v26 : Vec Ideal S1x128 .f32) := by
  obtain ⟨-, -, -, -, -, -, -, -, -, ⟨e0, e1⟩, -⟩ := idx_facts t
  funext y
  unfold iblk0
  rw [View.read_apply]
  show V c main_v26 _ = V c main_v26 _
  congr 1
  funext a
  apply Fin.ext
  match a with
  | ⟨0, _⟩ => show win0_7.index t (0 : Fin 2) * 1 + 1 * (y 0).val = (y 0).val; rw [e0]; omega
  | ⟨1, _⟩ => show win0_7.index t (1 : Fin 2) * 128 + 1 * (y 1).val = (y 1).val; rw [e1]; omega

/-- The second shift window's one block is the whole shift row. -/
theorem blk8_eq (c : Dev nD) (t : Fin cfg0.N) :
    (iblk0 V c 8 t : Vec Ideal S1x128 .f32) = (V c main_v29 : Vec Ideal S1x128 .f32) := by
  obtain ⟨-, -, -, -, -, -, -, -, -, -, ⟨e0, e1⟩⟩ := idx_facts t
  funext y
  unfold iblk0
  rw [View.read_apply]
  show V c main_v29 _ = V c main_v29 _
  congr 1
  funext a
  apply Fin.ext
  match a with
  | ⟨0, _⟩ => show win0_8.index t (0 : Fin 2) * 1 + 1 * (y 0).val = (y 0).val; rw [e0]; omega
  | ⟨1, _⟩ => show win0_8.index t (1 : Fin 2) * 128 + 1 * (y 1).val = (y 1).val; rw [e1]; omega

/-- Entry (p, q) of output block t sits at row 2000 t + p, column q of the output array. -/
theorem emb9 (t : Fin cfg0.N) (p : Fin 2000) (q : Fin 128) :
    ∃ r : Fin 100000, r.val = 2000 * t.val + p.val ∧
      (((cfg0.win 9).blk t).view.emb (ix2 p q) : S100000x128.Idx) = ix2 r q := by
  obtain ⟨-, ⟨e0, e1⟩, -⟩ := idx_facts t
  refine ⟨(((cfg0.win 9).blk t).view.emb (ix2 p q) : S100000x128.Idx) 0, ?_, ?_⟩
  · show win0_9.index t (0 : Fin 2) * 2000 + 1 * p.val = _
    rw [e0]; omega
  · funext a
    apply Fin.ext
    match a with
    | ⟨0, _⟩ => rfl
    | ⟨1, _⟩ => show win0_9.index t (1 : Fin 2) * 128 + 1 * q.val = q.val; rw [e1]; omega

/-- An index of the output array is in point t's block iff each coordinate is in the block's range on its axis. -/
theorem mem_blk9 (t : Fin cfg0.N) (i : S100000x128.Idx) :
    i ∈ ((cfg0.win 9).blk t).view.set ↔ ∀ a : Fin 2, win0_9.index t a * S2000x128.size a ≤ (i a).val ∧ (i a).val < win0_9.index t a * S2000x128.size a + S2000x128.size a := by
  show i ∈ ((View.whole main_v30_0).slice (win0_9.rect t)).set ↔ _
  rw [View.set_slice_whole, Rect.mem_set_unit]
  exact Iff.rfl

/-- Row r of the output array is written by the point r / 2000. -/
theorem cover9 (i : S100000x128.Idx) :
    ∃ t : Fin cfg0.N, (cfg0.win 9).flush t = true ∧ i ∈ ((cfg0.win 9).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, ⟨e0, e1⟩, -⟩ := idx_facts t
  refine ⟨t, flush0_9 t, ?_⟩
  rw [mem_blk9]
  intro a
  match a with
  | ⟨0, _⟩ => show win0_9.index t (0 : Fin 2) * 2000 ≤ (i 0).val ∧ (i 0).val < win0_9.index t (0 : Fin 2) * 2000 + 2000; rw [e0, ht]; omega
  | ⟨1, _⟩ => show win0_9.index t (1 : Fin 2) * 128 ≤ (i 1).val ∧ (i 1).val < win0_9.index t (1 : Fin 2) * 128 + 128; rw [e1]; omega

/-- Entry (p, q) of output block t sits at row 2000 t + p, column q of the output array. -/
theorem emb10 (t : Fin cfg0.N) (p : Fin 2000) (q : Fin 128) :
    ∃ r : Fin 100000, r.val = 2000 * t.val + p.val ∧
      (((cfg0.win 10).blk t).view.emb (ix2 p q) : S100000x128.Idx) = ix2 r q := by
  obtain ⟨-, -, ⟨e0, e1⟩, -⟩ := idx_facts t
  refine ⟨(((cfg0.win 10).blk t).view.emb (ix2 p q) : S100000x128.Idx) 0, ?_, ?_⟩
  · show win0_10.index t (0 : Fin 2) * 2000 + 1 * p.val = _
    rw [e0]; omega
  · funext a
    apply Fin.ext
    match a with
    | ⟨0, _⟩ => rfl
    | ⟨1, _⟩ => show win0_10.index t (1 : Fin 2) * 128 + 1 * q.val = q.val; rw [e1]; omega

/-- An index of the output array is in point t's block iff each coordinate is in the block's range on its axis. -/
theorem mem_blk10 (t : Fin cfg0.N) (i : S100000x128.Idx) :
    i ∈ ((cfg0.win 10).blk t).view.set ↔ ∀ a : Fin 2, win0_10.index t a * S2000x128.size a ≤ (i a).val ∧ (i a).val < win0_10.index t a * S2000x128.size a + S2000x128.size a := by
  show i ∈ ((View.whole main_v30_1).slice (win0_10.rect t)).set ↔ _
  rw [View.set_slice_whole, Rect.mem_set_unit]
  exact Iff.rfl

/-- Row r of the output array is written by the point r / 2000. -/
theorem cover10 (i : S100000x128.Idx) :
    ∃ t : Fin cfg0.N, (cfg0.win 10).flush t = true ∧ i ∈ ((cfg0.win 10).blk t).view.set := by
  have hi0 : (i 0).val < 100000 := (i 0).isLt
  have hi1 : (i 1).val < 128 := (i 1).isLt
  obtain ⟨t, ht⟩ : ∃ t : Fin cfg0.N, t.val = (i 0).val / 2000 :=
    ⟨⟨(i 0).val / 2000, by rw [show cfg0.N = 50 from N_0]; omega⟩, rfl⟩
  obtain ⟨-, -, ⟨e0, e1⟩, -⟩ := idx_facts t
  refine ⟨t, flush0_10 t, ?_⟩
  rw [mem_blk10]
  intro a
  match a with
  | ⟨0, _⟩ => show win0_10.index t (0 : Fin 2) * 2000 ≤ (i 0).val ∧ (i 0).val < win0_10.index t (0 : Fin 2) * 2000 + 2000; rw [e0, ht]; omega
  | ⟨1, _⟩ => show win0_10.index t (1 : Fin 2) * 128 ≤ (i 1).val ∧ (i 1).val < win0_10.index t (1 : Fin 2) * 128 + 128; rw [e1]; omega

/-- What point t writes back to the first output array is block t of the embedding layer applied row by row. -/
theorem flushed_h (c : Dev nD) (t : Fin cfg0.N) :
    (dat0 (F := Ideal) V c).flushed 9 t = ((cfg0.win 9).blk t).view.read (Elt Ideal)
      (dense (N := 100000) (K := 32) (V c main_arg0) (V c main_arg2) (V c main_v16) (V c main_v17) (V c main_v18)) := by
  show (cfg0.win 9).cut (grid0.coords t) ((dat0 V c).after 9 t) = _
  rw [after0_9]
  unfold out0_9
  rw [View.canon_unit_zero hz]
  simp only [View.ld_unit_zero (S := S2000x32) hz, View.ld_unit_zero (S := S32x128) hz, View.ld_unit_zero (S := S1x128) hz]
  refine funext fun (j : S2000x128.Idx) => ?_
  obtain ⟨p, q, rfl⟩ : ∃ (p : Fin 2000) (q : Fin 128), j = ix2 p q := ⟨j 0, j 1, eq_ix2 j⟩
  refine (Body.pay0_h (iblk0 V c 0 t) (iblk0 V c 1 t) (iblk0 V c 2 t) (iblk0 V c 3 t) (iblk0 V c 4 t) p q).trans ?_
  obtain ⟨r, hr, he⟩ := emb9 t p q
  rw [View.read_apply, he]
  have hrow : row (iblk0 V c 0 t : Vec Ideal S2000x32 .f32) p = row (V c main_arg0 : Vec Ideal S100000x32 .f32) r :=
    funext fun k => xblk_apply V c t (ix2 p k) (ix2 r k) hr rfl
  rw [hrow, blk1_eq V c t, blk2_eq V c t, blk3_eq V c t, blk4_eq V c t]
  rfl

/-- After region 0 its first output array holds the embedding layer of every row of the input array. -/
theorem final_h (c : Dev nD) :
    (dat0 (F := Ideal) V c).arrAt 9 cfg0.N
      = dense (N := 100000) (K := 32) (V c main_arg0) (V c main_arg2) (V c main_v16) (V c main_v17) (V c main_v18) :=
  (dat0 (F := Ideal) V c).arrAt_eq_of_cover 9
    (dense (N := 100000) (K := 32) (V c main_arg0) (V c main_arg2) (V c main_v16) (V c main_v17) (V c main_v18))
    (fun t _ => flushed_h V c t) cover9

/-- What point t writes back to the second output array is block t of the first message layer applied to the embedding, row by row. -/
theorem flushed_z (c : Dev nD) (t : Fin cfg0.N) :
    (dat0 (F := Ideal) V c).flushed 10 t = ((cfg0.win 10).blk t).view.read (Elt Ideal)
      (dense (N := 100000) (K := 128)
        (dense (N := 100000) (K := 32) (V c main_arg0) (V c main_arg2) (V c main_v16) (V c main_v17) (V c main_v18))
        (V c main_v20) (V c main_v23) (V c main_v26) (V c main_v29)) := by
  show (cfg0.win 10).cut (grid0.coords t) ((dat0 V c).after 10 t) = _
  rw [after0_10]
  unfold out0_10
  rw [View.canon_unit_zero hz]
  simp only [View.ld_unit_zero (S := S2000x32) hz, View.ld_unit_zero (S := S32x128) hz, View.ld_unit_zero (S := S1x128) hz,
    View.ld_unit_zero (S := S128x128) hz]
  refine funext fun (j : S2000x128.Idx) => ?_
  obtain ⟨p, q, rfl⟩ : ∃ (p : Fin 2000) (q : Fin 128), j = ix2 p q := ⟨j 0, j 1, eq_ix2 j⟩
  refine (Body.pay0_z (iblk0 V c 0 t) (iblk0 V c 1 t) (iblk0 V c 2 t) (iblk0 V c 3 t) (iblk0 V c 4 t)
    (iblk0 V c 5 t) (iblk0 V c 6 t) (iblk0 V c 7 t) (iblk0 V c 8 t) p q).trans ?_
  obtain ⟨r, hr, he⟩ := emb10 t p q
  rw [View.read_apply, he]
  have hrow : row (iblk0 V c 0 t : Vec Ideal S2000x32 .f32) p = row (V c main_arg0 : Vec Ideal S100000x32 .f32) r :=
    funext fun k => xblk_apply V c t (ix2 p k) (ix2 r k) hr rfl
  rw [hrow, blk1_eq V c t, blk2_eq V c t, blk3_eq V c t, blk4_eq V c t, blk5_eq V c t, blk6_eq V c t, blk7_eq V c t,
    blk8_eq V c t]
  rfl

/-- After region 0 its second output array holds the first message layer of the embedding, row by row. -/
theorem final_z (c : Dev nD) :
    (dat0 (F := Ideal) V c).arrAt 10 cfg0.N
      = dense (N := 100000) (K := 128)
          (dense (N := 100000) (K := 32) (V c main_arg0) (V c main_arg2) (V c main_v16) (V c main_v17) (V c main_v18))
          (V c main_v20) (V c main_v23) (V c main_v26) (V c main_v29) :=
  (dat0 (F := Ideal) V c).arrAt_eq_of_cover 10
    (dense (N := 100000) (K := 128)
      (dense (N := 100000) (K := 32) (V c main_arg0) (V c main_arg2) (V c main_v16) (V c main_v17) (V c main_v18))
      (V c main_v20) (V c main_v23) (V c main_v26) (V c main_v29))
    (fun t _ => flushed_z V c t) cover10

end Cert.KernelIdeal.Region0

end
-- ==== Proof.KerRegion1.lean ====
/-
  Region 1 (state update fused with the next message layer): blocks of 2000 rows, a row's result depends on that row of the inputs only, the blocks cover the arrays.
-/
import proofs.«400524_j3736621548265_3_alg».proof.Proof.Gen.KernelIdeal.Frame
import proofs.«400524_j3736621548265_3_alg».proof.Proof.Spec
import proofs.«400524_j3736621548265_3_alg».proof.Proof.KerBody
import Idealize.ShloMosaic.Lib.Pipeline.Value
import Idealize.ShloMosaic.Lib.ValueIdx

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- The origin of a rank-two block. -/
theorem hz : (![0, 0] : Fin 2 → Nat) = fun _ => 0 := funext fun a => by fin_cases a <;> rfl

/-- The index maps over the fifty grid points: the three row-blocked inputs and the two outputs sit at block
    `(t, 0)`; the weight matrix and the three vectors are whole, at block `(0, 0)`. -/
theorem idx_facts : ∀ t : Fin cfg1.N,
    win1_7.index t (0 : Fin 2) = t.val ∧ win1_7.index t (1 : Fin 2) = 0
    ∧ win1_8.index t (0 : Fin 2) = t.val ∧ win1_8.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- The aggregated messages, the inverse in-degree column and the previous state, as the region finds them. -/
abbrev aArr (c : Dev nD) : Vec Ideal S100000x128 .f32 := V c main_v40
abbrev iArr (c : Dev nD) : Vec Ideal S100000x1 .f32 := V c main_v15
abbrev hArr (c : Dev nD) : Vec Ideal S100000x128 .f32 := V c main_v30_0

/-- Row `p` of block `t` is row `2000 t + p` of the array. -/
def grow (t : Fin cfg1.N) (p : Fin 2000) : Fin 100000 :=
  ⟨t.val * 2000 + p.val, by have h1 := t.isLt; have h2 : cfg1.N = 50 := N_1; have h3 := p.isLt; omega⟩

/-- Entry `(p, q)` of block `t` of the aggregated messages is entry `(2000 t + p, q)` of the array. -/
theorem blk_a (c : Dev nD) (t : Fin cfg1.N) (p : Fin 2000) (q : Fin 128) :
    iblk1 V c 0 t (ix2 p q) = aArr V c (ix2 (grow t p) q) := by
  obtain ⟨-, -, -, -, e0, e1, -⟩ := idx_facts t
  show V c main_v40 (((cfg1.win 0).blk t).view.emb (ix2 p q)) = V c main_v40 (ix2 (grow t p) q)
  refine congrArg _ ?_
  funext a; apply Fin.ext
  match a with
  | ⟨0, _⟩ => show win1_0.index t (0 : Fin 2) * 2000 + 1 * p.val = t.val * 2000 + p.val; omega
  | ⟨1, _⟩ => show win1_0.index t (1 : Fin 2) * 128 + 1 * q.val = q.val; omega

/-- Entry `p` of block `t` of the inverse in-degree column is entry `2000 t + p` of the column. -/
theorem blk_i (c : Dev nD) (t : Fin cfg1.N) (p : Fin 2000) :
    iblk1 V c 1 t (ix2 p 0) = iArr V c (ix2 (grow t p) 0) := by
  obtain ⟨-, -, -, -, -, -, e0, e1, -⟩ := idx_facts t
  show V c main_v15 (((cfg1.win 1).blk t).view.emb (ix2 p 0)) = V c main_v15 (ix2 (grow t p) 0)
  refine congrArg _ ?_
  funext a; apply Fin.ext
  match a with
  | ⟨0, _⟩ => show win1_1.index t (0 : Fin 2) * 2000 + 1 * p.val = t.val * 2000 + p.val; omega
  | ⟨1, _⟩ => show win1_1.index t (1 : Fin 2) * 1 + 1 * 0 = 0; omega

/-- Entry `(p, q)` of block `t` of the previous state is entry `(2000 t + p, q)` of the array. -/
theorem blk_h (c : Dev nD) (t : Fin cfg1.N) (p : Fin 2000) (q : Fin 128) :
    iblk1 V c 2 t (ix2 p q) = hArr V c (ix2 (grow t p) q) := by
  obtain ⟨-, -, -, -, -, -, -, -, e0, e1, -⟩ := idx_facts t
  show V c main_v30_0 (((cfg1.win 2).blk t).view.emb (ix2 p q)) = V c main_v30_0 (ix2 (grow t p) q)
  refine congrArg _ ?_
  funext a; apply Fin.ext
  match a with
  | ⟨0, _⟩ => show win1_2.index t (0 : Fin 2) * 2000 + 1 * p.val = t.val * 2000 + p.val; omega
  | ⟨1, _⟩ => show win1_2.index t (1 : Fin 2) * 128 + 1 * q.val = q.val; omega

/-- Entry `(p, q)` of output block `t` sits at `(2000 t + p, q)` in the updated-state array. -/
theorem emb_h (t : Fin cfg1.N) (p : Fin 2000) (q : Fin 128) :
    ((cfg1.win 7).blk t).view.emb (ix2 p q) = ix2 (grow t p) q := by
  obtain ⟨e0, e1, -⟩ := idx_facts t
  funext a; apply Fin.ext
  match a with
  | ⟨0, _⟩ => show win1_7.index t (0 : Fin 2) * 2000 + 1 * p.val = t.val * 2000 + p.val; omega
  | ⟨1, _⟩ => show win1_7.index t (1 : Fin 2) * 128 + 1 * q.val = q.val; omega

/-- What point `t` writes to the first output is block `t` of the updated state: each entry is
    `a · i + h` at its own row and column. -/
theorem flushed_h (c : Dev nD) (t : Fin cfg1.N) :
    (dat1 (F := Ideal) V c).flushed 7 t
      = ((cfg1.win 7).blk t).view.read (Elt Ideal) (update (N := 100000) (aArr V c) (iArr V c) (hArr V c)) := by
  show (cfg1.win 7).cut (grid1.coords t) ((dat1 (F := Ideal) V c).after 7 t) = _
  rw [after1_7]
  unfold out1_7
  rw [View.canon_unit_zero hz]
  simp only [View.ld_unit_zero (S := S2000x128) hz, View.ld_unit_zero (S := S2000x1) hz]
  funext j
  obtain ⟨p, q, rfl⟩ : ∃ (p : Fin 2000) (q : Fin 128), j = ix2 p q := ⟨j 0, j 1, eq_ix2 j⟩
  show k1_pay2 (F := Ideal) (iblk1 V c 0 t) (iblk1 V c 1 t) (iblk1 V c 2 t) (ix2 p q)
    = update (N := 100000) (aArr V c) (iArr V c) (hArr V c) (((cfg1.win 7).blk t).view.emb (ix2 p q))
  refine (Body.pay1_h (iblk1 V c 0 t) (iblk1 V c 1 t) (iblk1 V c 2 t) p q).trans ?_
  rw [emb_h t p q, blk_a V c t p q, blk_i V c t p, blk_h V c t p q]
  rfl

/-- An index of the array is in block `t` iff each coordinate is in the block's range on its axis. -/
theorem mem_blk_h (t : Fin cfg1.N) (i : S100000x128.Idx) :
    i ∈ ((cfg1.win 7).blk t).view.set ↔ ∀ a : Fin 2, win1_7.index t a * S2000x128.size a ≤ (i a).val ∧ (i a).val < win1_7.index t a * S2000x128.size a + S2000x128.size a := by
  show i ∈ ((View.whole main_v52_0).slice (win1_7.rect t)).set ↔ _
  rw [View.set_slice_whole, Rect.mem_set_unit]
  exact Iff.rfl

/-- Row `r` lies in block `r / 2000`: the fifty blocks of 2000 rows cover the 100000 rows. -/
theorem cover_h (i : S100000x128.Idx) :
    ∃ t : Fin cfg1.N, (cfg1.win 7).flush t = true ∧ i ∈ ((cfg1.win 7).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by omega⟩, rfl⟩
  obtain ⟨e0, e1, -⟩ := idx_facts t
  refine ⟨t, flush1_7 t, ?_⟩
  rw [mem_blk_h]
  intro a
  match a with
  | ⟨0, _⟩ => show win1_7.index t (0 : Fin 2) * 2000 ≤ (i 0).val ∧ (i 0).val < win1_7.index t (0 : Fin 2) * 2000 + 2000; omega
  | ⟨1, _⟩ => show win1_7.index t (1 : Fin 2) * 128 ≤ (i 1).val ∧ (i 1).val < win1_7.index t (1 : Fin 2) * 128 + 128; omega

/-- After region 1 its first output array holds the updated state, entry by entry. -/
theorem final_h (c : Dev nD) :
    (dat1 (F := Ideal) V c).arrAt 7 cfg1.N
      = update (N := 100000) (V c main_v40) (V c main_v15) (V c main_v30_0) :=
  (dat1 (F := Ideal) V c).arrAt_eq_of_cover 7 (update (N := 100000) (aArr V c) (iArr V c) (hArr V c))
    (fun t _ => flushed_h V c t) cover_h

/-- The layer's weight matrix, bias, scale and shift, as the region finds them. -/
abbrev wArr (c : Dev nD) : Vec Ideal S128x128 .f32 := V c main_v42
abbrev bArr (c : Dev nD) : Vec Ideal S1x128 .f32 := V c main_v45
abbrev gArr (c : Dev nD) : Vec Ideal S1x128 .f32 := V c main_v48
abbrev beArr (c : Dev nD) : Vec Ideal S1x128 .f32 := V c main_v51

/-- The weight matrix's one block is the whole matrix. -/
theorem blk_w (c : Dev nD) (t : Fin cfg1.N) : iblk1 V c 3 t = wArr V c := by
  obtain ⟨-, -, -, -, -, -, -, -, -, -, e0, e1, -⟩ := idx_facts t
  funext y
  show V c main_v42 (((cfg1.win 3).blk t).view.emb y) = V c main_v42 y
  refine congrArg _ ?_
  funext a; apply Fin.ext
  match a with
  | ⟨0, _⟩ => show win1_3.index t (0 : Fin 2) * 128 + 1 * (y 0).val = (y 0).val; omega
  | ⟨1, _⟩ => show win1_3.index t (1 : Fin 2) * 128 + 1 * (y 1).val = (y 1).val; omega

/-- The bias's one block is the whole row vector. -/
theorem blk_b (c : Dev nD) (t : Fin cfg1.N) : iblk1 V c 4 t = bArr V c := by
  obtain ⟨-, -, -, -, -, -, -, -, -, -, -, -, e0, e1, -⟩ := idx_facts t
  funext y
  show V c main_v45 (((cfg1.win 4).blk t).view.emb y) = V c main_v45 y
  refine congrArg _ ?_
  funext a; apply Fin.ext
  match a with
  | ⟨0, _⟩ => show win1_4.index t (0 : Fin 2) * 1 + 1 * (y 0).val = (y 0).val; omega
  | ⟨1, _⟩ => show win1_4.index t (1 : Fin 2) * 128 + 1 * (y 1).val = (y 1).val; omega

/-- The scale's one block is the whole row vector. -/
theorem blk_g (c : Dev nD) (t : Fin cfg1.N) : iblk1 V c 5 t = gArr V c := by
  obtain ⟨-, -, -, -, -, -, -, -, -, -, -, -, -, -, e0, e1, -⟩ := idx_facts t
  funext y
  show V c main_v48 (((cfg1.win 5).blk t).view.emb y) = V c main_v48 y
  refine congrArg _ ?_
  funext a; apply Fin.ext
  match a with
  | ⟨0, _⟩ => show win1_5.index t (0 : Fin 2) * 1 + 1 * (y 0).val = (y 0).val; omega
  | ⟨1, _⟩ => show win1_5.index t (1 : Fin 2) * 128 + 1 * (y 1).val = (y 1).val; omega

/-- The shift's one block is the whole row vector. -/
theorem blk_be (c : Dev nD) (t : Fin cfg1.N) : iblk1 V c 6 t = beArr V c := by
  obtain ⟨-, -, -, -, -, -, -, -, -, -, -, -, -, -, -, -, e0, e1⟩ := idx_facts t
  funext y
  show V c main_v51 (((cfg1.win 6).blk t).view.emb y) = V c main_v51 y
  refine congrArg _ ?_
  funext a; apply Fin.ext
  match a with
  | ⟨0, _⟩ => show win1_6.index t (0 : Fin 2) * 1 + 1 * (y 0).val = (y 0).val; omega
  | ⟨1, _⟩ => show win1_6.index t (1 : Fin 2) * 128 + 1 * (y 1).val = (y 1).val; omega

/-- Entry `(p, q)` of output block `t` sits at `(2000 t + p, q)` in the message-layer array. -/
theorem emb_z (t : Fin cfg1.N) (p : Fin 2000) (q : Fin 128) :
    ((cfg1.win 8).blk t).view.emb (ix2 p q) = ix2 (grow t p) q := by
  obtain ⟨-, -, e0, e1, -⟩ := idx_facts t
  funext a; apply Fin.ext
  match a with
  | ⟨0, _⟩ => show win1_8.index t (0 : Fin 2) * 2000 + 1 * p.val = t.val * 2000 + p.val; omega
  | ⟨1, _⟩ => show win1_8.index t (1 : Fin 2) * 128 + 1 * q.val = q.val; omega

/-- Row `p` of the updated block `t` is row `2000 t + p` of the updated array. -/
theorem row_upd (c : Dev nD) (t : Fin cfg1.N) (p : Fin 2000) :
    (fun j : Fin 128 => resid (iblk1 V c 0 t (ix2 p j)) (iblk1 V c 1 t (ix2 p 0)) (iblk1 V c 2 t (ix2 p j)))
      = row (update (N := 100000) (aArr V c) (iArr V c) (hArr V c)) (grow t p) := by
  funext j
  rw [blk_a V c t p j, blk_i V c t p, blk_h V c t p j]
  rfl

/-- What point `t` writes to the second output is block `t` of the dense layer of the updated state: row `p`
    of the block is the layer of row `2000 t + p` of the updated state, with the whole weight matrix and vectors. -/
theorem flushed_z (c : Dev nD) (t : Fin cfg1.N) :
    (dat1 (F := Ideal) V c).flushed 8 t
      = ((cfg1.win 8).blk t).view.read (Elt Ideal)
          (dense (N := 100000) (K := 128) (update (N := 100000) (aArr V c) (iArr V c) (hArr V c))
            (wArr V c) (bArr V c) (gArr V c) (beArr V c)) := by
  show (cfg1.win 8).cut (grid1.coords t) ((dat1 (F := Ideal) V c).after 8 t) = _
  rw [after1_8]
  unfold out1_8
  rw [View.canon_unit_zero hz]
  simp only [View.ld_unit_zero (S := S2000x128) hz, View.ld_unit_zero (S := S2000x1) hz,
    View.ld_unit_zero (S := S128x128) hz, View.ld_unit_zero (S := S1x128) hz]
  funext j
  obtain ⟨p, q, rfl⟩ : ∃ (p : Fin 2000) (q : Fin 128), j = ix2 p q := ⟨j 0, j 1, eq_ix2 j⟩
  show k1_pay1 (F := Ideal) (k1_pay3 (iblk1 V c 0 t) (iblk1 V c 1 t) (iblk1 V c 2 t) (iblk1 V c 3 t) (iblk1 V c 4 t))
        (iblk1 V c 5 t) (iblk1 V c 6 t) (ix2 p q)
    = dense (N := 100000) (K := 128) (update (N := 100000) (aArr V c) (iArr V c) (hArr V c))
        (wArr V c) (bArr V c) (gArr V c) (beArr V c) (((cfg1.win 8).blk t).view.emb (ix2 p q))
  refine (Body.pay1_z (iblk1 V c 0 t) (iblk1 V c 1 t) (iblk1 V c 2 t) (iblk1 V c 3 t) (iblk1 V c 4 t)
    (iblk1 V c 5 t) (iblk1 V c 6 t) p q).trans ?_
  rw [emb_z t p q, row_upd V c t p, blk_w V c t, blk_b V c t, blk_g V c t, blk_be V c t]
  rfl

/-- An index of the array is in block `t` iff each coordinate is in the block's range on its axis. -/
theorem mem_blk_z (t : Fin cfg1.N) (i : S100000x128.Idx) :
    i ∈ ((cfg1.win 8).blk t).view.set ↔ ∀ a : Fin 2, win1_8.index t a * S2000x128.size a ≤ (i a).val ∧ (i a).val < win1_8.index t a * S2000x128.size a + S2000x128.size a := by
  show i ∈ ((View.whole main_v52_1).slice (win1_8.rect t)).set ↔ _
  rw [View.set_slice_whole, Rect.mem_set_unit]
  exact Iff.rfl

/-- Row `r` lies in block `r / 2000`: the fifty blocks of 2000 rows cover the 100000 rows. -/
theorem cover_z (i : S100000x128.Idx) :
    ∃ t : Fin cfg1.N, (cfg1.win 8).flush t = true ∧ i ∈ ((cfg1.win 8).blk t).view.set := by
  have hi0 : (i 0).val < 100000 := (i 0).isLt
  have hi1 : (i 1).val < 128 := (i 1).isLt
  have hN : cfg1.N = 50 := N_1
  obtain ⟨t, ht⟩ : ∃ t : Fin cfg1.N, t.val = (i 0).val / 2000 := ⟨⟨(i 0).val / 2000, by omega⟩, rfl⟩
  obtain ⟨-, -, e0, e1, -⟩ := idx_facts t
  refine ⟨t, flush1_8 t, ?_⟩
  rw [mem_blk_z]
  intro a
  match a with
  | ⟨0, _⟩ => show win1_8.index t (0 : Fin 2) * 2000 ≤ (i 0).val ∧ (i 0).val < win1_8.index t (0 : Fin 2) * 2000 + 2000; omega
  | ⟨1, _⟩ => show win1_8.index t (1 : Fin 2) * 128 ≤ (i 1).val ∧ (i 1).val < win1_8.index t (1 : Fin 2) * 128 + 128; omega

/-- After region 1 its second output array holds the message layer of the updated state, row by row. -/
theorem final_z (c : Dev nD) :
    (dat1 (F := Ideal) V c).arrAt 8 cfg1.N
      = dense (N := 100000) (K := 128) (update (N := 100000) (V c main_v40) (V c main_v15) (V c main_v30_0))
          (V c main_v42) (V c main_v45) (V c main_v48) (V c main_v51) :=
  (dat1 (F := Ideal) V c).arrAt_eq_of_cover 8
    (dense (N := 100000) (K := 128) (update (N := 100000) (aArr V c) (iArr V c) (hArr V c))
      (wArr V c) (bArr V c) (gArr V c) (beArr V c))
    (fun t _ => flushed_z V c t) cover_z

end Cert.KernelIdeal.Region1

end
-- ==== Proof.KerChain.lean ====
/-
  The idealized kernel program end to end: the contents of its result buffer at the last boundary, read back through
  the host stretches and the three regions to the launch contents of the arguments.
-/
import proofs.«400524_j3736621548265_3_alg».proof.Proof.Gen.KernelIdeal.Frame
import proofs.«400524_j3736621548265_3_alg».proof.Proof.Spec
import proofs.«400524_j3736621548265_3_alg».proof.Proof.KerRegion0
import proofs.«400524_j3736621548265_3_alg».proof.Proof.KerRegion1
import proofs.«400524_j3736621548265_3_alg».proof.Proof.KerRegion2
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.KernelIdeal.Chain

open Cert.KernelIdeal Cert.KernelIdeal.Gen Cert.Spec
open Idealize.ShloMosaic Idealize.ShloMosaic.TcCoe Idealize.ShloMosaic.ValueIdx Idealize.SL.Sem

section Glue
variable {F : FTy → Type} [FloatOps F]

/-- The source node of every edge, as a column; a negative index counts from the end. -/
def srcCol (ei : IVec S2x625000 32) : IVec S625000x1 32 :=
  broadcastInDim S625000x1 ![0] bcast_S625000_S625000x1_0 (select (cmpi .slt (shapeCast S625000 (extractStridedSlice S1x625000 ![0, 0] ei slices_S2x625000_S1x625000_0_0) shapeCasts_S1x625000_S625000) (broadcastInDim S625000 ![] bcast_S_S625000 (constantI S_ 32 0#32))) (addi (shapeCast S625000 (extractStridedSlice S1x625000 ![0, 0] ei slices_S2x625000_S1x625000_0_0) shapeCasts_S1x625000_S625000) (broadcastInDim S625000 ![] bcast_S_S625000 (constantI S_ 32 100000#32))) (shapeCast S625000 (extractStridedSlice S1x625000 ![0, 0] ei slices_S2x625000_S1x625000_0_0) shapeCasts_S1x625000_S625000))

/-- The target node of every edge, as a column. -/
def dstCol (ei : IVec S2x625000 32) : IVec S625000x1 32 :=
  broadcastInDim S625000x1 ![0] bcast_S625000_S625000x1_0 (shapeCast S625000 (extractStridedSlice S1x625000 ![1, 0] ei slices_S2x625000_S1x625000_1_0) shapeCasts_S1x625000_S625000)

/-- The inverse in-degree of every node as a column: one over the number of edges into it, and zero where there is none. -/
def invCol (ei : IVec S2x625000 32) : FVec F S100000x1 .f32 :=
  broadcastInDim S100000x1 ![0] bcast_S100000_S100000x1_0 (select (cmpf (F := F) .ogt (Host.scatterAdd scatter_S100000_S625000x1_S625000_n_0_0_1 (broadcastInDim S100000 ![] bcast_S_S100000 (constant S_ .f32 0x00000000#32)) (dstCol ei) (broadcastInDim S625000 ![] bcast_S_S625000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S625000x1_S625000_n_0_0_1 (broadcastInDim S100000 ![] bcast_S_S100000 (constant S_ .f32 0x00000000#32)) (dstCol ei) (broadcastInDim S625000 ![] bcast_S_S625000 (constant S_ .f32 0x3F800000#32))) (broadcastInDim S100000 ![] bcast_S_S100000 (constant S_ .f32 0x3F800000#32)))) ((broadcastInDim S100000 ![] bcast_S_S100000) (id (constant S_ .f32 0x00000000#32))))

/-- Aggregation along the edges: gather the rows of `z` at the edges' sources, add them up at the edges' targets. -/
def agg (ei : IVec S2x625000 32) (z : FVec F S100000x128 .f32) : FVec F S100000x128 .f32 :=
  Host.scatterAdd scatter_S100000x128_S625000x1_S625000x128_1_0_0_1 (broadcastInDim S100000x128 ![] bcast_S_S100000x128 (constant S_ .f32 0x00000000#32)) (dstCol ei) (Host.gather gather_S100000x128_S625000x1_S625000x128_1_0_n_n_0_1_1128 z (srcCol ei))

end Glue

/-! ## Parameter reshapes and slices read at an index -/

section Reads

/-- A vector of 128 entries reshaped to one row. -/
theorem reshape_vec1 (b : Arr1 128) (h : S128.ShapeCasts S1x128) : shapeCast S1x128 b h = vec1 b := by
  funext i
  obtain ⟨u, q, rfl⟩ : ∃ (u : Fin 1) (q : Fin 128), i = ix2 u q := ⟨i 0, i 1, eq_ix2 i⟩
  exact shapeCast_a_1a_apply b h u q

/-- Slice `l` of the stack of matrices, with the unit axis dropped. -/
theorem slice_wsl (ws : Arr3 3 128 128) (l : Fin 3) (hs : S3x128x128.Slices ![l.val, 0, 0] S1x128x128)
    (h : S1x128x128.ShapeCasts S128x128) :
    shapeCast S128x128 (extractStridedSlice S1x128x128 ![l.val, 0, 0] ws hs) h = wsl ws l := by
  funext i
  obtain ⟨p, q, rfl⟩ : ∃ (p : Fin 128) (q : Fin 128), i = ix2 p q := ⟨i 0, i 1, eq_ix2 i⟩
  refine (shapeCast_1ab_ab_apply _ h p q).trans ?_
  refine extractStridedSlice_apply _ ws hs _ (ix3 l p q) fun a => ?_
  match a with
  | ⟨0, _⟩ => rfl
  | ⟨1, _⟩ => exact (Nat.zero_add _).symm
  | ⟨2, _⟩ => exact (Nat.zero_add _).symm

/-- Row `l` of a [3, 128] array as one row: the slice, flattened, then given its unit axis back. -/
theorem slice_vsl (bs : Arr2 3 128) (l : Fin 3) (hs : S3x128.Slices ![l.val, 0] S1x128)
    (h1 : S1x128.ShapeCasts S128) (h2 : S128.ShapeCasts S1x128) :
    shapeCast S1x128 (shapeCast S128 (extractStridedSlice S1x128 ![l.val, 0] bs hs) h1) h2 = vsl bs l := by
  funext i
  obtain ⟨u, q, rfl⟩ : ∃ (u : Fin 1) (q : Fin 128), i = ix2 u q := ⟨i 0, i 1, eq_ix2 i⟩
  refine (shapeCast_a_1a_apply _ h2 u q).trans ?_
  refine (shapeCast_1a_a_apply _ h1 q).trans ?_
  refine extractStridedSlice_apply _ bs hs _ (ix2 l q) fun a => ?_
  match a with
  | ⟨0, _⟩ => rfl
  | ⟨1, _⟩ => exact (Nat.zero_add _).symm

end Reads

/-- The state update as the program spells it: the aggregation times the in-degree column broadcast along the
    features, plus the previous state. -/
theorem addf_mulf_bcast (a h : FVec Ideal S100000x128 .f32) (i : FVec Ideal S100000x1 .f32) :
    addf (mulf a (broadcastInDim S100000x128 ![0, 1] bcast_S100000x1_S100000x128_0_1 i)) h = update (N := 100000) a i h := by
  funext j
  obtain ⟨p, q, rfl⟩ : ∃ (p : Fin 100000) (q : Fin 128), j = ix2 p q := ⟨j 0, j 1, eq_ix2 j⟩
  have hb : broadcastInDim S100000x128 ![0, 1] bcast_S100000x1_S100000x128_0_1 i (ix2 p q) = i (ix2 p (0 : Fin 1)) :=
    broadcastInDim_apply _ _ i _ _ fun a => by
      match a with
      | ⟨0, _⟩ => exact (if_neg (show ¬ ((100000 : Nat) = 1) by decide)).symm
      | ⟨1, _⟩ => exact (if_pos rfl).symm
  show a (ix2 p q) * broadcastInDim S100000x128 ![0, 1] bcast_S100000x1_S100000x128_0_1 i (ix2 p q) + h (ix2 p q) = _
  rw [hb]
  rfl

variable (m : (ℓ : Loc nD τ sig) → Buf (Elt Ideal) ℓ) (ρ : Dev nD → PrngReg)

/-! ## Before region 0: the edge slices, the inverse in-degree, the parameter reshapes -/

theorem W1_v9 (c : Dev nD) :
    W1 (F := Ideal) m ρ c (Proc.devRef .tc main_v9) = cmpf (F := Ideal) .ogt (Host.scatterAdd scatter_S100000_S625000x1_S625000_n_0_0_1 (broadcastInDim S100000 ![] bcast_S_S100000 (constant S_ .f32 0x00000000#32)) (dstCol (m ((c.tc : Thread nD τ).loc main_arg1))) (broadcastInDim S625000 ![] bcast_S_S625000 (constant S_ .f32 0x3F800000#32))) (broadcastInDim S100000 ![] bcast_S_S100000 (constant S_ .f32 0x00000000#32)) := by
  show StableHlo.after hostOps0 (W0 m ρ c) (Proc.devRef .tc main_v9) = _
  after_results
  rfl

theorem W1_v13 (c : Dev nD) :
    W1 (F := Ideal) m ρ c (Proc.devRef .tc main_v13) = Host.divf (F := Ideal) (broadcastInDim S100000 ![] bcast_S_S100000 (constant S_ .f32 0x3F800000#32)) (maximumf (Host.scatterAdd scatter_S100000_S625000x1_S625000_n_0_0_1 (broadcastInDim S100000 ![] bcast_S_S100000 (constant S_ .f32 0x00000000#32)) (dstCol (m ((c.tc : Thread nD τ).loc main_arg1))) (broadcastInDim S625000 ![] bcast_S_S625000 (constant S_ .f32 0x3F800000#32))) (broadcastInDim S100000 ![] bcast_S_S100000 (constant S_ .f32 0x3F800000#32))) := by
  show StableHlo.after hostOps0 (W0 m ρ c) (Proc.devRef .tc main_v13) = _
  after_results
  rfl

theorem W1_cst_4 (c : Dev nD) : W1 (F := Ideal) m ρ c (Proc.devRef .tc main_cst_4) = constant (F := Ideal) S_ .f32 0x00000000#32 := by
  show StableHlo.after hostOps0 (W0 m ρ c) (Proc.devRef .tc main_cst_4) = _
  after_results

/-- The select between the inverse count and zero. -/
theorem W2_v14 (c : Dev nD) :
    W2 (F := Ideal) m ρ c (Proc.devRef .tc main_v14) = select (W1 (F := Ideal) m ρ c (Proc.devRef .tc main_v9)) (W1 (F := Ideal) m ρ c (Proc.devRef .tc main_v13)) ((broadcastInDim S100000 ![] bcast_S_S100000) (id (W1 (F := Ideal) m ρ c (Proc.devRef .tc main_cst_4)))) := by
  show StableHlo.after hostOps0_1 (W1 m ρ c) (Proc.devRef .tc main_v14) = _
  generalize W1 (F := Ideal) m ρ c = V
  after_results
  simp only [StableHlo.TRef.ofBuf, StableHlo.TRef.toBuf, cast_eq]

/-- The inverse in-degree column, computed before region 0 from the edge list alone. -/
theorem W3_v15 (c : Dev nD) : W3 (F := Ideal) m ρ c (Proc.devRef .tc main_v15) = invCol (F := Ideal) (m ((c.tc : Thread nD τ).loc main_arg1)) := by
  have e : W3 (F := Ideal) m ρ c (Proc.devRef .tc main_v15) = broadcastInDim S100000x1 ![0] bcast_S100000_S100000x1_0 (W2 (F := Ideal) m ρ c (Proc.devRef .tc main_v14)) := by
    show StableHlo.after hostOps0_2 (W2 m ρ c) (Proc.devRef .tc main_v15) = _
    generalize W2 (F := Ideal) m ρ c = V
    after_results
  rw [e, W2_v14, W1_v9, W1_v13, W1_cst_4]
  rfl

/-- The edges' source ids, as a vector. -/
theorem W3_v1 (c : Dev nD) : W3 (F := Ideal) m ρ c (Proc.devRef .tc main_v1) = (shapeCast S625000 (extractStridedSlice S1x625000 ![0, 0] (m ((c.tc : Thread nD τ).loc main_arg1)) slices_S2x625000_S1x625000_0_0) shapeCasts_S1x625000_S625000) := by
  show StableHlo.after hostOps0_2 (W2 m ρ c) (Proc.devRef .tc main_v1) = _
  after_results
  rfl

/-- The edges' target ids, as a vector. -/
theorem W3_v3 (c : Dev nD) : W3 (F := Ideal) m ρ c (Proc.devRef .tc main_v3) = (shapeCast S625000 (extractStridedSlice S1x625000 ![1, 0] (m ((c.tc : Thread nD τ).loc main_arg1)) slices_S2x625000_S1x625000_1_0) shapeCasts_S1x625000_S625000) := by
  show StableHlo.after hostOps0_2 (W2 m ρ c) (Proc.devRef .tc main_v3) = _
  after_results
  rfl

theorem W3_arg0 (c : Dev nD) : W3 (F := Ideal) m ρ c (Proc.devRef .tc main_arg0) = m ((c.tc : Thread nD τ).loc main_arg0) := by
  show StableHlo.after hostOps0_2 (W2 m ρ c) (Proc.devRef .tc main_arg0) = _
  after_results

theorem W3_arg2 (c : Dev nD) : W3 (F := Ideal) m ρ c (Proc.devRef .tc main_arg2) = m ((c.tc : Thread nD τ).loc main_arg2) := by
  show StableHlo.after hostOps0_2 (W2 m ρ c) (Proc.devRef .tc main_arg2) = _
  after_results

theorem W3_arg6 (c : Dev nD) : W3 (F := Ideal) m ρ c (Proc.devRef .tc main_arg6) = m ((c.tc : Thread nD τ).loc main_arg6) := by
  show StableHlo.after hostOps0_2 (W2 m ρ c) (Proc.devRef .tc main_arg6) = _
  after_results

theorem W3_arg7 (c : Dev nD) : W3 (F := Ideal) m ρ c (Proc.devRef .tc main_arg7) = m ((c.tc : Thread nD τ).loc main_arg7) := by
  show StableHlo.after hostOps0_2 (W2 m ρ c) (Proc.devRef .tc main_arg7) = _
  after_results

theorem W3_arg8 (c : Dev nD) : W3 (F := Ideal) m ρ c (Proc.devRef .tc main_arg8) = m ((c.tc : Thread nD τ).loc main_arg8) := by
  show StableHlo.after hostOps0_2 (W2 m ρ c) (Proc.devRef .tc main_arg8) = _
  after_results

theorem W3_arg9 (c : Dev nD) : W3 (F := Ideal) m ρ c (Proc.devRef .tc main_arg9) = m ((c.tc : Thread nD τ).loc main_arg9) := by
  show StableHlo.after hostOps0_2 (W2 m ρ c) (Proc.devRef .tc main_arg9) = _
  after_results

theorem W3_v16 (c : Dev nD) : W3 (F := Ideal) m ρ c (Proc.devRef .tc main_v16) = vec1 (m ((c.tc : Thread nD τ).loc main_arg3)) := by
  show StableHlo.after hostOps0_2 (W2 m ρ c) (Proc.devRef .tc main_v16) = _
  after_results
  exact reshape_vec1 _ _

theorem W3_v17 (c : Dev nD) : W3 (F := Ideal) m ρ c (Proc.devRef .tc main_v17) = vec1 (m ((c.tc : Thread nD τ).loc main_arg4)) := by
  show StableHlo.after hostOps0_2 (W2 m ρ c) (Proc.devRef .tc main_v17) = _
  after_results
  exact reshape_vec1 _ _

theorem W3_v18 (c : Dev nD) : W3 (F := Ideal) m ρ c (Proc.devRef .tc main_v18) = vec1 (m ((c.tc : Thread nD τ).loc main_arg5)) := by
  show StableHlo.after hostOps0_2 (W2 m ρ c) (Proc.devRef .tc main_v18) = _
  after_results
  exact reshape_vec1 _ _

theorem W3_v20 (c : Dev nD) : W3 (F := Ideal) m ρ c (Proc.devRef .tc main_v20) = wsl (m ((c.tc : Thread nD τ).loc main_arg6)) 0 := by
  show StableHlo.after hostOps0_2 (W2 m ρ c) (Proc.devRef .tc main_v20) = _
  after_results
  exact slice_wsl _ 0 _ _

theorem W3_v23 (c : Dev nD) : W3 (F := Ideal) m ρ c (Proc.devRef .tc main_v23) = vsl (m ((c.tc : Thread nD τ).loc main_arg7)) 0 := by
  show StableHlo.after hostOps0_2 (W2 m ρ c) (Proc.devRef .tc main_v23) = _
  after_results
  exact slice_vsl _ 0 _ _ _

theorem W3_v26 (c : Dev nD) : W3 (F := Ideal) m ρ c (Proc.devRef .tc main_v26) = vsl (m ((c.tc : Thread nD τ).loc main_arg8)) 0 := by
  show StableHlo.after hostOps0_2 (W2 m ρ c) (Proc.devRef .tc main_v26) = _
  after_results
  exact slice_vsl _ 0 _ _ _

theorem W3_v29 (c : Dev nD) : W3 (F := Ideal) m ρ c (Proc.devRef .tc main_v29) = vsl (m ((c.tc : Thread nD τ).loc main_arg9)) 0 := by
  show StableHlo.after hostOps0_2 (W2 m ρ c) (Proc.devRef .tc main_v29) = _
  after_results
  exact slice_vsl _ 0 _ _ _

/-! ## The states of the network, over the launch contents -/

/-- The node states after the embedding layer. -/
def H0 (c : Dev nD) : Arr2 100000 128 :=
  dense (N := 100000) (K := 32) (m ((c.tc : Thread nD τ).loc main_arg0)) (m ((c.tc : Thread nD τ).loc main_arg2)) (vec1 (m ((c.tc : Thread nD τ).loc main_arg3))) (vec1 (m ((c.tc : Thread nD τ).loc main_arg4))) (vec1 (m ((c.tc : Thread nD τ).loc main_arg5)))
/-- The first message layer on the embedding. -/
def Z0 (c : Dev nD) : Arr2 100000 128 :=
  dense (N := 100000) (K := 128) (H0 m c) (wsl (m ((c.tc : Thread nD τ).loc main_arg6)) 0) (vsl (m ((c.tc : Thread nD τ).loc main_arg7)) 0) (vsl (m ((c.tc : Thread nD τ).loc main_arg8)) 0) (vsl (m ((c.tc : Thread nD τ).loc main_arg9)) 0)
/-- The node states after the first round. -/
def H1 (c : Dev nD) : Arr2 100000 128 :=
  update (N := 100000) (agg (F := Ideal) (m ((c.tc : Thread nD τ).loc main_arg1)) (Z0 m c)) (invCol (F := Ideal) (m ((c.tc : Thread nD τ).loc main_arg1))) (H0 m c)
/-- The second message layer. -/
def Z1 (c : Dev nD) : Arr2 100000 128 :=
  dense (N := 100000) (K := 128) (H1 m c) (wsl (m ((c.tc : Thread nD τ).loc main_arg6)) 1) (vsl (m ((c.tc : Thread nD τ).loc main_arg7)) 1) (vsl (m ((c.tc : Thread nD τ).loc main_arg8)) 1) (vsl (m ((c.tc : Thread nD τ).loc main_arg9)) 1)
/-- The node states after the second round. -/
def H2 (c : Dev nD) : Arr2 100000 128 :=
  update (N := 100000) (agg (F := Ideal) (m ((c.tc : Thread nD τ).loc main_arg1)) (Z1 m c)) (invCol (F := Ideal) (m ((c.tc : Thread nD τ).loc main_arg1))) (H1 m c)
/-- The third message layer. -/
def Z2 (c : Dev nD) : Arr2 100000 128 :=
  dense (N := 100000) (K := 128) (H2 m c) (wsl (m ((c.tc : Thread nD τ).loc main_arg6)) 2) (vsl (m ((c.tc : Thread nD τ).loc main_arg7)) 2) (vsl (m ((c.tc : Thread nD τ).loc main_arg8)) 2) (vsl (m ((c.tc : Thread nD τ).loc main_arg9)) 2)

/-! ## Region 0's exit -/

theorem W4_v30_0 (c : Dev nD) : W4 (F := Ideal) m ρ c (Proc.devRef .tc main_v30_0) = H0 m c := by
  refine (W4_arr m ρ c 9).trans ((Region0.final_h (V3 m ρ) c).trans ?_)
  show dense (N := 100000) (K := 32) (W3 (F := Ideal) m ρ c (Proc.devRef .tc main_arg0)) (W3 (F := Ideal) m ρ c (Proc.devRef .tc main_arg2)) (W3 (F := Ideal) m ρ c (Proc.devRef .tc main_v16)) (W3 (F := Ideal) m ρ c (Proc.devRef .tc main_v17)) (W3 (F := Ideal) m ρ c (Proc.devRef .tc main_v18)) = _
  rw [W3_arg0, W3_arg2, W3_v16, W3_v17, W3_v18]
  rfl

theorem W4_v30_1 (c : Dev nD) : W4 (F := Ideal) m ρ c (Proc.devRef .tc main_v30_1) = Z0 m c := by
  refine (W4_arr m ρ c 10).trans ((Region0.final_z (V3 m ρ) c).trans ?_)
  show dense (N := 100000) (K := 128) (dense (N := 100000) (K := 32) (W3 (F := Ideal) m ρ c (Proc.devRef .tc main_arg0)) (W3 (F := Ideal) m ρ c (Proc.devRef .tc main_arg2)) (W3 (F := Ideal) m ρ c (Proc.devRef .tc main_v16)) (W3 (F := Ideal) m ρ c (Proc.devRef .tc main_v17)) (W3 (F := Ideal) m ρ c (Proc.devRef .tc main_v18))) (W3 (F := Ideal) m ρ c (Proc.devRef .tc main_v20)) (W3 (F := Ideal) m ρ c (Proc.devRef .tc main_v23)) (W3 (F := Ideal) m ρ c (Proc.devRef .tc main_v26)) (W3 (F := Ideal) m ρ c (Proc.devRef .tc main_v29)) = _
  rw [W3_arg0, W3_arg2, W3_v16, W3_v17, W3_v18, W3_v20, W3_v23, W3_v26, W3_v29]
  rfl

theorem W4_v1 (c : Dev nD) : W4 (F := Ideal) m ρ c (Proc.devRef .tc main_v1) = (shapeCast S625000 (extractStridedSlice S1x625000 ![0, 0] (m ((c.tc : Thread nD τ).loc main_arg1)) slices_S2x625000_S1x625000_0_0) shapeCasts_S1x625000_S625000) :=
  (W4_of_ne m ρ c main_v1 (by decide)).trans (W3_v1 m ρ c)
theorem W4_v3 (c : Dev nD) : W4 (F := Ideal) m ρ c (Proc.devRef .tc main_v3) = (shapeCast S625000 (extractStridedSlice S1x625000 ![1, 0] (m ((c.tc : Thread nD τ).loc main_arg1)) slices_S2x625000_S1x625000_1_0) shapeCasts_S1x625000_S625000) :=
  (W4_of_ne m ρ c main_v3 (by decide)).trans (W3_v3 m ρ c)
theorem W4_v15 (c : Dev nD) : W4 (F := Ideal) m ρ c (Proc.devRef .tc main_v15) = invCol (F := Ideal) (m ((c.tc : Thread nD τ).loc main_arg1)) :=
  (W4_of_ne m ρ c main_v15 (by decide)).trans (W3_v15 m ρ c)
theorem W4_arg6 (c : Dev nD) : W4 (F := Ideal) m ρ c (Proc.devRef .tc main_arg6) = m ((c.tc : Thread nD τ).loc main_arg6) :=
  (W4_of_ne m ρ c main_arg6 (by decide)).trans (W3_arg6 m ρ c)
theorem W4_arg7 (c : Dev nD) : W4 (F := Ideal) m ρ c (Proc.devRef .tc main_arg7) = m ((c.tc : Thread nD τ).loc main_arg7) :=
  (W4_of_ne m ρ c main_arg7 (by decide)).trans (W3_arg7 m ρ c)
theorem W4_arg8 (c : Dev nD) : W4 (F := Ideal) m ρ c (Proc.devRef .tc main_arg8) = m ((c.tc : Thread nD τ).loc main_arg8) :=
  (W4_of_ne m ρ c main_arg8 (by decide)).trans (W3_arg8 m ρ c)
theorem W4_arg9 (c : Dev nD) : W4 (F := Ideal) m ρ c (Proc.devRef .tc main_arg9) = m ((c.tc : Thread nD τ).loc main_arg9) :=
  (W4_of_ne m ρ c main_arg9 (by decide)).trans (W3_arg9 m ρ c)

/-! ## Round 1: the aggregation and the layer's parameters before region 1, then region 1's exit -/

theorem W5_v40 (c : Dev nD) : W5 (F := Ideal) m ρ c (Proc.devRef .tc main_v40) = agg (F := Ideal) (m ((c.tc : Thread nD τ).loc main_arg1)) (Z0 m c) := by
  show StableHlo.after hostOps1 (W4 m ρ c) (Proc.devRef .tc main_v40) = _
  generalize hV : W4 (F := Ideal) m ρ c = V
  after_results_simp
  subst hV
  rw [W4_v1, W4_v3, W4_v30_1]
  rfl
theorem W5_v15 (c : Dev nD) : W5 (F := Ideal) m ρ c (Proc.devRef .tc main_v15) = invCol (F := Ideal) (m ((c.tc : Thread nD τ).loc main_arg1)) := by
  show StableHlo.after hostOps1 (W4 m ρ c) (Proc.devRef .tc main_v15) = _
  generalize hV : W4 (F := Ideal) m ρ c = V
  after_results_simp
  subst hV
  exact W4_v15 m ρ c
theorem W5_v30_0 (c : Dev nD) : W5 (F := Ideal) m ρ c (Proc.devRef .tc main_v30_0) = H0 m c := by
  show StableHlo.after hostOps1 (W4 m ρ c) (Proc.devRef .tc main_v30_0) = _
  generalize hV : W4 (F := Ideal) m ρ c = V
  after_results_simp
  subst hV
  exact W4_v30_0 m ρ c
theorem W5_v42 (c : Dev nD) : W5 (F := Ideal) m ρ c (Proc.devRef .tc main_v42) = wsl (m ((c.tc : Thread nD τ).loc main_arg6)) 1 := by
  show StableHlo.after hostOps1 (W4 m ρ c) (Proc.devRef .tc main_v42) = _
  generalize hV : W4 (F := Ideal) m ρ c = V
  after_results_simp
  subst hV
  rw [W4_arg6]
  exact slice_wsl _ 1 _ _
theorem W5_v45 (c : Dev nD) : W5 (F := Ideal) m ρ c (Proc.devRef .tc main_v45) = vsl (m ((c.tc : Thread nD τ).loc main_arg7)) 1 := by
  show StableHlo.after hostOps1 (W4 m ρ c) (Proc.devRef .tc main_v45) = _
  generalize hV : W4 (F := Ideal) m ρ c = V
  after_results_simp
  subst hV
  rw [W4_arg7]
  exact slice_vsl _ 1 _ _ _
theorem W5_v48 (c : Dev nD) : W5 (F := Ideal) m ρ c (Proc.devRef .tc main_v48) = vsl (m ((c.tc : Thread nD τ).loc main_arg8)) 1 := by
  show StableHlo.after hostOps1 (W4 m ρ c) (Proc.devRef .tc main_v48) = _
  generalize hV : W4 (F := Ideal) m ρ c = V
  after_results_simp
  subst hV
  rw [W4_arg8]
  exact slice_vsl _ 1 _ _ _
theorem W5_v51 (c : Dev nD) : W5 (F := Ideal) m ρ c (Proc.devRef .tc main_v51) = vsl (m ((c.tc : Thread nD τ).loc main_arg9)) 1 := by
  show StableHlo.after hostOps1 (W4 m ρ c) (Proc.devRef .tc main_v51) = _
  generalize hV : W4 (F := Ideal) m ρ c = V
  after_results_simp
  subst hV
  rw [W4_arg9]
  exact slice_vsl _ 1 _ _ _
theorem W5_v1 (c : Dev nD) : W5 (F := Ideal) m ρ c (Proc.devRef .tc main_v1) = (shapeCast S625000 (extractStridedSlice S1x625000 ![0, 0] (m ((c.tc : Thread nD τ).loc main_arg1)) slices_S2x625000_S1x625000_0_0) shapeCasts_S1x625000_S625000) := by
  show StableHlo.after hostOps1 (W4 m ρ c) (Proc.devRef .tc main_v1) = _
  generalize hV : W4 (F := Ideal) m ρ c = V
  after_results_simp
  subst hV
  exact W4_v1 m ρ c
theorem W5_v3 (c : Dev nD) : W5 (F := Ideal) m ρ c (Proc.devRef .tc main_v3) = (shapeCast S625000 (extractStridedSlice S1x625000 ![1, 0] (m ((c.tc : Thread nD τ).loc main_arg1)) slices_S2x625000_S1x625000_1_0) shapeCasts_S1x625000_S625000) := by
  show StableHlo.after hostOps1 (W4 m ρ c) (Proc.devRef .tc main_v3) = _
  generalize hV : W4 (F := Ideal) m ρ c = V
  after_results_simp
  subst hV
  exact W4_v3 m ρ c
theorem W5_arg6 (c : Dev nD) : W5 (F := Ideal) m ρ c (Proc.devRef .tc main_arg6) = m ((c.tc : Thread nD τ).loc main_arg6) := by
  show StableHlo.after hostOps1 (W4 m ρ c) (Proc.devRef .tc main_arg6) = _
  generalize hV : W4 (F := Ideal) m ρ c = V
  after_results_simp
  subst hV
  exact W4_arg6 m ρ c
theorem W5_arg7 (c : Dev nD) : W5 (F := Ideal) m ρ c (Proc.devRef .tc main_arg7) = m ((c.tc : Thread nD τ).loc main_arg7) := by
  show StableHlo.after hostOps1 (W4 m ρ c) (Proc.devRef .tc main_arg7) = _
  generalize hV : W4 (F := Ideal) m ρ c = V
  after_results_simp
  subst hV
  exact W4_arg7 m ρ c
theorem W5_arg8 (c : Dev nD) : W5 (F := Ideal) m ρ c (Proc.devRef .tc main_arg8) = m ((c.tc : Thread nD τ).loc main_arg8) := by
  show StableHlo.after hostOps1 (W4 m ρ c) (Proc.devRef .tc main_arg8) = _
  generalize hV : W4 (F := Ideal) m ρ c = V
  after_results_simp
  subst hV
  exact W4_arg8 m ρ c
theorem W5_arg9 (c : Dev nD) : W5 (F := Ideal) m ρ c (Proc.devRef .tc main_arg9) = m ((c.tc : Thread nD τ).loc main_arg9) := by
  show StableHlo.after hostOps1 (W4 m ρ c) (Proc.devRef .tc main_arg9) = _
  generalize hV : W4 (F := Ideal) m ρ c = V
  after_results_simp
  subst hV
  exact W4_arg9 m ρ c
theorem W6_v52_0 (c : Dev nD) : W6 (F := Ideal) m ρ c (Proc.devRef .tc main_v52_0) = H1 m c := by
  refine (W6_arr m ρ c 7).trans ((Region1.final_h (V5 m ρ) c).trans ?_)
  show update (N := 100000) (W5 (F := Ideal) m ρ c (Proc.devRef .tc main_v40)) (W5 (F := Ideal) m ρ c (Proc.devRef .tc main_v15)) (W5 (F := Ideal) m ρ c (Proc.devRef .tc main_v30_0)) = _
  rw [W5_v40, W5_v15, W5_v30_0]
  rfl

theorem W6_v52_1 (c : Dev nD) : W6 (F := Ideal) m ρ c (Proc.devRef .tc main_v52_1) = Z1 m c := by
  refine (W6_arr m ρ c 8).trans ((Region1.final_z (V5 m ρ) c).trans ?_)
  show dense (N := 100000) (K := 128) (update (N := 100000) (W5 (F := Ideal) m ρ c (Proc.devRef .tc main_v40)) (W5 (F := Ideal) m ρ c (Proc.devRef .tc main_v15)) (W5 (F := Ideal) m ρ c (Proc.devRef .tc main_v30_0))) (W5 (F := Ideal) m ρ c (Proc.devRef .tc main_v42)) (W5 (F := Ideal) m ρ c (Proc.devRef .tc main_v45)) (W5 (F := Ideal) m ρ c (Proc.devRef .tc main_v48)) (W5 (F := Ideal) m ρ c (Proc.devRef .tc main_v51)) = _
  rw [W5_v40, W5_v15, W5_v30_0, W5_v42, W5_v45, W5_v48, W5_v51]
  rfl

theorem W6_v1 (c : Dev nD) : W6 (F := Ideal) m ρ c (Proc.devRef .tc main_v1) = (shapeCast S625000 (extractStridedSlice S1x625000 ![0, 0] (m ((c.tc : Thread nD τ).loc main_arg1)) slices_S2x625000_S1x625000_0_0) shapeCasts_S1x625000_S625000) :=
  (W6_of_ne m ρ c main_v1 (by decide)).trans (W5_v1 m ρ c)
theorem W6_v3 (c : Dev nD) : W6 (F := Ideal) m ρ c (Proc.devRef .tc main_v3) = (shapeCast S625000 (extractStridedSlice S1x625000 ![1, 0] (m ((c.tc : Thread nD τ).loc main_arg1)) slices_S2x625000_S1x625000_1_0) shapeCasts_S1x625000_S625000) :=
  (W6_of_ne m ρ c main_v3 (by decide)).trans (W5_v3 m ρ c)
/-- The inverse in-degree column is an input of region 1: it leaves as it entered. -/
theorem W6_v15 (c : Dev nD) : W6 (F := Ideal) m ρ c (Proc.devRef .tc main_v15) = invCol (F := Ideal) (m ((c.tc : Thread nD τ).loc main_arg1)) :=
  ((W6_arr m ρ c 1).trans (((dat1 (V5 m ρ) c).arrAt_in 1 rfl _).trans (A_eq1 (V5 m ρ) c 1))).trans (W5_v15 m ρ c)
theorem W6_arg6 (c : Dev nD) : W6 (F := Ideal) m ρ c (Proc.devRef .tc main_arg6) = m ((c.tc : Thread nD τ).loc main_arg6) :=
  (W6_of_ne m ρ c main_arg6 (by decide)).trans (W5_arg6 m ρ c)
theorem W6_arg7 (c : Dev nD) : W6 (F := Ideal) m ρ c (Proc.devRef .tc main_arg7) = m ((c.tc : Thread nD τ).loc main_arg7) :=
  (W6_of_ne m ρ c main_arg7 (by decide)).trans (W5_arg7 m ρ c)
theorem W6_arg8 (c : Dev nD) : W6 (F := Ideal) m ρ c (Proc.devRef .tc main_arg8) = m ((c.tc : Thread nD τ).loc main_arg8) :=
  (W6_of_ne m ρ c main_arg8 (by decide)).trans (W5_arg8 m ρ c)
theorem W6_arg9 (c : Dev nD) : W6 (F := Ideal) m ρ c (Proc.devRef .tc main_arg9) = m ((c.tc : Thread nD τ).loc main_arg9) :=
  (W6_of_ne m ρ c main_arg9 (by decide)).trans (W5_arg9 m ρ c)

/-! ## Round 2: the aggregation and the layer's parameters before region 2, then region 2's exit -/

theorem W7_v62 (c : Dev nD) : W7 (F := Ideal) m ρ c (Proc.devRef .tc main_v62) = agg (F := Ideal) (m ((c.tc : Thread nD τ).loc main_arg1)) (Z1 m c) := by
  show StableHlo.after hostOps2 (W6 m ρ c) (Proc.devRef .tc main_v62) = _
  generalize hV : W6 (F := Ideal) m ρ c = V
  after_results_simp
  subst hV
  rw [W6_v1, W6_v3, W6_v52_1]
  rfl
theorem W7_v15 (c : Dev nD) : W7 (F := Ideal) m ρ c (Proc.devRef .tc main_v15) = invCol (F := Ideal) (m ((c.tc : Thread nD τ).loc main_arg1)) := by
  show StableHlo.after hostOps2 (W6 m ρ c) (Proc.devRef .tc main_v15) = _
  generalize hV : W6 (F := Ideal) m ρ c = V
  after_results_simp
  subst hV
  exact W6_v15 m ρ c
theorem W7_v52_0 (c : Dev nD) : W7 (F := Ideal) m ρ c (Proc.devRef .tc main_v52_0) = H1 m c := by
  show StableHlo.after hostOps2 (W6 m ρ c) (Proc.devRef .tc main_v52_0) = _
  generalize hV : W6 (F := Ideal) m ρ c = V
  after_results_simp
  subst hV
  exact W6_v52_0 m ρ c
theorem W7_v64 (c : Dev nD) : W7 (F := Ideal) m ρ c (Proc.devRef .tc main_v64) = wsl (m ((c.tc : Thread nD τ).loc main_arg6)) 2 := by
  show StableHlo.after hostOps2 (W6 m ρ c) (Proc.devRef .tc main_v64) = _
  generalize hV : W6 (F := Ideal) m ρ c = V
  after_results_simp
  subst hV
  rw [W6_arg6]
  exact slice_wsl _ 2 _ _
theorem W7_v67 (c : Dev nD) : W7 (F := Ideal) m ρ c (Proc.devRef .tc main_v67) = vsl (m ((c.tc : Thread nD τ).loc main_arg7)) 2 := by
  show StableHlo.after hostOps2 (W6 m ρ c) (Proc.devRef .tc main_v67) = _
  generalize hV : W6 (F := Ideal) m ρ c = V
  after_results_simp
  subst hV
  rw [W6_arg7]
  exact slice_vsl _ 2 _ _ _
theorem W7_v70 (c : Dev nD) : W7 (F := Ideal) m ρ c (Proc.devRef .tc main_v70) = vsl (m ((c.tc : Thread nD τ).loc main_arg8)) 2 := by
  show StableHlo.after hostOps2 (W6 m ρ c) (Proc.devRef .tc main_v70) = _
  generalize hV : W6 (F := Ideal) m ρ c = V
  after_results_simp
  subst hV
  rw [W6_arg8]
  exact slice_vsl _ 2 _ _ _
theorem W7_v73 (c : Dev nD) : W7 (F := Ideal) m ρ c (Proc.devRef .tc main_v73) = vsl (m ((c.tc : Thread nD τ).loc main_arg9)) 2 := by
  show StableHlo.after hostOps2 (W6 m ρ c) (Proc.devRef .tc main_v73) = _
  generalize hV : W6 (F := Ideal) m ρ c = V
  after_results_simp
  subst hV
  rw [W6_arg9]
  exact slice_vsl _ 2 _ _ _
theorem W7_v1 (c : Dev nD) : W7 (F := Ideal) m ρ c (Proc.devRef .tc main_v1) = (shapeCast S625000 (extractStridedSlice S1x625000 ![0, 0] (m ((c.tc : Thread nD τ).loc main_arg1)) slices_S2x625000_S1x625000_0_0) shapeCasts_S1x625000_S625000) := by
  show StableHlo.after hostOps2 (W6 m ρ c) (Proc.devRef .tc main_v1) = _
  generalize hV : W6 (F := Ideal) m ρ c = V
  after_results_simp
  subst hV
  exact W6_v1 m ρ c
theorem W7_v3 (c : Dev nD) : W7 (F := Ideal) m ρ c (Proc.devRef .tc main_v3) = (shapeCast S625000 (extractStridedSlice S1x625000 ![1, 0] (m ((c.tc : Thread nD τ).loc main_arg1)) slices_S2x625000_S1x625000_1_0) shapeCasts_S1x625000_S625000) := by
  show StableHlo.after hostOps2 (W6 m ρ c) (Proc.devRef .tc main_v3) = _
  generalize hV : W6 (F := Ideal) m ρ c = V
  after_results_simp
  subst hV
  exact W6_v3 m ρ c
theorem W7_arg6 (c : Dev nD) : W7 (F := Ideal) m ρ c (Proc.devRef .tc main_arg6) = m ((c.tc : Thread nD τ).loc main_arg6) := by
  show StableHlo.after hostOps2 (W6 m ρ c) (Proc.devRef .tc main_arg6) = _
  generalize hV : W6 (F := Ideal) m ρ c = V
  after_results_simp
  subst hV
  exact W6_arg6 m ρ c
theorem W7_arg7 (c : Dev nD) : W7 (F := Ideal) m ρ c (Proc.devRef .tc main_arg7) = m ((c.tc : Thread nD τ).loc main_arg7) := by
  show StableHlo.after hostOps2 (W6 m ρ c) (Proc.devRef .tc main_arg7) = _
  generalize hV : W6 (F := Ideal) m ρ c = V
  after_results_simp
  subst hV
  exact W6_arg7 m ρ c
theorem W7_arg8 (c : Dev nD) : W7 (F := Ideal) m ρ c (Proc.devRef .tc main_arg8) = m ((c.tc : Thread nD τ).loc main_arg8) := by
  show StableHlo.after hostOps2 (W6 m ρ c) (Proc.devRef .tc main_arg8) = _
  generalize hV : W6 (F := Ideal) m ρ c = V
  after_results_simp
  subst hV
  exact W6_arg8 m ρ c
theorem W7_arg9 (c : Dev nD) : W7 (F := Ideal) m ρ c (Proc.devRef .tc main_arg9) = m ((c.tc : Thread nD τ).loc main_arg9) := by
  show StableHlo.after hostOps2 (W6 m ρ c) (Proc.devRef .tc main_arg9) = _
  generalize hV : W6 (F := Ideal) m ρ c = V
  after_results_simp
  subst hV
  exact W6_arg9 m ρ c
theorem W8_v74_0 (c : Dev nD) : W8 (F := Ideal) m ρ c (Proc.devRef .tc main_v74_0) = H2 m c := by
  refine (W8_arr m ρ c 7).trans ((Region2.final_h (V7 m ρ) c).trans ?_)
  show update (N := 100000) (W7 (F := Ideal) m ρ c (Proc.devRef .tc main_v62)) (W7 (F := Ideal) m ρ c (Proc.devRef .tc main_v15)) (W7 (F := Ideal) m ρ c (Proc.devRef .tc main_v52_0)) = _
  rw [W7_v62, W7_v15, W7_v52_0]
  rfl

theorem W8_v74_1 (c : Dev nD) : W8 (F := Ideal) m ρ c (Proc.devRef .tc main_v74_1) = Z2 m c := by
  refine (W8_arr m ρ c 8).trans ((Region2.final_z (V7 m ρ) c).trans ?_)
  show dense (N := 100000) (K := 128) (update (N := 100000) (W7 (F := Ideal) m ρ c (Proc.devRef .tc main_v62)) (W7 (F := Ideal) m ρ c (Proc.devRef .tc main_v15)) (W7 (F := Ideal) m ρ c (Proc.devRef .tc main_v52_0))) (W7 (F := Ideal) m ρ c (Proc.devRef .tc main_v64)) (W7 (F := Ideal) m ρ c (Proc.devRef .tc main_v67)) (W7 (F := Ideal) m ρ c (Proc.devRef .tc main_v70)) (W7 (F := Ideal) m ρ c (Proc.devRef .tc main_v73)) = _
  rw [W7_v62, W7_v15, W7_v52_0, W7_v64, W7_v67, W7_v70, W7_v73]
  rfl

theorem W8_v1 (c : Dev nD) : W8 (F := Ideal) m ρ c (Proc.devRef .tc main_v1) = (shapeCast S625000 (extractStridedSlice S1x625000 ![0, 0] (m ((c.tc : Thread nD τ).loc main_arg1)) slices_S2x625000_S1x625000_0_0) shapeCasts_S1x625000_S625000) :=
  (W8_of_ne m ρ c main_v1 (by decide)).trans (W7_v1 m ρ c)
theorem W8_v3 (c : Dev nD) : W8 (F := Ideal) m ρ c (Proc.devRef .tc main_v3) = (shapeCast S625000 (extractStridedSlice S1x625000 ![1, 0] (m ((c.tc : Thread nD τ).loc main_arg1)) slices_S2x625000_S1x625000_1_0) shapeCasts_S1x625000_S625000) :=
  (W8_of_ne m ρ c main_v3 (by decide)).trans (W7_v3 m ρ c)
/-- The inverse in-degree column is an input of region 2: it leaves as it entered. -/
theorem W8_v15 (c : Dev nD) : W8 (F := Ideal) m ρ c (Proc.devRef .tc main_v15) = invCol (F := Ideal) (m ((c.tc : Thread nD τ).loc main_arg1)) :=
  ((W8_arr m ρ c 1).trans (((dat2 (V7 m ρ) c).arrAt_in 1 rfl _).trans (A_eq2 (V7 m ρ) c 1))).trans (W7_v15 m ρ c)
theorem W8_arg6 (c : Dev nD) : W8 (F := Ideal) m ρ c (Proc.devRef .tc main_arg6) = m ((c.tc : Thread nD τ).loc main_arg6) :=
  (W8_of_ne m ρ c main_arg6 (by decide)).trans (W7_arg6 m ρ c)
theorem W8_arg7 (c : Dev nD) : W8 (F := Ideal) m ρ c (Proc.devRef .tc main_arg7) = m ((c.tc : Thread nD τ).loc main_arg7) :=
  (W8_of_ne m ρ c main_arg7 (by decide)).trans (W7_arg7 m ρ c)
theorem W8_arg8 (c : Dev nD) : W8 (F := Ideal) m ρ c (Proc.devRef .tc main_arg8) = m ((c.tc : Thread nD τ).loc main_arg8) :=
  (W8_of_ne m ρ c main_arg8 (by decide)).trans (W7_arg8 m ρ c)
theorem W8_arg9 (c : Dev nD) : W8 (F := Ideal) m ρ c (Proc.devRef .tc main_arg9) = m ((c.tc : Thread nD τ).loc main_arg9) :=
  (W8_of_ne m ρ c main_arg9 (by decide)).trans (W7_arg9 m ρ c)

/-! ## The last stretch: the third aggregation, scaled by the inverse in-degree, added to the state -/

theorem W9_v87 (c : Dev nD) :
    W9 (F := Ideal) m ρ c (Proc.devRef .tc main_v87) = update (N := 100000) (agg (F := Ideal) (m ((c.tc : Thread nD τ).loc main_arg1)) (Z2 m c)) (invCol (F := Ideal) (m ((c.tc : Thread nD τ).loc main_arg1))) (H2 m c) := by
  show StableHlo.after hostOps3 (W8 m ρ c) (Proc.devRef .tc main_v87) = _
  generalize hV : W8 (F := Ideal) m ρ c = V
  after_results_simp
  subst hV
  rw [W8_v1, W8_v3, W8_v74_1, W8_v15, W8_v74_0]
  exact addf_mulf_bcast _ _ _

/-- The result buffer at the last boundary is the network of `Spec.model` over this program's aggregation. -/
theorem kerOut (c : Dev nD) :
    W9 (F := Ideal) m ρ c (Proc.devRef .tc main_v87)
      = model (N := 100000) (agg (F := Ideal) (m ((c.tc : Thread nD τ).loc main_arg1))) (invCol (F := Ideal) (m ((c.tc : Thread nD τ).loc main_arg1)))
          (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  rw [W9_v87]
  rfl

end Cert.KernelIdeal.Chain

end
-- ==== Proof.RefStages.lean ====
/-
  The reference program's host operations, grouped into the stages of the network: the edge columns and the inverse
  in-degree, the gate, the normalisation over the 128 features, the two affine maps, the parameter slices, the
  aggregation along the edges and the state update; and their composition, the program's result as one term of its
  arguments. Each definition is the printed operations of its stretch, in order.
-/
import proofs.«400524_j3736621548265_3_alg».proof.Proof.Gen.ReferenceIdeal

set_option maxRecDepth 16384

noncomputable section

namespace Cert.ReferenceIdeal.Chain

open Cert.ReferenceIdeal Cert.ReferenceIdeal.Gen
open Idealize.ShloMosaic Idealize.ShloMosaic.TcCoe

variable {F : FTy → Type} [FloatOps F]

/-- The source node of every edge, as a column; a negative index counts from the end. -/
def srcCol (ei : IVec S2x625000 32) : IVec S625000x1 32 :=
  broadcastInDim S625000x1 ![0] bcast_S625000_S625000x1_0 (select (cmpi .slt (shapeCast S625000 (extractStridedSlice S1x625000 ![0, 0] ei slices_S2x625000_S1x625000_0_0) shapeCasts_S1x625000_S625000) (broadcastInDim S625000 ![] bcast_S_S625000 (constantI S_ 32 0#32))) (addi (shapeCast S625000 (extractStridedSlice S1x625000 ![0, 0] ei slices_S2x625000_S1x625000_0_0) shapeCasts_S1x625000_S625000) (broadcastInDim S625000 ![] bcast_S_S625000 (constantI S_ 32 100000#32))) (shapeCast S625000 (extractStridedSlice S1x625000 ![0, 0] ei slices_S2x625000_S1x625000_0_0) shapeCasts_S1x625000_S625000))

/-- The target node of every edge, as a column. -/
def dstCol (ei : IVec S2x625000 32) : IVec S625000x1 32 :=
  broadcastInDim S625000x1 ![0] bcast_S625000_S625000x1_0 (shapeCast S625000 (extractStridedSlice S1x625000 ![1, 0] ei slices_S2x625000_S1x625000_1_0) shapeCasts_S1x625000_S625000)

/-- The inverse in-degree of every node as a column: one over the number of edges into it, and zero where there is none. -/
def invCol (ei : IVec S2x625000 32) : FVec F S100000x1 .f32 :=
  broadcastInDim S100000x1 ![0] bcast_S100000_S100000x1_0 (select (cmpf (F := F) .ogt (Host.scatterAdd scatter_S100000_S625000x1_S625000_n_0_0_1 (broadcastInDim S100000 ![] bcast_S_S100000 (constant S_ .f32 0x00000000#32)) (dstCol ei) (broadcastInDim S625000 ![] bcast_S_S625000 (constant S_ .f32 0x3F800000#32))) (broadcastInDim S100000 ![] bcast_S_S100000 (constant S_ .f32 0x00000000#32))) (Host.divf (broadcastInDim S100000 ![] bcast_S_S100000 (constant S_ .f32 0x3F800000#32)) (maximumf (Host.scatterAdd scatter_S100000_S625000x1_S625000_n_0_0_1 (broadcastInDim S100000 ![] bcast_S_S100000 (constant S_ .f32 0x00000000#32)) (dstCol ei) (broadcastInDim S625000 ![] bcast_S_S625000 (constant S_ .f32 0x3F800000#32))) (broadcastInDim S100000 ![] bcast_S_S100000 (constant S_ .f32 0x3F800000#32)))) ((broadcastInDim S100000 ![] bcast_S_S100000) (id (constant S_ .f32 0x00000000#32))))

/-- Aggregation along the edges: gather the rows of `z` at the edges' sources, add them up at the edges' targets. -/
def agg (ei : IVec S2x625000 32) (z : FVec F S100000x128 .f32) : FVec F S100000x128 .f32 :=
  Host.scatterAdd scatter_S100000x128_S625000x1_S625000x128_1_0_0_1 (broadcastInDim S100000x128 ![] bcast_S_S100000x128 (constant S_ .f32 0x00000000#32)) (dstCol ei) (Host.gather gather_S100000x128_S625000x1_S625000x128_1_0_n_n_0_1_1128 z (srcCol ei))

/-- The gate `y · (1 / (1 + e^{-y}))`, entry by entry. -/
def silu (y : FVec F S100000x128 .f32) : FVec F S100000x128 .f32 :=
  mulf y (Host.divf ((broadcastInDim S100000x128 ![] bcast_S_S100000x128) (constant S_ .f32 0x3F800000#32)) (addf ((broadcastInDim S100000x128 ![] bcast_S_S100000x128) (constant S_ .f32 0x3F800000#32)) (Host.exp (Host.negf y))))

/-- The normalisation of every row over its 128 features, scaled by `g` and shifted by `be`. -/
def lnorm (a : FVec F S100000x128 .f32) (g be : FVec F S128 .f32) : FVec F S100000x128 .f32 :=
  addf (mulf (mulf (subf a (broadcastInDim S100000x128 ![0, 1] bcast_S100000x1_S100000x128_0_1 (Host.divf (broadcastInDim S100000x1 ![0] bcast_S100000_S100000x1_0 (Host.reduceAdd a (constant S_ .f32 0x00000000#32) reducesTo_S100000x128_S100000_d1 h_S_)) (broadcastInDim S100000x1 ![] bcast_S_S100000x1 (constant S_ .f32 0x43000000#32))))) (broadcastInDim S100000x128 ![0, 1] bcast_S100000x1_S100000x128_0_1 (Host.rsqrt (addf (Host.divf (broadcastInDim S100000x1 ![0] bcast_S100000_S100000x1_0 (Host.reduceAdd (mulf (subf a (broadcastInDim S100000x128 ![0, 1] bcast_S100000x1_S100000x128_0_1 (Host.divf (broadcastInDim S100000x1 ![0] bcast_S100000_S100000x1_0 (Host.reduceAdd a (constant S_ .f32 0x00000000#32) reducesTo_S100000x128_S100000_d1 h_S_)) (broadcastInDim S100000x1 ![] bcast_S_S100000x1 (constant S_ .f32 0x43000000#32))))) (subf a (broadcastInDim S100000x128 ![0, 1] bcast_S100000x1_S100000x128_0_1 (Host.divf (broadcastInDim S100000x1 ![0] bcast_S100000_S100000x1_0 (Host.reduceAdd a (constant S_ .f32 0x00000000#32) reducesTo_S100000x128_S100000_d1 h_S_)) (broadcastInDim S100000x1 ![] bcast_S_S100000x1 (constant S_ .f32 0x43000000#32)))))) (constant S_ .f32 0x00000000#32) reducesTo_S100000x128_S100000_d1 h_S_)) (broadcastInDim S100000x1 ![] bcast_S_S100000x1 (constant S_ .f32 0x43000000#32))) (broadcastInDim S100000x1 ![] bcast_S_S100000x1 (constant S_ .f32 0x3727C5AC#32)))))) (broadcastInDim S100000x128 ![0, 1] bcast_S1x128_S100000x128_0_1 (broadcastInDim S1x128 ![1] bcast_S128_S1x128_1 g))) (broadcastInDim S100000x128 ![0, 1] bcast_S1x128_S100000x128_0_1 (broadcastInDim S1x128 ![1] bcast_S128_S1x128_1 be))

/-- The affine map of the embedding layer. -/
def pre32 (x : FVec F S100000x32 .f32) (w : FVec F S32x128 .f32) (b : FVec F S128 .f32) : FVec F S100000x128 .f32 :=
  addf (Host.dotGeneral dot_S100000x32_S32x128_S100000x128_1_0_0_1_n_n none x w) (broadcastInDim S100000x128 ![0, 1] bcast_S1x128_S100000x128_0_1 (broadcastInDim S1x128 ![1] bcast_S128_S1x128_1 b))

/-- The affine map of a message layer. -/
def pre128 (h : FVec F S100000x128 .f32) (w : FVec F S128x128 .f32) (b : FVec F S128 .f32) : FVec F S100000x128 .f32 :=
  addf (Host.dotGeneral dot_S100000x128_S128x128_S100000x128_1_0_0_1_n_n none h w) (broadcastInDim S100000x128 ![0, 1] bcast_S1x128_S100000x128_0_1 (broadcastInDim S1x128 ![1] bcast_S128_S1x128_1 b))

/-- The weight matrix of message layer 0, 1, 2. -/
def w_0 (ws : FVec F S3x128x128 .f32) : FVec F S128x128 .f32 := shapeCast S128x128 (extractStridedSlice S1x128x128 ![0, 0, 0] ws slices_S3x128x128_S1x128x128_0_0_0) shapeCasts_S1x128x128_S128x128
def w_1 (ws : FVec F S3x128x128 .f32) : FVec F S128x128 .f32 := shapeCast S128x128 (extractStridedSlice S1x128x128 ![1, 0, 0] ws slices_S3x128x128_S1x128x128_1_0_0) shapeCasts_S1x128x128_S128x128
def w_2 (ws : FVec F S3x128x128 .f32) : FVec F S128x128 .f32 := shapeCast S128x128 (extractStridedSlice S1x128x128 ![2, 0, 0] ws slices_S3x128x128_S1x128x128_2_0_0) shapeCasts_S1x128x128_S128x128

/-- Row 0, 1, 2 of a [3, 128] parameter array (the three printed slices of each of `bs`, `gs`, `bes` are the same operations). -/
def v_0 (bs : FVec F S3x128 .f32) : FVec F S128 .f32 := shapeCast S128 (extractStridedSlice S1x128 ![0, 0] bs slices_S3x128_S1x128_0_0) shapeCasts_S1x128_S128
def v_1 (bs : FVec F S3x128 .f32) : FVec F S128 .f32 := shapeCast S128 (extractStridedSlice S1x128 ![1, 0] bs slices_S3x128_S1x128_1_0) shapeCasts_S1x128_S128
def v_2 (bs : FVec F S3x128 .f32) : FVec F S128 .f32 := shapeCast S128 (extractStridedSlice S1x128 ![2, 0] bs slices_S3x128_S1x128_2_0) shapeCasts_S1x128_S128

/-- The embedding layer. -/
def embed (x : FVec F S100000x32 .f32) (w0 : FVec F S32x128 .f32) (b0 g0 be0 : FVec F S128 .f32) : FVec F S100000x128 .f32 :=
  lnorm (silu (pre32 x w0 b0)) g0 be0

/-- A message layer on already sliced parameters. -/
def msg (h : FVec F S100000x128 .f32) (w : FVec F S128x128 .f32) (b g be : FVec F S128 .f32) : FVec F S100000x128 .f32 :=
  lnorm (silu (pre128 h w b)) g be

/-- The state update: aggregated messages times the inverse in-degree, plus the previous state. -/
def step (a : FVec F S100000x128 .f32) (i : FVec F S100000x1 .f32) (h : FVec F S100000x128 .f32) : FVec F S100000x128 .f32 :=
  addf (mulf a (broadcastInDim S100000x128 ![0, 1] bcast_S100000x1_S100000x128_0_1 i)) h

/-- The program's result as one term of its arguments. -/
def out (x : FVec F S100000x32 .f32) (ei : IVec S2x625000 32) (w0 : FVec F S32x128 .f32) (b0 g0 be0 : FVec F S128 .f32)
    (ws : FVec F S3x128x128 .f32) (bs gs bes : FVec F S3x128 .f32) : FVec F S100000x128 .f32 :=
  let h0 := embed x w0 b0 g0 be0
  let z0 := msg h0 (w_0 ws) (v_0 bs) (v_0 gs) (v_0 bes)
  let h1 := step (agg ei z0) (invCol ei) h0
  let z1 := msg h1 (w_1 ws) (v_1 bs) (v_1 gs) (v_1 bes)
  let h2 := step (agg ei z1) (invCol ei) h1
  let z2 := msg h2 (w_2 ws) (v_2 bs) (v_2 gs) (v_2 bes)
  step (agg ei z2) (invCol ei) h2

end Cert.ReferenceIdeal.Chain

end
-- ==== Proof.RefRun.lean ====
/-
  The reference program's run read back: every weakly fair execution of its host operations terminates with the result
  buffer at the composed term `Chain.out` of the arguments' launch contents, and the arguments unchanged.

  The program is a straight line of 264 operations. It is cut at the stage boundaries into eight stretches — the edge
  columns and the inverse in-degree; the embedding layer; then three times a message layer followed by the aggregation
  along the edges and the state update. The contents after two stretches in a row are the second's after the first's, so
  each stretch is read on its own, from any contents: the buffer it hands on is the stage function of the buffers it
  finds, and every buffer it does not write keeps its contents. The result is then the composition of the stages.
-/
import proofs.«400524_j3736621548265_3_alg».proof.Proof.Gen.ReferenceIdeal
import proofs.«400524_j3736621548265_3_alg».proof.Proof.RefStages
import Idealize.ShloMosaic.Lib.StableHlo.Run

set_option maxRecDepth 16384

noncomputable section

namespace Cert.ReferenceIdeal.Chain

open Cert.ReferenceIdeal Cert.ReferenceIdeal.Gen
open Idealize.ShloMosaic Idealize.ShloMosaic.TcCoe Idealize.SL.Sem Idealize.ShloMosaic.StableHlo

variable {F : FTy → Type} [FloatOps F]

/-- The edges' sources as a flat column: row 0 of the edge list. -/
def srcFlat (ei : IVec S2x625000 32) : IVec S625000 32 :=
  shapeCast S625000 (extractStridedSlice S1x625000 ![0, 0] ei slices_S2x625000_S1x625000_0_0) shapeCasts_S1x625000_S625000

/-- The edges' targets as a flat column: row 1 of the edge list. -/
def dstFlat (ei : IVec S2x625000 32) : IVec S625000 32 :=
  shapeCast S625000 (extractStridedSlice S1x625000 ![1, 0] ei slices_S2x625000_S1x625000_1_0) shapeCasts_S1x625000_S625000

/-- A reference of a list, as a device buffer, is among the list's device buffers. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The contents after two lines in a row are the second line's after the first's. -/
theorem after_app (l₁ l₂ : List (HloOp τ sig (Elt F))) (V : Valuation τ sig (Elt F)) :
    after (l₁ ++ l₂) V = after l₂ (after l₁ V) := by
  induction l₁ generalizing V with
  | nil => rfl
  | cons op l ih => exact ih (op.result V)

/-! ## The operations, stretch by stretch -/

/-- The edge columns and the inverse in-degree: operations 1 … 24 of the program. -/
abbrev s1 : List (HloOp τ sig (Elt F)) :=
  [ unary main_arg1 main_v0 ((extractStridedSlice S1x625000 ![0, 0] · slices_S2x625000_S1x625000_0_0) : (⟨S2x625000, .i32⟩ : BufTy).Contents (Elt F) → (⟨S1x625000, .i32⟩ : BufTy).Contents (Elt F)),
    reshape main_v0 main_v1 rfl shapeCasts_S1x625000_S625000,
    unary main_arg1 main_v2 ((extractStridedSlice S1x625000 ![1, 0] · slices_S2x625000_S1x625000_1_0) : (⟨S2x625000, .i32⟩ : BufTy).Contents (Elt F) → (⟨S1x625000, .i32⟩ : BufTy).Contents (Elt F)),
    reshape main_v2 main_v3 rfl shapeCasts_S1x625000_S625000,
    nullary main_cst (constant S_ .f32 0x3F800000#32),
    unary main_cst main_v4 (broadcastInDim S625000 ![] bcast_S_S625000 : (⟨S_, .f32⟩ : BufTy).Contents (Elt F) → (⟨S625000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S625000x1 ![0] bcast_S625000_S625000x1_0 : (⟨S625000, .i32⟩ : BufTy).Contents (Elt F) → (⟨S625000x1, .i32⟩ : BufTy).Contents (Elt F)),
    ternary main_v5 main_v6 main_v4 main_v7 ((fun x i u => Host.scatterAdd scatter_S100000_S625000x1_S625000_n_0_0_1 x i u) : (⟨S100000, .f32⟩ : BufTy).Contents (Elt F) → (⟨S625000x1, .i32⟩ : BufTy).Contents (Elt F) → (⟨S625000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    nullary main_cst_2 (constant S_ .f32 0x3F800000#32),
    unary main_cst_2 main_v10 (broadcastInDim S100000 ![] bcast_S_S100000 : (⟨S_, .f32⟩ : BufTy).Contents (Elt F) → (⟨S100000, .f32⟩ : BufTy).Contents (Elt F)),
    binary main_v7 main_v10 main_v11 (maximumf : (⟨S100000, .f32⟩ : BufTy).Contents (Elt F) → (⟨S100000, .f32⟩ : BufTy).Contents (Elt F) → (⟨S100000, .f32⟩ : BufTy).Contents (Elt F)),
    nullary main_cst_3 (constant S_ .f32 0x3F800000#32),
    unary main_cst_3 main_v12 (broadcastInDim S100000 ![] bcast_S_S100000 : (⟨S_, .f32⟩ : BufTy).Contents (Elt F) → (⟨S100000, .f32⟩ : BufTy).Contents (Elt F)),
    binary main_v12 main_v11 main_v13 (Host.divf : (⟨S100000, .f32⟩ : BufTy).Contents (Elt F) → (⟨S100000, .f32⟩ : BufTy).Contents (Elt F) → (⟨S100000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v13) (TRef.of (T := ⟨S100000, .f32⟩) main_call0_v1) (TRef.of (T := ⟨S100000, .f32⟩) main_v14) select,
    unary main_v14 main_v15 (broadcastInDim S100000x1 ![0] bcast_S100000_S100000x1_0 : (⟨S100000, .f32⟩ : BufTy).Contents (Elt F) → (⟨S100000x1, .f32⟩ : BufTy).Contents (Elt F)) ]

/-- The embedding layer: operations 25 … 66. -/
abbrev s2 : List (HloOp τ sig (Elt F)) :=
  [ binary main_arg0 main_arg2 main_v16 ((fun l r => Host.dotGeneral dot_S100000x32_S32x128_S100000x128_1_0_0_1_n_n none l r) : (⟨S100000x32, .f32⟩ : BufTy).Contents (Elt F) → (⟨S32x128, .f32⟩ : BufTy).Contents (Elt F) → (⟨S100000x128, .f32⟩ : BufTy).Contents (Elt F)),
    unary main_arg3 main_v17 (broadcastInDim S1x128 ![1] bcast_S128_S1x128_1 : (⟨S128, .f32⟩ : BufTy).Contents (Elt F) → (⟨S1x128, .f32⟩ : BufTy).Contents (Elt F)),
    unary main_v17 main_v18 (broadcastInDim S100000x128 ![0, 1] bcast_S1x128_S100000x128_0_1 : (⟨S1x128, .f32⟩ : BufTy).Contents (Elt F) → (⟨S100000x128, .f32⟩ : BufTy).Contents (Elt F)),
    binary main_v16 main_v18 main_v19 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v19) (TRef.of (T := ⟨S100000x128, .f32⟩) main_call1_v0) Host.negf,
    TRef.unary (TRef.of (T := ⟨S100000x128, .f32⟩) main_call1_v0) (TRef.of (T := ⟨S100000x128, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S100000x128, .f32⟩) main_call1_v2) (broadcastInDim S100000x128 ![] bcast_S_S100000x128),
    TRef.binary (TRef.of (T := ⟨S100000x128, .f32⟩) main_call1_v2) (TRef.of (T := ⟨S100000x128, .f32⟩) main_call1_v1) (TRef.of (T := ⟨S100000x128, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S100000x128, .f32⟩) main_call1_v4) (broadcastInDim S100000x128 ![] bcast_S_S100000x128),
    TRef.binary (TRef.of (T := ⟨S100000x128, .f32⟩) main_call1_v4) (TRef.of (T := ⟨S100000x128, .f32⟩) main_call1_v3) (TRef.of (T := ⟨S100000x128, .f32⟩) main_call1_v5) Host.divf,
    TRef.binary (TRef.of (T := ⟨S100000x128, .f32⟩) main_v19) (TRef.of (T := ⟨S100000x128, .f32⟩) main_call1_v5) (TRef.of (T := ⟨S100000x128, .f32⟩) main_v20) mulf,
    nullary main_cst_5 (constant S_ .f32 0x00000000#32),
    binary main_v20 main_cst_5 main_v21 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v21 main_v22 (broadcastInDim S100000x1 ![0] bcast_S100000_S100000x1_0 : (⟨S100000, .f32⟩ : BufTy).Contents (Elt F) → (⟨S100000x1, .f32⟩ : BufTy).Contents (Elt F)),
    nullary main_cst_6 (constant S_ .f32 0x43000000#32),
    unary main_cst_6 main_v23 (broadcastInDim S100000x1 ![] bcast_S_S100000x1 : (⟨S_, .f32⟩ : BufTy).Contents (Elt F) → (⟨S100000x1, .f32⟩ : BufTy).Contents (Elt F)),
    binary main_v22 main_v23 main_v24 (Host.divf : (⟨S100000x1, .f32⟩ : BufTy).Contents (Elt F) → (⟨S100000x1, .f32⟩ : BufTy).Contents (Elt F) → (⟨S100000x1, .f32⟩ : BufTy).Contents (Elt F)),
    unary main_v24 main_v25 (broadcastInDim S100000x128 ![0, 1] bcast_S100000x1_S100000x128_0_1 : (⟨S100000x1, .f32⟩ : BufTy).Contents (Elt F) → (⟨S100000x128, .f32⟩ : BufTy).Contents (Elt F)),
    binary main_v20 main_v25 main_v26 (subf : (⟨S100000x128, .f32⟩ : BufTy).Contents (Elt F) → (⟨S100000x128, .f32⟩ : BufTy).Contents (Elt F) → (⟨S100000x128, .f32⟩ : BufTy).Contents (Elt F)),
    binary main_v26 main_v26 main_v27 (mulf : (⟨S100000x128, .f32⟩ : BufTy).Contents (Elt F) → (⟨S100000x128, .f32⟩ : BufTy).Contents (Elt F) → (⟨S100000x128, .f32⟩ : BufTy).Contents (Elt F)),
    nullary main_cst_7 (constant S_ .f32 0x00000000#32),
    binary main_v27 main_cst_7 main_v28 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v28 main_v29 (broadcastInDim S100000x1 ![0] bcast_S100000_S100000x1_0 : (⟨S100000, .f32⟩ : BufTy).Contents (Elt F) → (⟨S100000x1, .f32⟩ : BufTy).Contents (Elt F)),
    nullary main_cst_8 (constant S_ .f32 0x43000000#32),
    unary main_cst_8 main_v30 (broadcastInDim S100000x1 ![] bcast_S_S100000x1 : (⟨S_, .f32⟩ : BufTy).Contents (Elt F) → (⟨S100000x1, .f32⟩ : BufTy).Contents (Elt F)),
    binary main_v29 main_v30 main_v31 (Host.divf : (⟨S100000x1, .f32⟩ : BufTy).Contents (Elt F) → (⟨S100000x1, .f32⟩ : BufTy).Contents (Elt F) → (⟨S100000x1, .f32⟩ : BufTy).Contents (Elt F)),
    unary main_v24 main_v32 (broadcastInDim S100000x128 ![0, 1] bcast_S100000x1_S100000x128_0_1 : (⟨S100000x1, .f32⟩ : BufTy).Contents (Elt F) → (⟨S100000x128, .f32⟩ : BufTy).Contents (Elt F)),
    binary main_v20 main_v32 main_v33 (subf : (⟨S100000x128, .f32⟩ : BufTy).Contents (Elt F) → (⟨S100000x128, .f32⟩ : BufTy).Contents (Elt F) → (⟨S100000x128, .f32⟩ : BufTy).Contents (Elt F)),
    nullary main_cst_9 (constant S_ .f32 0x3727C5AC#32),
    unary main_cst_9 main_v34 (broadcastInDim S100000x1 ![] bcast_S_S100000x1 : (⟨S_, .f32⟩ : BufTy).Contents (Elt F) → (⟨S100000x1, .f32⟩ : BufTy).Contents (Elt F)),
    binary main_v31 main_v34 main_v35 (addf : (⟨S100000x1, .f32⟩ : BufTy).Contents (Elt F) → (⟨S100000x1, .f32⟩ : BufTy).Contents (Elt F) → (⟨S100000x1, .f32⟩ : BufTy).Contents (Elt F)),
    unary main_v35 main_v36 (Host.rsqrt : (⟨S100000x1, .f32⟩ : BufTy).Contents (Elt F) → (⟨S100000x1, .f32⟩ : BufTy).Contents (Elt F)),
    unary main_v36 main_v37 (broadcastInDim S100000x128 ![0, 1] bcast_S100000x1_S100000x128_0_1 : (⟨S100000x1, .f32⟩ : BufTy).Contents (Elt F) → (⟨S100000x128, .f32⟩ : BufTy).Contents (Elt F)),
    binary main_v33 main_v37 main_v38 (mulf : (⟨S100000x128, .f32⟩ : BufTy).Contents (Elt F) → (⟨S100000x128, .f32⟩ : BufTy).Contents (Elt F) → (⟨S100000x128, .f32⟩ : BufTy).Contents (Elt F)),
    unary main_arg4 main_v39 (broadcastInDim S1x128 ![1] bcast_S128_S1x128_1 : (⟨S128, .f32⟩ : BufTy).Contents (Elt F) → (⟨S1x128, .f32⟩ : BufTy).Contents (Elt F)),
    unary main_v39 main_v40 (broadcastInDim S100000x128 ![0, 1] bcast_S1x128_S100000x128_0_1 : (⟨S1x128, .f32⟩ : BufTy).Contents (Elt F) → (⟨S100000x128, .f32⟩ : BufTy).Contents (Elt F)),
    binary main_v38 main_v40 main_v41 (mulf : (⟨S100000x128, .f32⟩ : BufTy).Contents (Elt F) → (⟨S100000x128, .f32⟩ : BufTy).Contents (Elt F) → (⟨S100000x128, .f32⟩ : BufTy).Contents (Elt F)),
    unary main_arg5 main_v42 (broadcastInDim S1x128 ![1] bcast_S128_S1x128_1 : (⟨S128, .f32⟩ : BufTy).Contents (Elt F) → (⟨S1x128, .f32⟩ : BufTy).Contents (Elt F)),
    unary main_v42 main_v43 (broadcastInDim S100000x128 ![0, 1] bcast_S1x128_S100000x128_0_1 : (⟨S1x128, .f32⟩ : BufTy).Contents (Elt F) → (⟨S100000x128, .f32⟩ : BufTy).Contents (Elt F)),
    binary main_v41 main_v43 main_v44 (addf : (⟨S100000x128, .f32⟩ : BufTy).Contents (Elt F) → (⟨S100000x128, .f32⟩ : BufTy).Contents (Elt F) → (⟨S100000x128, .f32⟩ : BufTy).Contents (Elt F)) ]

/-- Message layer 0: operations 67 … 116. -/
abbrev s3 : List (HloOp τ sig (Elt F)) :=
  [ unary main_arg6 main_v45 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v45 main_v46 rfl shapeCasts_S1x128x128_S128x128,
    binary main_v44 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v48 ((extractStridedSlice S1x128 ![0, 0] · slices_S3x128_S1x128_0_0) : (⟨S3x128, .f32⟩ : BufTy).Contents (Elt F) → (⟨S1x128, .f32⟩ : BufTy).Contents (Elt F)),
    reshape main_v48 main_v49 rfl shapeCasts_S1x128_S128,
    unary main_v49 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v47 main_v51 main_v52 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v52) (TRef.of (T := ⟨S100000x128, .f32⟩) main_call2_v0) Host.negf,
    TRef.unary (TRef.of (T := ⟨S100000x128, .f32⟩) main_call2_v0) (TRef.of (T := ⟨S100000x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S100000x128, .f32⟩) main_call2_v2) (broadcastInDim S100000x128 ![] bcast_S_S100000x128),
    TRef.binary (TRef.of (T := ⟨S100000x128, .f32⟩) main_call2_v2) (TRef.of (T := ⟨S100000x128, .f32⟩) main_call2_v1) (TRef.of (T := ⟨S100000x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S100000x128, .f32⟩) main_call2_v4) (broadcastInDim S100000x128 ![] bcast_S_S100000x128),
    TRef.binary (TRef.of (T := ⟨S100000x128, .f32⟩) main_call2_v4) (TRef.of (T := ⟨S100000x128, .f32⟩) main_call2_v3) (TRef.of (T := ⟨S100000x128, .f32⟩) main_call2_v5) Host.divf,
    TRef.binary (TRef.of (T := ⟨S100000x128, .f32⟩) main_v52) (TRef.of (T := ⟨S100000x128, .f32⟩) main_call2_v5) (TRef.of (T := ⟨S100000x128, .f32⟩) main_v53) mulf,
    unary main_arg8 main_v54 ((extractStridedSlice S1x128 ![0, 0] · slices_S3x128_S1x128_0_0) : (⟨S3x128, .f32⟩ : BufTy).Contents (Elt F) → (⟨S1x128, .f32⟩ : BufTy).Contents (Elt F)),
    reshape main_v54 main_v55 rfl shapeCasts_S1x128_S128,
    unary main_arg9 main_v56 ((extractStridedSlice S1x128 ![0, 0] · slices_S3x128_S1x128_0_0) : (⟨S3x128, .f32⟩ : BufTy).Contents (Elt F) → (⟨S1x128, .f32⟩ : BufTy).Contents (Elt F)),
    reshape main_v56 main_v57 rfl shapeCasts_S1x128_S128,
    nullary main_cst_10 (constant S_ .f32 0x00000000#32),
    binary main_v53 main_cst_10 main_v58 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v58 main_v59 (broadcastInDim S100000x1 ![0] bcast_S100000_S100000x1_0 : (⟨S100000, .f32⟩ : BufTy).Contents (Elt F) → (⟨S100000x1, .f32⟩ : BufTy).Contents (Elt F)),
    nullary main_cst_11 (constant S_ .f32 0x43000000#32),
    unary main_cst_11 main_v60 (broadcastInDim S100000x1 ![] bcast_S_S100000x1 : (⟨S_, .f32⟩ : BufTy).Contents (Elt F) → (⟨S100000x1, .f32⟩ : BufTy).Contents (Elt F)),
    binary main_v59 main_v60 main_v61 (Host.divf : (⟨S100000x1, .f32⟩ : BufTy).Contents (Elt F) → (⟨S100000x1, .f32⟩ : BufTy).Contents (Elt F) → (⟨S100000x1, .f32⟩ : BufTy).Contents (Elt F)),
    unary main_v61 main_v62 (broadcastInDim S100000x128 ![0, 1] bcast_S100000x1_S100000x128_0_1 : (⟨S100000x1, .f32⟩ : BufTy).Contents (Elt F) → (⟨S100000x128, .f32⟩ : BufTy).Contents (Elt F)),
    binary main_v53 main_v62 main_v63 (subf : (⟨S100000x128, .f32⟩ : BufTy).Contents (Elt F) → (⟨S100000x128, .f32⟩ : BufTy).Contents (Elt F) → (⟨S100000x128, .f32⟩ : BufTy).Contents (Elt F)),
    binary main_v63 main_v63 main_v64 (mulf : (⟨S100000x128, .f32⟩ : BufTy).Contents (Elt F) → (⟨S100000x128, .f32⟩ : BufTy).Contents (Elt F) → (⟨S100000x128, .f32⟩ : BufTy).Contents (Elt F)),
    nullary main_cst_12 (constant S_ .f32 0x00000000#32),
    binary main_v64 main_cst_12 main_v65 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v65 main_v66 (broadcastInDim S100000x1 ![0] bcast_S100000_S100000x1_0 : (⟨S100000, .f32⟩ : BufTy).Contents (Elt F) → (⟨S100000x1, .f32⟩ : BufTy).Contents (Elt F)),
    nullary main_cst_13 (constant S_ .f32 0x43000000#32),
    unary main_cst_13 main_v67 (broadcastInDim S100000x1 ![] bcast_S_S100000x1 : (⟨S_, .f32⟩ : BufTy).Contents (Elt F) → (⟨S100000x1, .f32⟩ : BufTy).Contents (Elt F)),
    binary main_v66 main_v67 main_v68 (Host.divf : (⟨S100000x1, .f32⟩ : BufTy).Contents (Elt F) → (⟨S100000x1, .f32⟩ : BufTy).Contents (Elt F) → (⟨S100000x1, .f32⟩ : BufTy).Contents (Elt F)),
    unary main_v61 main_v69 (broadcastInDim S100000x128 ![0, 1] bcast_S100000x1_S100000x128_0_1 : (⟨S100000x1, .f32⟩ : BufTy).Contents (Elt F) → (⟨S100000x128, .f32⟩ : BufTy).Contents (Elt F)),
    binary main_v53 main_v69 main_v70 (subf : (⟨S100000x128, .f32⟩ : BufTy).Contents (Elt F) → (⟨S100000x128, .f32⟩ : BufTy).Contents (Elt F) → (⟨S100000x128, .f32⟩ : BufTy).Contents (Elt F)),
    nullary main_cst_14 (constant S_ .f32 0x3727C5AC#32),
    unary main_cst_14 main_v71 (broadcastInDim S100000x1 ![] bcast_S_S100000x1 : (⟨S_, .f32⟩ : BufTy).Contents (Elt F) → (⟨S100000x1, .f32⟩ : BufTy).Contents (Elt F)),
    binary main_v68 main_v71 main_v72 (addf : (⟨S100000x1, .f32⟩ : BufTy).Contents (Elt F) → (⟨S100000x1, .f32⟩ : BufTy).Contents (Elt F) → (⟨S100000x1, .f32⟩ : BufTy).Contents (Elt F)),
    unary main_v72 main_v73 (Host.rsqrt : (⟨S100000x1, .f32⟩ : BufTy).Contents (Elt F) → (⟨S100000x1, .f32⟩ : BufTy).Contents (Elt F)),
    unary main_v73 main_v74 (broadcastInDim S100000x128 ![0, 1] bcast_S100000x1_S100000x128_0_1 : (⟨S100000x1, .f32⟩ : BufTy).Contents (Elt F) → (⟨S100000x128, .f32⟩ : BufTy).Contents (Elt F)),
    binary main_v70 main_v74 main_v75 (mulf : (⟨S100000x128, .f32⟩ : BufTy).Contents (Elt F) → (⟨S100000x128, .f32⟩ : BufTy).Contents (Elt F) → (⟨S100000x128, .f32⟩ : BufTy).Contents (Elt F)),
    unary main_v55 main_v76 (broadcastInDim S1x128 ![1] bcast_S128_S1x128_1 : (⟨S128, .f32⟩ : BufTy).Contents (Elt F) → (⟨S1x128, .f32⟩ : BufTy).Contents (Elt F)),
    unary main_v76 main_v77 (broadcastInDim S100000x128 ![0, 1] bcast_S1x128_S100000x128_0_1 : (⟨S1x128, .f32⟩ : BufTy).Contents (Elt F) → (⟨S100000x128, .f32⟩ : BufTy).Contents (Elt F)),
    binary main_v75 main_v77 main_v78 (mulf : (⟨S100000x128, .f32⟩ : BufTy).Contents (Elt F) → (⟨S100000x128, .f32⟩ : BufTy).Contents (Elt F) → (⟨S100000x128, .f32⟩ : BufTy).Contents (Elt F)),
    unary main_v57 main_v79 (broadcastInDim S1x128 ![1] bcast_S128_S1x128_1 : (⟨S128, .f32⟩ : BufTy).Contents (Elt F) → (⟨S1x128, .f32⟩ : BufTy).Contents (Elt F)),
    unary main_v79 main_v80 (broadcastInDim S100000x128 ![0, 1] bcast_S1x128_S100000x128_0_1 : (⟨S1x128, .f32⟩ : BufTy).Contents (Elt F) → (⟨S100000x128, .f32⟩ : BufTy).Contents (Elt F)),
    binary main_v78 main_v80 main_v81 (addf : (⟨S100000x128, .f32⟩ : BufTy).Contents (Elt F) → (⟨S100000x128, .f32⟩ : BufTy).Contents (Elt F) → (⟨S100000x128, .f32⟩ : BufTy).Contents (Elt F)) ]

/-- Aggregation along the edges and state update 0: operations 117 … 132. -/
abbrev s4 : List (HloOp τ sig (Elt F)) :=
  [ nullary main_c (constantI S_ 32 0#32),
    unary main_c main_v82 (broadcastInDim S625000 ![] bcast_S_S625000 : (⟨S_, .i32⟩ : BufTy).Contents (Elt F) → (⟨S625000, .i32⟩ : BufTy).Contents (Elt F)),
    binary main_v1 main_v82 main_v83 (cmpi .slt : (⟨S625000, .i32⟩ : BufTy).Contents (Elt F) → (⟨S625000, .i32⟩ : BufTy).Contents (Elt F) → (⟨S625000, .i1⟩ : BufTy).Contents (Elt F)),
    nullary main_c_15 (constantI S_ 32 100000#32),
    unary main_c_15 main_v84 (broadcastInDim S625000 ![] bcast_S_S625000 : (⟨S_, .i32⟩ : BufTy).Contents (Elt F) → (⟨S625000, .i32⟩ : BufTy).Contents (Elt F)),
    binary main_v1 main_v84 main_v85 (addi : (⟨S625000, .i32⟩ : BufTy).Contents (Elt F) → (⟨S625000, .i32⟩ : BufTy).Contents (Elt F) → (⟨S625000, .i32⟩ : BufTy).Contents (Elt F)),
    ternary main_v83 main_v85 main_v1 main_v86 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v86 main_v87 (broadcastInDim S625000x1 ![0] bcast_S625000_S625000x1_0 : (⟨S625000, .i32⟩ : BufTy).Contents (Elt F) → (⟨S625000x1, .i32⟩ : BufTy).Contents (Elt F)),
    binary main_v81 main_v87 main_v88 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_16 (constant S_ .f32 0x00000000#32),
    unary main_cst_16 main_v89 (broadcastInDim S100000x128 ![] bcast_S_S100000x128 : (⟨S_, .f32⟩ : BufTy).Contents (Elt F) → (⟨S100000x128, .f32⟩ : BufTy).Contents (Elt F)),
    unary main_v3 main_v90 (broadcastInDim S625000x1 ![0] bcast_S625000_S625000x1_0 : (⟨S625000, .i32⟩ : BufTy).Contents (Elt F) → (⟨S625000x1, .i32⟩ : BufTy).Contents (Elt F)),
    ternary main_v89 main_v90 main_v88 main_v91 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v15 main_v92 (broadcastInDim S100000x128 ![0, 1] bcast_S100000x1_S100000x128_0_1 : (⟨S100000x1, .f32⟩ : BufTy).Contents (Elt F) → (⟨S100000x128, .f32⟩ : BufTy).Contents (Elt F)),
    binary main_v91 main_v92 main_v93 (mulf : (⟨S100000x128, .f32⟩ : BufTy).Contents (Elt F) → (⟨S100000x128, .f32⟩ : BufTy).Contents (Elt F) → (⟨S100000x128, .f32⟩ : BufTy).Contents (Elt F)),
    binary main_v93 main_v44 main_v94 (addf : (⟨S100000x128, .f32⟩ : BufTy).Contents (Elt F) → (⟨S100000x128, .f32⟩ : BufTy).Contents (Elt F) → (⟨S100000x128, .f32⟩ : BufTy).Contents (Elt F)) ]

/-- Message layer 1: operations 133 … 182. -/
abbrev s5 : List (HloOp τ sig (Elt F)) :=
  [ unary main_arg6 main_v95 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v95 main_v96 rfl shapeCasts_S1x128x128_S128x128,
    binary main_v94 main_v96 main_v97 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v98 ((extractStridedSlice S1x128 ![1, 0] · slices_S3x128_S1x128_1_0) : (⟨S3x128, .f32⟩ : BufTy).Contents (Elt F) → (⟨S1x128, .f32⟩ : BufTy).Contents (Elt F)),
    reshape main_v98 main_v99 rfl shapeCasts_S1x128_S128,
    unary main_v99 main_v100 (broadcastInDim S1x128 ![1] bcast_S128_S1x128_1 : (⟨S128, .f32⟩ : BufTy).Contents (Elt F) → (⟨S1x128, .f32⟩ : BufTy).Contents (Elt F)),
    unary main_v100 main_v101 (broadcastInDim S100000x128 ![0, 1] bcast_S1x128_S100000x128_0_1 : (⟨S1x128, .f32⟩ : BufTy).Contents (Elt F) → (⟨S100000x128, .f32⟩ : BufTy).Contents (Elt F)),
    binary main_v97 main_v101 main_v102 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v102) (TRef.of (T := ⟨S100000x128, .f32⟩) main_call3_v0) Host.negf,
    TRef.unary (TRef.of (T := ⟨S100000x128, .f32⟩) main_call3_v0) (TRef.of (T := ⟨S100000x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S100000x128, .f32⟩) main_call3_v2) (broadcastInDim S100000x128 ![] bcast_S_S100000x128),
    TRef.binary (TRef.of (T := ⟨S100000x128, .f32⟩) main_call3_v2) (TRef.of (T := ⟨S100000x128, .f32⟩) main_call3_v1) (TRef.of (T := ⟨S100000x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S100000x128, .f32⟩) main_call3_v4) (broadcastInDim S100000x128 ![] bcast_S_S100000x128),
    TRef.binary (TRef.of (T := ⟨S100000x128, .f32⟩) main_call3_v4) (TRef.of (T := ⟨S100000x128, .f32⟩) main_call3_v3) (TRef.of (T := ⟨S100000x128, .f32⟩) main_call3_v5) Host.divf,
    TRef.binary (TRef.of (T := ⟨S100000x128, .f32⟩) main_v102) (TRef.of (T := ⟨S100000x128, .f32⟩) main_call3_v5) (TRef.of (T := ⟨S100000x128, .f32⟩) main_v103) mulf,
    unary main_arg8 main_v104 ((extractStridedSlice S1x128 ![1, 0] · slices_S3x128_S1x128_1_0) : (⟨S3x128, .f32⟩ : BufTy).Contents (Elt F) → (⟨S1x128, .f32⟩ : BufTy).Contents (Elt F)),
    reshape main_v104 main_v105 rfl shapeCasts_S1x128_S128,
    unary main_arg9 main_v106 ((extractStridedSlice S1x128 ![1, 0] · slices_S3x128_S1x128_1_0) : (⟨S3x128, .f32⟩ : BufTy).Contents (Elt F) → (⟨S1x128, .f32⟩ : BufTy).Contents (Elt F)),
    reshape main_v106 main_v107 rfl shapeCasts_S1x128_S128,
    nullary main_cst_17 (constant S_ .f32 0x00000000#32),
    binary main_v103 main_cst_17 main_v108 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v108 main_v109 (broadcastInDim S100000x1 ![0] bcast_S100000_S100000x1_0 : (⟨S100000, .f32⟩ : BufTy).Contents (Elt F) → (⟨S100000x1, .f32⟩ : BufTy).Contents (Elt F)),
    nullary main_cst_18 (constant S_ .f32 0x43000000#32),
    unary main_cst_18 main_v110 (broadcastInDim S100000x1 ![] bcast_S_S100000x1 : (⟨S_, .f32⟩ : BufTy).Contents (Elt F) → (⟨S100000x1, .f32⟩ : BufTy).Contents (Elt F)),
    binary main_v109 main_v110 main_v111 (Host.divf : (⟨S100000x1, .f32⟩ : BufTy).Contents (Elt F) → (⟨S100000x1, .f32⟩ : BufTy).Contents (Elt F) → (⟨S100000x1, .f32⟩ : BufTy).Contents (Elt F)),
    unary main_v111 main_v112 (broadcastInDim S100000x128 ![0, 1] bcast_S100000x1_S100000x128_0_1 : (⟨S100000x1, .f32⟩ : BufTy).Contents (Elt F) → (⟨S100000x128, .f32⟩ : BufTy).Contents (Elt F)),
    binary main_v103 main_v112 main_v113 (subf : (⟨S100000x128, .f32⟩ : BufTy).Contents (Elt F) → (⟨S100000x128, .f32⟩ : BufTy).Contents (Elt F) → (⟨S100000x128, .f32⟩ : BufTy).Contents (Elt F)),
    binary main_v113 main_v113 main_v114 (mulf : (⟨S100000x128, .f32⟩ : BufTy).Contents (Elt F) → (⟨S100000x128, .f32⟩ : BufTy).Contents (Elt F) → (⟨S100000x128, .f32⟩ : BufTy).Contents (Elt F)),
    nullary main_cst_19 (constant S_ .f32 0x00000000#32),
    binary main_v114 main_cst_19 main_v115 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v115 main_v116 (broadcastInDim S100000x1 ![0] bcast_S100000_S100000x1_0 : (⟨S100000, .f32⟩ : BufTy).Contents (Elt F) → (⟨S100000x1, .f32⟩ : BufTy).Contents (Elt F)),
    nullary main_cst_20 (constant S_ .f32 0x43000000#32),
    unary main_cst_20 main_v117 (broadcastInDim S100000x1 ![] bcast_S_S100000x1 : (⟨S_, .f32⟩ : BufTy).Contents (Elt F) → (⟨S100000x1, .f32⟩ : BufTy).Contents (Elt F)),
    binary main_v116 main_v117 main_v118 (Host.divf : (⟨S100000x1, .f32⟩ : BufTy).Contents (Elt F) → (⟨S100000x1, .f32⟩ : BufTy).Contents (Elt F) → (⟨S100000x1, .f32⟩ : BufTy).Contents (Elt F)),
    unary main_v111 main_v119 (broadcastInDim S100000x128 ![0, 1] bcast_S100000x1_S100000x128_0_1 : (⟨S100000x1, .f32⟩ : BufTy).Contents (Elt F) → (⟨S100000x128, .f32⟩ : BufTy).Contents (Elt F)),
    binary main_v103 main_v119 main_v120 (subf : (⟨S100000x128, .f32⟩ : BufTy).Contents (Elt F) → (⟨S100000x128, .f32⟩ : BufTy).Contents (Elt F) → (⟨S100000x128, .f32⟩ : BufTy).Contents (Elt F)),
    nullary main_cst_21 (constant S_ .f32 0x3727C5AC#32),
    unary main_cst_21 main_v121 (broadcastInDim S100000x1 ![] bcast_S_S100000x1 : (⟨S_, .f32⟩ : BufTy).Contents (Elt F) → (⟨S100000x1, .f32⟩ : BufTy).Contents (Elt F)),
    binary main_v118 main_v121 main_v122 (addf : (⟨S100000x1, .f32⟩ : BufTy).Contents (Elt F) → (⟨S100000x1, .f32⟩ : BufTy).Contents (Elt F) → (⟨S100000x1, .f32⟩ : BufTy).Contents (Elt F)),
    unary main_v122 main_v123 (Host.rsqrt : (⟨S100000x1, .f32⟩ : BufTy).Contents (Elt F) → (⟨S100000x1, .f32⟩ : BufTy).Contents (Elt F)),
    unary main_v123 main_v124 (broadcastInDim S100000x128 ![0, 1] bcast_S100000x1_S100000x128_0_1 : (⟨S100000x1, .f32⟩ : BufTy).Contents (Elt F) → (⟨S100000x128, .f32⟩ : BufTy).Contents (Elt F)),
    binary main_v120 main_v124 main_v125 (mulf : (⟨S100000x128, .f32⟩ : BufTy).Contents (Elt F) → (⟨S100000x128, .f32⟩ : BufTy).Contents (Elt F) → (⟨S100000x128, .f32⟩ : BufTy).Contents (Elt F)),
    unary main_v105 main_v126 (broadcastInDim S1x128 ![1] bcast_S128_S1x128_1 : (⟨S128, .f32⟩ : BufTy).Contents (Elt F) → (⟨S1x128, .f32⟩ : BufTy).Contents (Elt F)),
    unary main_v126 main_v127 (broadcastInDim S100000x128 ![0, 1] bcast_S1x128_S100000x128_0_1 : (⟨S1x128, .f32⟩ : BufTy).Contents (Elt F) → (⟨S100000x128, .f32⟩ : BufTy).Contents (Elt F)),
    binary main_v125 main_v127 main_v128 (mulf : (⟨S100000x128, .f32⟩ : BufTy).Contents (Elt F) → (⟨S100000x128, .f32⟩ : BufTy).Contents (Elt F) → (⟨S100000x128, .f32⟩ : BufTy).Contents (Elt F)),
    unary main_v107 main_v129 (broadcastInDim S1x128 ![1] bcast_S128_S1x128_1 : (⟨S128, .f32⟩ : BufTy).Contents (Elt F) → (⟨S1x128, .f32⟩ : BufTy).Contents (Elt F)),
    unary main_v129 main_v130 (broadcastInDim S100000x128 ![0, 1] bcast_S1x128_S100000x128_0_1 : (⟨S1x128, .f32⟩ : BufTy).Contents (Elt F) → (⟨S100000x128, .f32⟩ : BufTy).Contents (Elt F)),
    binary main_v128 main_v130 main_v131 (addf : (⟨S100000x128, .f32⟩ : BufTy).Contents (Elt F) → (⟨S100000x128, .f32⟩ : BufTy).Contents (Elt F) → (⟨S100000x128, .f32⟩ : BufTy).Contents (Elt F)) ]

/-- Aggregation along the edges and state update 1: operations 183 … 198. -/
abbrev s6 : List (HloOp τ sig (Elt F)) :=
  [ nullary main_c_22 (constantI S_ 32 0#32),
    unary main_c_22 main_v132 (broadcastInDim S625000 ![] bcast_S_S625000 : (⟨S_, .i32⟩ : BufTy).Contents (Elt F) → (⟨S625000, .i32⟩ : BufTy).Contents (Elt F)),
    binary main_v1 main_v132 main_v133 (cmpi .slt : (⟨S625000, .i32⟩ : BufTy).Contents (Elt F) → (⟨S625000, .i32⟩ : BufTy).Contents (Elt F) → (⟨S625000, .i1⟩ : BufTy).Contents (Elt F)),
    nullary main_c_23 (constantI S_ 32 100000#32),
    unary main_c_23 main_v134 (broadcastInDim S625000 ![] bcast_S_S625000 : (⟨S_, .i32⟩ : BufTy).Contents (Elt F) → (⟨S625000, .i32⟩ : BufTy).Contents (Elt F)),
    binary main_v1 main_v134 main_v135 (addi : (⟨S625000, .i32⟩ : BufTy).Contents (Elt F) → (⟨S625000, .i32⟩ : BufTy).Contents (Elt F) → (⟨S625000, .i32⟩ : BufTy).Contents (Elt F)),
    ternary main_v133 main_v135 main_v1 main_v136 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v136 main_v137 (broadcastInDim S625000x1 ![0] bcast_S625000_S625000x1_0 : (⟨S625000, .i32⟩ : BufTy).Contents (Elt F) → (⟨S625000x1, .i32⟩ : BufTy).Contents (Elt F)),
    binary main_v131 main_v137 main_v138 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_24 (constant S_ .f32 0x00000000#32),
    unary main_cst_24 main_v139 (broadcastInDim S100000x128 ![] bcast_S_S100000x128 : (⟨S_, .f32⟩ : BufTy).Contents (Elt F) → (⟨S100000x128, .f32⟩ : BufTy).Contents (Elt F)),
    unary main_v3 main_v140 (broadcastInDim S625000x1 ![0] bcast_S625000_S625000x1_0 : (⟨S625000, .i32⟩ : BufTy).Contents (Elt F) → (⟨S625000x1, .i32⟩ : BufTy).Contents (Elt F)),
    ternary main_v139 main_v140 main_v138 main_v141 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v15 main_v142 (broadcastInDim S100000x128 ![0, 1] bcast_S100000x1_S100000x128_0_1 : (⟨S100000x1, .f32⟩ : BufTy).Contents (Elt F) → (⟨S100000x128, .f32⟩ : BufTy).Contents (Elt F)),
    binary main_v141 main_v142 main_v143 (mulf : (⟨S100000x128, .f32⟩ : BufTy).Contents (Elt F) → (⟨S100000x128, .f32⟩ : BufTy).Contents (Elt F) → (⟨S100000x128, .f32⟩ : BufTy).Contents (Elt F)),
    binary main_v143 main_v94 main_v144 (addf : (⟨S100000x128, .f32⟩ : BufTy).Contents (Elt F) → (⟨S100000x128, .f32⟩ : BufTy).Contents (Elt F) → (⟨S100000x128, .f32⟩ : BufTy).Contents (Elt F)) ]

/-- Message layer 2: operations 199 … 248. -/
abbrev s7 : List (HloOp τ sig (Elt F)) :=
  [ unary main_arg6 main_v145 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v145 main_v146 rfl shapeCasts_S1x128x128_S128x128,
    binary main_v144 main_v146 main_v147 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg7 main_v148 ((extractStridedSlice S1x128 ![2, 0] · slices_S3x128_S1x128_2_0) : (⟨S3x128, .f32⟩ : BufTy).Contents (Elt F) → (⟨S1x128, .f32⟩ : BufTy).Contents (Elt F)),
    reshape main_v148 main_v149 rfl shapeCasts_S1x128_S128,
    unary main_v149 main_v150 (broadcastInDim S1x128 ![1] bcast_S128_S1x128_1 : (⟨S128, .f32⟩ : BufTy).Contents (Elt F) → (⟨S1x128, .f32⟩ : BufTy).Contents (Elt F)),
    unary main_v150 main_v151 (broadcastInDim S100000x128 ![0, 1] bcast_S1x128_S100000x128_0_1 : (⟨S1x128, .f32⟩ : BufTy).Contents (Elt F) → (⟨S100000x128, .f32⟩ : BufTy).Contents (Elt F)),
    binary main_v147 main_v151 main_v152 (addf : (⟨S100000x128, .f32⟩ : BufTy).Contents (Elt F) → (⟨S100000x128, .f32⟩ : BufTy).Contents (Elt F) → (⟨S100000x128, .f32⟩ : BufTy).Contents (Elt F)),
    TRef.unary (TRef.of (T := ⟨S100000x128, .f32⟩) main_v152) (TRef.of (T := ⟨S100000x128, .f32⟩) main_call4_v0) Host.negf,
    TRef.unary (TRef.of (T := ⟨S100000x128, .f32⟩) main_call4_v0) (TRef.of (T := ⟨S100000x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S100000x128, .f32⟩) main_call4_v2) (broadcastInDim S100000x128 ![] bcast_S_S100000x128),
    TRef.binary (TRef.of (T := ⟨S100000x128, .f32⟩) main_call4_v2) (TRef.of (T := ⟨S100000x128, .f32⟩) main_call4_v1) (TRef.of (T := ⟨S100000x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S100000x128, .f32⟩) main_call4_v4) (broadcastInDim S100000x128 ![] bcast_S_S100000x128),
    TRef.binary (TRef.of (T := ⟨S100000x128, .f32⟩) main_call4_v4) (TRef.of (T := ⟨S100000x128, .f32⟩) main_call4_v3) (TRef.of (T := ⟨S100000x128, .f32⟩) main_call4_v5) Host.divf,
    TRef.binary (TRef.of (T := ⟨S100000x128, .f32⟩) main_v152) (TRef.of (T := ⟨S100000x128, .f32⟩) main_call4_v5) (TRef.of (T := ⟨S100000x128, .f32⟩) main_v153) mulf,
    unary main_arg8 main_v154 ((extractStridedSlice S1x128 ![2, 0] · slices_S3x128_S1x128_2_0) : (⟨S3x128, .f32⟩ : BufTy).Contents (Elt F) → (⟨S1x128, .f32⟩ : BufTy).Contents (Elt F)),
    reshape main_v154 main_v155 rfl shapeCasts_S1x128_S128,
    unary main_arg9 main_v156 ((extractStridedSlice S1x128 ![2, 0] · slices_S3x128_S1x128_2_0) : (⟨S3x128, .f32⟩ : BufTy).Contents (Elt F) → (⟨S1x128, .f32⟩ : BufTy).Contents (Elt F)),
    reshape main_v156 main_v157 rfl shapeCasts_S1x128_S128,
    nullary main_cst_25 (constant S_ .f32 0x00000000#32),
    binary main_v153 main_cst_25 main_v158 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v158 main_v159 (broadcastInDim S100000x1 ![0] bcast_S100000_S100000x1_0 : (⟨S100000, .f32⟩ : BufTy).Contents (Elt F) → (⟨S100000x1, .f32⟩ : BufTy).Contents (Elt F)),
    nullary main_cst_26 (constant S_ .f32 0x43000000#32),
    unary main_cst_26 main_v160 (broadcastInDim S100000x1 ![] bcast_S_S100000x1 : (⟨S_, .f32⟩ : BufTy).Contents (Elt F) → (⟨S100000x1, .f32⟩ : BufTy).Contents (Elt F)),
    binary main_v159 main_v160 main_v161 (Host.divf : (⟨S100000x1, .f32⟩ : BufTy).Contents (Elt F) → (⟨S100000x1, .f32⟩ : BufTy).Contents (Elt F) → (⟨S100000x1, .f32⟩ : BufTy).Contents (Elt F)),
    unary main_v161 main_v162 (broadcastInDim S100000x128 ![0, 1] bcast_S100000x1_S100000x128_0_1 : (⟨S100000x1, .f32⟩ : BufTy).Contents (Elt F) → (⟨S100000x128, .f32⟩ : BufTy).Contents (Elt F)),
    binary main_v153 main_v162 main_v163 (subf : (⟨S100000x128, .f32⟩ : BufTy).Contents (Elt F) → (⟨S100000x128, .f32⟩ : BufTy).Contents (Elt F) → (⟨S100000x128, .f32⟩ : BufTy).Contents (Elt F)),
    binary main_v163 main_v163 main_v164 (mulf : (⟨S100000x128, .f32⟩ : BufTy).Contents (Elt F) → (⟨S100000x128, .f32⟩ : BufTy).Contents (Elt F) → (⟨S100000x128, .f32⟩ : BufTy).Contents (Elt F)),
    nullary main_cst_27 (constant S_ .f32 0x00000000#32),
    binary main_v164 main_cst_27 main_v165 ((fun x v => Host.reduceAdd x v reducesTo_S100000x128_S100000_d1 h_S_) : (⟨S100000x128, .f32⟩ : BufTy).Contents (Elt F) → (⟨S_, .f32⟩ : BufTy).Contents (Elt F) → (⟨S100000, .f32⟩ : BufTy).Contents (Elt F)),
    unary main_v165 main_v166 (broadcastInDim S100000x1 ![0] bcast_S100000_S100000x1_0 : (⟨S100000, .f32⟩ : BufTy).Contents (Elt F) → (⟨S100000x1, .f32⟩ : BufTy).Contents (Elt F)),
    nullary main_cst_28 (constant S_ .f32 0x43000000#32),
    unary main_cst_28 main_v167 (broadcastInDim S100000x1 ![] bcast_S_S100000x1 : (⟨S_, .f32⟩ : BufTy).Contents (Elt F) → (⟨S100000x1, .f32⟩ : BufTy).Contents (Elt F)),
    binary main_v166 main_v167 main_v168 (Host.divf : (⟨S100000x1, .f32⟩ : BufTy).Contents (Elt F) → (⟨S100000x1, .f32⟩ : BufTy).Contents (Elt F) → (⟨S100000x1, .f32⟩ : BufTy).Contents (Elt F)),
    unary main_v161 main_v169 (broadcastInDim S100000x128 ![0, 1] bcast_S100000x1_S100000x128_0_1 : (⟨S100000x1, .f32⟩ : BufTy).Contents (Elt F) → (⟨S100000x128, .f32⟩ : BufTy).Contents (Elt F)),
    binary main_v153 main_v169 main_v170 (subf : (⟨S100000x128, .f32⟩ : BufTy).Contents (Elt F) → (⟨S100000x128, .f32⟩ : BufTy).Contents (Elt F) → (⟨S100000x128, .f32⟩ : BufTy).Contents (Elt F)),
    nullary main_cst_29 (constant S_ .f32 0x3727C5AC#32),
    unary main_cst_29 main_v171 (broadcastInDim S100000x1 ![] bcast_S_S100000x1 : (⟨S_, .f32⟩ : BufTy).Contents (Elt F) → (⟨S100000x1, .f32⟩ : BufTy).Contents (Elt F)),
    binary main_v168 main_v171 main_v172 (addf : (⟨S100000x1, .f32⟩ : BufTy).Contents (Elt F) → (⟨S100000x1, .f32⟩ : BufTy).Contents (Elt F) → (⟨S100000x1, .f32⟩ : BufTy).Contents (Elt F)),
    unary main_v172 main_v173 (Host.rsqrt : (⟨S100000x1, .f32⟩ : BufTy).Contents (Elt F) → (⟨S100000x1, .f32⟩ : BufTy).Contents (Elt F)),
    unary main_v173 main_v174 (broadcastInDim S100000x128 ![0, 1] bcast_S100000x1_S100000x128_0_1 : (⟨S100000x1, .f32⟩ : BufTy).Contents (Elt F) → (⟨S100000x128, .f32⟩ : BufTy).Contents (Elt F)),
    binary main_v170 main_v174 main_v175 (mulf : (⟨S100000x128, .f32⟩ : BufTy).Contents (Elt F) → (⟨S100000x128, .f32⟩ : BufTy).Contents (Elt F) → (⟨S100000x128, .f32⟩ : BufTy).Contents (Elt F)),
    unary main_v155 main_v176 (broadcastInDim S1x128 ![1] bcast_S128_S1x128_1 : (⟨S128, .f32⟩ : BufTy).Contents (Elt F) → (⟨S1x128, .f32⟩ : BufTy).Contents (Elt F)),
    unary main_v176 main_v177 (broadcastInDim S100000x128 ![0, 1] bcast_S1x128_S100000x128_0_1 : (⟨S1x128, .f32⟩ : BufTy).Contents (Elt F) → (⟨S100000x128, .f32⟩ : BufTy).Contents (Elt F)),
    binary main_v175 main_v177 main_v178 (mulf : (⟨S100000x128, .f32⟩ : BufTy).Contents (Elt F) → (⟨S100000x128, .f32⟩ : BufTy).Contents (Elt F) → (⟨S100000x128, .f32⟩ : BufTy).Contents (Elt F)),
    unary main_v157 main_v179 (broadcastInDim S1x128 ![1] bcast_S128_S1x128_1 : (⟨S128, .f32⟩ : BufTy).Contents (Elt F) → (⟨S1x128, .f32⟩ : BufTy).Contents (Elt F)),
    unary main_v179 main_v180 (broadcastInDim S100000x128 ![0, 1] bcast_S1x128_S100000x128_0_1 : (⟨S1x128, .f32⟩ : BufTy).Contents (Elt F) → (⟨S100000x128, .f32⟩ : BufTy).Contents (Elt F)),
    binary main_v178 main_v180 main_v181 (addf : (⟨S100000x128, .f32⟩ : BufTy).Contents (Elt F) → (⟨S100000x128, .f32⟩ : BufTy).Contents (Elt F) → (⟨S100000x128, .f32⟩ : BufTy).Contents (Elt F)) ]

/-- Aggregation along the edges and state update 2: operations 249 … 264. -/
abbrev s8 : List (HloOp τ sig (Elt F)) :=
  [ nullary main_c_30 (constantI S_ 32 0#32),
    unary main_c_30 main_v182 (broadcastInDim S625000 ![] bcast_S_S625000 : (⟨S_, .i32⟩ : BufTy).Contents (Elt F) → (⟨S625000, .i32⟩ : BufTy).Contents (Elt F)),
    binary main_v1 main_v182 main_v183 (cmpi .slt : (⟨S625000, .i32⟩ : BufTy).Contents (Elt F) → (⟨S625000, .i32⟩ : BufTy).Contents (Elt F) → (⟨S625000, .i1⟩ : BufTy).Contents (Elt F)),
    nullary main_c_31 (constantI S_ 32 100000#32),
    unary main_c_31 main_v184 (broadcastInDim S625000 ![] bcast_S_S625000 : (⟨S_, .i32⟩ : BufTy).Contents (Elt F) → (⟨S625000, .i32⟩ : BufTy).Contents (Elt F)),
    binary main_v1 main_v184 main_v185 (addi : (⟨S625000, .i32⟩ : BufTy).Contents (Elt F) → (⟨S625000, .i32⟩ : BufTy).Contents (Elt F) → (⟨S625000, .i32⟩ : BufTy).Contents (Elt F)),
    ternary main_v183 main_v185 main_v1 main_v186 (select : (⟨S625000, .i1⟩ : BufTy).Contents (Elt F) → (⟨S625000, .i32⟩ : BufTy).Contents (Elt F) → (⟨S625000, .i32⟩ : BufTy).Contents (Elt F) → (⟨S625000, .i32⟩ : BufTy).Contents (Elt F)),
    unary main_v186 main_v187 (broadcastInDim S625000x1 ![0] bcast_S625000_S625000x1_0 : (⟨S625000, .i32⟩ : BufTy).Contents (Elt F) → (⟨S625000x1, .i32⟩ : BufTy).Contents (Elt F)),
    binary main_v181 main_v187 main_v188 ((fun x i => Host.gather gather_S100000x128_S625000x1_S625000x128_1_0_n_n_0_1_1128 x i) : (⟨S100000x128, .f32⟩ : BufTy).Contents (Elt F) → (⟨S625000x1, .i32⟩ : BufTy).Contents (Elt F) → (⟨S625000x128, .f32⟩ : BufTy).Contents (Elt F)),
    nullary main_cst_32 (constant S_ .f32 0x00000000#32),
    unary main_cst_32 main_v189 (broadcastInDim S100000x128 ![] bcast_S_S100000x128 : (⟨S_, .f32⟩ : BufTy).Contents (Elt F) → (⟨S100000x128, .f32⟩ : BufTy).Contents (Elt F)),
    unary main_v3 main_v190 (broadcastInDim S625000x1 ![0] bcast_S625000_S625000x1_0 : (⟨S625000, .i32⟩ : BufTy).Contents (Elt F) → (⟨S625000x1, .i32⟩ : BufTy).Contents (Elt F)),
    ternary main_v189 main_v190 main_v188 main_v191 ((fun x i u => Host.scatterAdd scatter_S100000x128_S625000x1_S625000x128_1_0_0_1 x i u) : (⟨S100000x128, .f32⟩ : BufTy).Contents (Elt F) → (⟨S625000x1, .i32⟩ : BufTy).Contents (Elt F) → (⟨S625000x128, .f32⟩ : BufTy).Contents (Elt F) → (⟨S100000x128, .f32⟩ : BufTy).Contents (Elt F)),
    unary main_v15 main_v192 (broadcastInDim S100000x128 ![0, 1] bcast_S100000x1_S100000x128_0_1 : (⟨S100000x1, .f32⟩ : BufTy).Contents (Elt F) → (⟨S100000x128, .f32⟩ : BufTy).Contents (Elt F)),
    binary main_v191 main_v192 main_v193 (mulf : (⟨S100000x128, .f32⟩ : BufTy).Contents (Elt F) → (⟨S100000x128, .f32⟩ : BufTy).Contents (Elt F) → (⟨S100000x128, .f32⟩ : BufTy).Contents (Elt F)),
    binary main_v193 main_v144 main_v194 (addf : (⟨S100000x128, .f32⟩ : BufTy).Contents (Elt F) → (⟨S100000x128, .f32⟩ : BufTy).Contents (Elt F) → (⟨S100000x128, .f32⟩ : BufTy).Contents (Elt F)) ]

/-- The program's 264 operations, in order: the eight stretches one after the other. -/
abbrev ops : List (HloOp τ sig (Elt F)) := s1 ++ (s2 ++ (s3 ++ (s4 ++ (s5 ++ (s6 ++ (s7 ++ s8))))))

/-! ## The buffers each stretch writes, and that it writes no other -/

abbrev w1 : List (Ref sig .tc) :=
  [main_v0, main_v1, main_v2, main_v3, main_cst, main_v4, main_cst_0, main_v5, main_v6, main_v7, main_cst_1, main_v8, main_v9, main_cst_2, main_v10, main_v11, main_cst_3, main_v12, main_v13, main_cst_4, main_call0_v0, main_call0_v1, main_v14, main_v15]
abbrev w2 : List (Ref sig .tc) :=
  [main_v16, main_v17, main_v18, main_v19, main_call1_v0, main_call1_v1, main_call1_cst, main_call1_v2, main_call1_v3, main_call1_cst_0, main_call1_v4, main_call1_v5, main_v20, main_cst_5, main_v21, main_v22, main_cst_6, main_v23, main_v24, main_v25, main_v26, main_v27, main_cst_7, main_v28, main_v29, main_cst_8, main_v30, main_v31, main_v32, main_v33, main_cst_9, main_v34, main_v35, main_v36, main_v37, main_v38, main_v39, main_v40, main_v41, main_v42, main_v43, main_v44]
abbrev w3 : List (Ref sig .tc) :=
  [main_v45, main_v46, main_v47, main_v48, main_v49, main_v50, main_v51, main_v52, main_call2_v0, main_call2_v1, main_call2_cst, main_call2_v2, main_call2_v3, main_call2_cst_0, main_call2_v4, main_call2_v5, main_v53, main_v54, main_v55, main_v56, main_v57, main_cst_10, main_v58, main_v59, main_cst_11, main_v60, main_v61, main_v62, main_v63, main_v64, main_cst_12, main_v65, main_v66, main_cst_13, main_v67, main_v68, main_v69, main_v70, main_cst_14, main_v71, main_v72, main_v73, main_v74, main_v75, main_v76, main_v77, main_v78, main_v79, main_v80, main_v81]
abbrev w4 : List (Ref sig .tc) :=
  [main_c, main_v82, main_v83, main_c_15, main_v84, main_v85, main_v86, main_v87, main_v88, main_cst_16, main_v89, main_v90, main_v91, main_v92, main_v93, main_v94]
abbrev w5 : List (Ref sig .tc) :=
  [main_v95, main_v96, main_v97, main_v98, main_v99, main_v100, main_v101, main_v102, main_call3_v0, main_call3_v1, main_call3_cst, main_call3_v2, main_call3_v3, main_call3_cst_0, main_call3_v4, main_call3_v5, main_v103, main_v104, main_v105, main_v106, main_v107, main_cst_17, main_v108, main_v109, main_cst_18, main_v110, main_v111, main_v112, main_v113, main_v114, main_cst_19, main_v115, main_v116, main_cst_20, main_v117, main_v118, main_v119, main_v120, main_cst_21, main_v121, main_v122, main_v123, main_v124, main_v125, main_v126, main_v127, main_v128, main_v129, main_v130, main_v131]
abbrev w6 : List (Ref sig .tc) :=
  [main_c_22, main_v132, main_v133, main_c_23, main_v134, main_v135, main_v136, main_v137, main_v138, main_cst_24, main_v139, main_v140, main_v141, main_v142, main_v143, main_v144]
abbrev w7 : List (Ref sig .tc) :=
  [main_v145, main_v146, main_v147, main_v148, main_v149, main_v150, main_v151, main_v152, main_call4_v0, main_call4_v1, main_call4_cst, main_call4_v2, main_call4_v3, main_call4_cst_0, main_call4_v4, main_call4_v5, main_v153, main_v154, main_v155, main_v156, main_v157, main_cst_25, main_v158, main_v159, main_cst_26, main_v160, main_v161, main_v162, main_v163, main_v164, main_cst_27, main_v165, main_v166, main_cst_28, main_v167, main_v168, main_v169, main_v170, main_cst_29, main_v171, main_v172, main_v173, main_v174, main_v175, main_v176, main_v177, main_v178, main_v179, main_v180, main_v181]
abbrev w8 : List (Ref sig .tc) :=
  [main_c_30, main_v182, main_v183, main_c_31, main_v184, main_v185, main_v186, main_v187, main_v188, main_cst_32, main_v189, main_v190, main_v191, main_v192, main_v193, main_v194]

/-- Every operation of stretch 1 writes a buffer of `w1`. -/
theorem s1_writes : (s1 (F := F)).Forall fun op => op.writes ⊆ ((w1.map (Proc.devRef (τ := τ) .tc)).toFinset) :=
  ⟨single_sub_of_mem (y := main_v0) (by decide),
   single_sub_of_mem (y := main_v1) (by decide),
   single_sub_of_mem (y := main_v2) (by decide),
   single_sub_of_mem (y := main_v3) (by decide),
   single_sub_of_mem (y := main_cst) (by decide),
   single_sub_of_mem (y := main_v4) (by decide),
   single_sub_of_mem (y := main_cst_0) (by decide),
   single_sub_of_mem (y := main_v5) (by decide),
   single_sub_of_mem (y := main_v6) (by decide),
   single_sub_of_mem (y := main_v7) (by decide),
   single_sub_of_mem (y := main_cst_1) (by decide),
   single_sub_of_mem (y := main_v8) (by decide),
   single_sub_of_mem (y := main_v9) (by decide),
   single_sub_of_mem (y := main_cst_2) (by decide),
   single_sub_of_mem (y := main_v10) (by decide),
   single_sub_of_mem (y := main_v11) (by decide),
   single_sub_of_mem (y := main_cst_3) (by decide),
   single_sub_of_mem (y := main_v12) (by decide),
   single_sub_of_mem (y := main_v13) (by decide),
   single_sub_of_mem (y := main_cst_4) (by decide),
   single_sub_of_mem (y := main_call0_v0) (by decide),
   single_sub_of_mem (y := main_call0_v1) (by decide),
   single_sub_of_mem (y := main_v14) (by decide),
   single_sub_of_mem (y := main_v15) (by decide)⟩

/-- A buffer outside `w1` holds after stretch 1 what it held before. -/
theorem s1_keep (V : Valuation τ sig (Elt F)) {r : Ref sig .tc} (hr : r ∉ w1) :
    after s1 V (Proc.devRef .tc r) = V (Proc.devRef .tc r) :=
  after_of_writes_sub s1 V s1_writes hr

/-- Stretch 1 touches TensorCore buffers only. -/
theorem s1_sub : (s1 (F := F)).Forall fun op => op.bufs ⊆ tcRefs τ sig :=
  ⟨unary_bufs_sub .., reshape_bufs_sub .., unary_bufs_sub .., reshape_bufs_sub .., nullary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub ..⟩

/-- Every operation of stretch 1 determines its result. -/
theorem s1_fresh : (s1 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl⟩

/-- Every operation of stretch 2 writes a buffer of `w2`. -/
theorem s2_writes : (s2 (F := F)).Forall fun op => op.writes ⊆ ((w2.map (Proc.devRef (τ := τ) .tc)).toFinset) :=
  ⟨single_sub_of_mem (y := main_v16) (by decide),
   single_sub_of_mem (y := main_v17) (by decide),
   single_sub_of_mem (y := main_v18) (by decide),
   single_sub_of_mem (y := main_v19) (by decide),
   single_sub_of_mem (y := main_call1_v0) (by decide),
   single_sub_of_mem (y := main_call1_v1) (by decide),
   single_sub_of_mem (y := main_call1_cst) (by decide),
   single_sub_of_mem (y := main_call1_v2) (by decide),
   single_sub_of_mem (y := main_call1_v3) (by decide),
   single_sub_of_mem (y := main_call1_cst_0) (by decide),
   single_sub_of_mem (y := main_call1_v4) (by decide),
   single_sub_of_mem (y := main_call1_v5) (by decide),
   single_sub_of_mem (y := main_v20) (by decide),
   single_sub_of_mem (y := main_cst_5) (by decide),
   single_sub_of_mem (y := main_v21) (by decide),
   single_sub_of_mem (y := main_v22) (by decide),
   single_sub_of_mem (y := main_cst_6) (by decide),
   single_sub_of_mem (y := main_v23) (by decide),
   single_sub_of_mem (y := main_v24) (by decide),
   single_sub_of_mem (y := main_v25) (by decide),
   single_sub_of_mem (y := main_v26) (by decide),
   single_sub_of_mem (y := main_v27) (by decide),
   single_sub_of_mem (y := main_cst_7) (by decide),
   single_sub_of_mem (y := main_v28) (by decide),
   single_sub_of_mem (y := main_v29) (by decide),
   single_sub_of_mem (y := main_cst_8) (by decide),
   single_sub_of_mem (y := main_v30) (by decide),
   single_sub_of_mem (y := main_v31) (by decide),
   single_sub_of_mem (y := main_v32) (by decide),
   single_sub_of_mem (y := main_v33) (by decide),
   single_sub_of_mem (y := main_cst_9) (by decide),
   single_sub_of_mem (y := main_v34) (by decide),
   single_sub_of_mem (y := main_v35) (by decide),
   single_sub_of_mem (y := main_v36) (by decide),
   single_sub_of_mem (y := main_v37) (by decide),
   single_sub_of_mem (y := main_v38) (by decide),
   single_sub_of_mem (y := main_v39) (by decide),
   single_sub_of_mem (y := main_v40) (by decide),
   single_sub_of_mem (y := main_v41) (by decide),
   single_sub_of_mem (y := main_v42) (by decide),
   single_sub_of_mem (y := main_v43) (by decide),
   single_sub_of_mem (y := main_v44) (by decide)⟩

/-- A buffer outside `w2` holds after stretch 2 what it held before. -/
theorem s2_keep (V : Valuation τ sig (Elt F)) {r : Ref sig .tc} (hr : r ∉ w2) :
    after s2 V (Proc.devRef .tc r) = V (Proc.devRef .tc r) :=
  after_of_writes_sub s2 V s2_writes hr

/-- Stretch 2 touches TensorCore buffers only. -/
theorem s2_sub : (s2 (F := F)).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every operation of stretch 2 determines its result. -/
theorem s2_fresh : (s2 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of stretch 3 writes a buffer of `w3`. -/
theorem s3_writes : (s3 (F := F)).Forall fun op => op.writes ⊆ ((w3.map (Proc.devRef (τ := τ) .tc)).toFinset) :=
  ⟨single_sub_of_mem (y := main_v45) (by decide),
   single_sub_of_mem (y := main_v46) (by decide),
   single_sub_of_mem (y := main_v47) (by decide),
   single_sub_of_mem (y := main_v48) (by decide),
   single_sub_of_mem (y := main_v49) (by decide),
   single_sub_of_mem (y := main_v50) (by decide),
   single_sub_of_mem (y := main_v51) (by decide),
   single_sub_of_mem (y := main_v52) (by decide),
   single_sub_of_mem (y := main_call2_v0) (by decide),
   single_sub_of_mem (y := main_call2_v1) (by decide),
   single_sub_of_mem (y := main_call2_cst) (by decide),
   single_sub_of_mem (y := main_call2_v2) (by decide),
   single_sub_of_mem (y := main_call2_v3) (by decide),
   single_sub_of_mem (y := main_call2_cst_0) (by decide),
   single_sub_of_mem (y := main_call2_v4) (by decide),
   single_sub_of_mem (y := main_call2_v5) (by decide),
   single_sub_of_mem (y := main_v53) (by decide),
   single_sub_of_mem (y := main_v54) (by decide),
   single_sub_of_mem (y := main_v55) (by decide),
   single_sub_of_mem (y := main_v56) (by decide),
   single_sub_of_mem (y := main_v57) (by decide),
   single_sub_of_mem (y := main_cst_10) (by decide),
   single_sub_of_mem (y := main_v58) (by decide),
   single_sub_of_mem (y := main_v59) (by decide),
   single_sub_of_mem (y := main_cst_11) (by decide),
   single_sub_of_mem (y := main_v60) (by decide),
   single_sub_of_mem (y := main_v61) (by decide),
   single_sub_of_mem (y := main_v62) (by decide),
   single_sub_of_mem (y := main_v63) (by decide),
   single_sub_of_mem (y := main_v64) (by decide),
   single_sub_of_mem (y := main_cst_12) (by decide),
   single_sub_of_mem (y := main_v65) (by decide),
   single_sub_of_mem (y := main_v66) (by decide),
   single_sub_of_mem (y := main_cst_13) (by decide),
   single_sub_of_mem (y := main_v67) (by decide),
   single_sub_of_mem (y := main_v68) (by decide),
   single_sub_of_mem (y := main_v69) (by decide),
   single_sub_of_mem (y := main_v70) (by decide),
   single_sub_of_mem (y := main_cst_14) (by decide),
   single_sub_of_mem (y := main_v71) (by decide),
   single_sub_of_mem (y := main_v72) (by decide),
   single_sub_of_mem (y := main_v73) (by decide),
   single_sub_of_mem (y := main_v74) (by decide),
   single_sub_of_mem (y := main_v75) (by decide),
   single_sub_of_mem (y := main_v76) (by decide),
   single_sub_of_mem (y := main_v77) (by decide),
   single_sub_of_mem (y := main_v78) (by decide),
   single_sub_of_mem (y := main_v79) (by decide),
   single_sub_of_mem (y := main_v80) (by decide),
   single_sub_of_mem (y := main_v81) (by decide)⟩

/-- A buffer outside `w3` holds after stretch 3 what it held before. -/
theorem s3_keep (V : Valuation τ sig (Elt F)) {r : Ref sig .tc} (hr : r ∉ w3) :
    after s3 V (Proc.devRef .tc r) = V (Proc.devRef .tc r) :=
  after_of_writes_sub s3 V s3_writes hr

/-- Stretch 3 touches TensorCore buffers only. -/
theorem s3_sub : (s3 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every operation of stretch 3 determines its result. -/
theorem s3_fresh : (s3 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of stretch 4 writes a buffer of `w4`. -/
theorem s4_writes : (s4 (F := F)).Forall fun op => op.writes ⊆ ((w4.map (Proc.devRef (τ := τ) .tc)).toFinset) :=
  ⟨single_sub_of_mem (y := main_c) (by decide),
   single_sub_of_mem (y := main_v82) (by decide),
   single_sub_of_mem (y := main_v83) (by decide),
   single_sub_of_mem (y := main_c_15) (by decide),
   single_sub_of_mem (y := main_v84) (by decide),
   single_sub_of_mem (y := main_v85) (by decide),
   single_sub_of_mem (y := main_v86) (by decide),
   single_sub_of_mem (y := main_v87) (by decide),
   single_sub_of_mem (y := main_v88) (by decide),
   single_sub_of_mem (y := main_cst_16) (by decide),
   single_sub_of_mem (y := main_v89) (by decide),
   single_sub_of_mem (y := main_v90) (by decide),
   single_sub_of_mem (y := main_v91) (by decide),
   single_sub_of_mem (y := main_v92) (by decide),
   single_sub_of_mem (y := main_v93) (by decide),
   single_sub_of_mem (y := main_v94) (by decide)⟩

/-- A buffer outside `w4` holds after stretch 4 what it held before. -/
theorem s4_keep (V : Valuation τ sig (Elt F)) {r : Ref sig .tc} (hr : r ∉ w4) :
    after s4 V (Proc.devRef .tc r) = V (Proc.devRef .tc r) :=
  after_of_writes_sub s4 V s4_writes hr

/-- Stretch 4 touches TensorCore buffers only. -/
theorem s4_sub : (s4 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub ..⟩

/-- Every operation of stretch 4 determines its result. -/
theorem s4_fresh : (s4 (F := F)).Forall fun op => op.fresh = ∅ :=
  ⟨rfl, rfl, rfl, rfl, rfl, rfl, rfl, rfl, rfl, rfl, rfl, rfl, rfl, rfl, rfl, rfl⟩

/-- Every operation of stretch 5 writes a buffer of `w5`. -/
theorem s5_writes : (s5 (F := F)).Forall fun op => op.writes ⊆ ((w5.map (Proc.devRef (τ := τ) .tc)).toFinset) :=
  ⟨single_sub_of_mem (y := main_v95) (by decide),
   single_sub_of_mem (y := main_v96) (by decide),
   single_sub_of_mem (y := main_v97) (by decide),
   single_sub_of_mem (y := main_v98) (by decide),
   single_sub_of_mem (y := main_v99) (by decide),
   single_sub_of_mem (y := main_v100) (by decide),
   single_sub_of_mem (y := main_v101) (by decide),
   single_sub_of_mem (y := main_v102) (by decide),
   single_sub_of_mem (y := main_call3_v0) (by decide),
   single_sub_of_mem (y := main_call3_v1) (by decide),
   single_sub_of_mem (y := main_call3_cst) (by decide),
   single_sub_of_mem (y := main_call3_v2) (by decide),
   single_sub_of_mem (y := main_call3_v3) (by decide),
   single_sub_of_mem (y := main_call3_cst_0) (by decide),
   single_sub_of_mem (y := main_call3_v4) (by decide),
   single_sub_of_mem (y := main_call3_v5) (by decide),
   single_sub_of_mem (y := main_v103) (by decide),
   single_sub_of_mem (y := main_v104) (by decide),
   single_sub_of_mem (y := main_v105) (by decide),
   single_sub_of_mem (y := main_v106) (by decide),
   single_sub_of_mem (y := main_v107) (by decide),
   single_sub_of_mem (y := main_cst_17) (by decide),
   single_sub_of_mem (y := main_v108) (by decide),
   single_sub_of_mem (y := main_v109) (by decide),
   single_sub_of_mem (y := main_cst_18) (by decide),
   single_sub_of_mem (y := main_v110) (by decide),
   single_sub_of_mem (y := main_v111) (by decide),
   single_sub_of_mem (y := main_v112) (by decide),
   single_sub_of_mem (y := main_v113) (by decide),
   single_sub_of_mem (y := main_v114) (by decide),
   single_sub_of_mem (y := main_cst_19) (by decide),
   single_sub_of_mem (y := main_v115) (by decide),
   single_sub_of_mem (y := main_v116) (by decide),
   single_sub_of_mem (y := main_cst_20) (by decide),
   single_sub_of_mem (y := main_v117) (by decide),
   single_sub_of_mem (y := main_v118) (by decide),
   single_sub_of_mem (y := main_v119) (by decide),
   single_sub_of_mem (y := main_v120) (by decide),
   single_sub_of_mem (y := main_cst_21) (by decide),
   single_sub_of_mem (y := main_v121) (by decide),
   single_sub_of_mem (y := main_v122) (by decide),
   single_sub_of_mem (y := main_v123) (by decide),
   single_sub_of_mem (y := main_v124) (by decide),
   single_sub_of_mem (y := main_v125) (by decide),
   single_sub_of_mem (y := main_v126) (by decide),
   single_sub_of_mem (y := main_v127) (by decide),
   single_sub_of_mem (y := main_v128) (by decide),
   single_sub_of_mem (y := main_v129) (by decide),
   single_sub_of_mem (y := main_v130) (by decide),
   single_sub_of_mem (y := main_v131) (by decide)⟩

/-- A buffer outside `w5` holds after stretch 5 what it held before. -/
theorem s5_keep (V : Valuation τ sig (Elt F)) {r : Ref sig .tc} (hr : r ∉ w5) :
    after s5 V (Proc.devRef .tc r) = V (Proc.devRef .tc r) :=
  after_of_writes_sub s5 V s5_writes hr

/-- Stretch 5 touches TensorCore buffers only. -/
theorem s5_sub : (s5 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every operation of stretch 5 determines its result. -/
theorem s5_fresh : (s5 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of stretch 6 writes a buffer of `w6`. -/
theorem s6_writes : (s6 (F := F)).Forall fun op => op.writes ⊆ ((w6.map (Proc.devRef (τ := τ) .tc)).toFinset) :=
  ⟨single_sub_of_mem (y := main_c_22) (by decide),
   single_sub_of_mem (y := main_v132) (by decide),
   single_sub_of_mem (y := main_v133) (by decide),
   single_sub_of_mem (y := main_c_23) (by decide),
   single_sub_of_mem (y := main_v134) (by decide),
   single_sub_of_mem (y := main_v135) (by decide),
   single_sub_of_mem (y := main_v136) (by decide),
   single_sub_of_mem (y := main_v137) (by decide),
   single_sub_of_mem (y := main_v138) (by decide),
   single_sub_of_mem (y := main_cst_24) (by decide),
   single_sub_of_mem (y := main_v139) (by decide),
   single_sub_of_mem (y := main_v140) (by decide),
   single_sub_of_mem (y := main_v141) (by decide),
   single_sub_of_mem (y := main_v142) (by decide),
   single_sub_of_mem (y := main_v143) (by decide),
   single_sub_of_mem (y := main_v144) (by decide)⟩

/-- A buffer outside `w6` holds after stretch 6 what it held before. -/
theorem s6_keep (V : Valuation τ sig (Elt F)) {r : Ref sig .tc} (hr : r ∉ w6) :
    after s6 V (Proc.devRef .tc r) = V (Proc.devRef .tc r) :=
  after_of_writes_sub s6 V s6_writes hr

/-- Stretch 6 touches TensorCore buffers only. -/
theorem s6_sub : (s6 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub ..⟩

/-- Every operation of stretch 6 determines its result. -/
theorem s6_fresh : (s6 (F := F)).Forall fun op => op.fresh = ∅ :=
  ⟨rfl, rfl, rfl, rfl, rfl, rfl, rfl, rfl, rfl, rfl, rfl, rfl, rfl, rfl, rfl, rfl⟩

/-- Every operation of stretch 7 writes a buffer of `w7`. -/
theorem s7_writes : (s7 (F := F)).Forall fun op => op.writes ⊆ ((w7.map (Proc.devRef (τ := τ) .tc)).toFinset) :=
  ⟨single_sub_of_mem (y := main_v145) (by decide),
   single_sub_of_mem (y := main_v146) (by decide),
   single_sub_of_mem (y := main_v147) (by decide),
   single_sub_of_mem (y := main_v148) (by decide),
   single_sub_of_mem (y := main_v149) (by decide),
   single_sub_of_mem (y := main_v150) (by decide),
   single_sub_of_mem (y := main_v151) (by decide),
   single_sub_of_mem (y := main_v152) (by decide),
   single_sub_of_mem (y := main_call4_v0) (by decide),
   single_sub_of_mem (y := main_call4_v1) (by decide),
   single_sub_of_mem (y := main_call4_cst) (by decide),
   single_sub_of_mem (y := main_call4_v2) (by decide),
   single_sub_of_mem (y := main_call4_v3) (by decide),
   single_sub_of_mem (y := main_call4_cst_0) (by decide),
   single_sub_of_mem (y := main_call4_v4) (by decide),
   single_sub_of_mem (y := main_call4_v5) (by decide),
   single_sub_of_mem (y := main_v153) (by decide),
   single_sub_of_mem (y := main_v154) (by decide),
   single_sub_of_mem (y := main_v155) (by decide),
   single_sub_of_mem (y := main_v156) (by decide),
   single_sub_of_mem (y := main_v157) (by decide),
   single_sub_of_mem (y := main_cst_25) (by decide),
   single_sub_of_mem (y := main_v158) (by decide),
   single_sub_of_mem (y := main_v159) (by decide),
   single_sub_of_mem (y := main_cst_26) (by decide),
   single_sub_of_mem (y := main_v160) (by decide),
   single_sub_of_mem (y := main_v161) (by decide),
   single_sub_of_mem (y := main_v162) (by decide),
   single_sub_of_mem (y := main_v163) (by decide),
   single_sub_of_mem (y := main_v164) (by decide),
   single_sub_of_mem (y := main_cst_27) (by decide),
   single_sub_of_mem (y := main_v165) (by decide),
   single_sub_of_mem (y := main_v166) (by decide),
   single_sub_of_mem (y := main_cst_28) (by decide),
   single_sub_of_mem (y := main_v167) (by decide),
   single_sub_of_mem (y := main_v168) (by decide),
   single_sub_of_mem (y := main_v169) (by decide),
   single_sub_of_mem (y := main_v170) (by decide),
   single_sub_of_mem (y := main_cst_29) (by decide),
   single_sub_of_mem (y := main_v171) (by decide),
   single_sub_of_mem (y := main_v172) (by decide),
   single_sub_of_mem (y := main_v173) (by decide),
   single_sub_of_mem (y := main_v174) (by decide),
   single_sub_of_mem (y := main_v175) (by decide),
   single_sub_of_mem (y := main_v176) (by decide),
   single_sub_of_mem (y := main_v177) (by decide),
   single_sub_of_mem (y := main_v178) (by decide),
   single_sub_of_mem (y := main_v179) (by decide),
   single_sub_of_mem (y := main_v180) (by decide),
   single_sub_of_mem (y := main_v181) (by decide)⟩

/-- A buffer outside `w7` holds after stretch 7 what it held before. -/
theorem s7_keep (V : Valuation τ sig (Elt F)) {r : Ref sig .tc} (hr : r ∉ w7) :
    after s7 V (Proc.devRef .tc r) = V (Proc.devRef .tc r) :=
  after_of_writes_sub s7 V s7_writes hr

/-- Stretch 7 touches TensorCore buffers only. -/
theorem s7_sub : (s7 (F := F)).Forall fun op => op.bufs ⊆ tcRefs τ sig :=
  ⟨unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- Every operation of stretch 7 determines its result. -/
theorem s7_fresh : (s7 (F := F)).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of stretch 8 writes a buffer of `w8`. -/
theorem s8_writes : (s8 (F := F)).Forall fun op => op.writes ⊆ ((w8.map (Proc.devRef (τ := τ) .tc)).toFinset) :=
  ⟨single_sub_of_mem (y := main_c_30) (by decide),
   single_sub_of_mem (y := main_v182) (by decide),
   single_sub_of_mem (y := main_v183) (by decide),
   single_sub_of_mem (y := main_c_31) (by decide),
   single_sub_of_mem (y := main_v184) (by decide),
   single_sub_of_mem (y := main_v185) (by decide),
   single_sub_of_mem (y := main_v186) (by decide),
   single_sub_of_mem (y := main_v187) (by decide),
   single_sub_of_mem (y := main_v188) (by decide),
   single_sub_of_mem (y := main_cst_32) (by decide),
   single_sub_of_mem (y := main_v189) (by decide),
   single_sub_of_mem (y := main_v190) (by decide),
   single_sub_of_mem (y := main_v191) (by decide),
   single_sub_of_mem (y := main_v192) (by decide),
   single_sub_of_mem (y := main_v193) (by decide),
   single_sub_of_mem (y := main_v194) (by decide)⟩

/-- A buffer outside `w8` holds after stretch 8 what it held before. -/
theorem s8_keep (V : Valuation τ sig (Elt F)) {r : Ref sig .tc} (hr : r ∉ w8) :
    after s8 V (Proc.devRef .tc r) = V (Proc.devRef .tc r) :=
  after_of_writes_sub s8 V s8_writes hr

/-- Stretch 8 touches TensorCore buffers only. -/
theorem s8_sub : (s8 (F := F)).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., binary_bufs_sub .., binary_bufs_sub ..⟩

/-- Every operation of stretch 8 determines its result. -/
theorem s8_fresh : (s8 (F := F)).Forall fun op => op.fresh = ∅ :=
  ⟨rfl, rfl, rfl, rfl, rfl, rfl, rfl, rfl, rfl, rfl, rfl, rfl, rfl, rfl, rfl, rfl⟩

/-! ## What each stretch computes, from any contents `V` -/

/-- After the first stretch the flat source column is row 0 of the edge list. -/
theorem s1_v1 (V : Valuation τ sig (Elt F)) :
    after s1 V (Proc.devRef .tc main_v1 : DevRef τ sig) = srcFlat (V (Proc.devRef .tc main_arg1 : DevRef τ sig)) := by
  after_results <;> rfl

/-- After the first stretch the flat target column is row 1 of the edge list. -/
theorem s1_v3 (V : Valuation τ sig (Elt F)) :
    after s1 V (Proc.devRef .tc main_v3 : DevRef τ sig) = dstFlat (V (Proc.devRef .tc main_arg1 : DevRef τ sig)) := by
  after_results <;> rfl

/-- After the first stretch the inverse in-degree column is `invCol` of the edge list. -/
theorem s1_v15 (V : Valuation τ sig (Elt F)) :
    after s1 V (Proc.devRef .tc main_v15 : DevRef τ sig) = invCol (F := F) (V (Proc.devRef .tc main_arg1 : DevRef τ sig)) := by
  after_results <;> rfl

/-- The second stretch is the embedding layer of the arguments. -/
theorem s2_v44 (V : Valuation τ sig (Elt F)) :
    after s2 V (Proc.devRef .tc main_v44 : DevRef τ sig)
      = embed (F := F) (V (Proc.devRef .tc main_arg0 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) := by
  after_results_simp <;> rfl

/-- Stretch 3 is message layer 0 on the state it finds, with slice 0 of each parameter array. -/
theorem s3_z (V : Valuation τ sig (Elt F)) :
    after s3 V (Proc.devRef .tc main_v81 : DevRef τ sig)
      = msg (F := F) (V (Proc.devRef .tc main_v44 : DevRef τ sig)) (w_0 (V (Proc.devRef .tc main_arg6 : DevRef τ sig))) (v_0 (V (Proc.devRef .tc main_arg7 : DevRef τ sig))) (v_0 (V (Proc.devRef .tc main_arg8 : DevRef τ sig))) (v_0 (V (Proc.devRef .tc main_arg9 : DevRef τ sig))) := by
  after_results_simp <;> rfl

/-- Stretch 5 is message layer 1 on the state it finds, with slice 1 of each parameter array. -/
theorem s5_z (V : Valuation τ sig (Elt F)) :
    after s5 V (Proc.devRef .tc main_v131 : DevRef τ sig)
      = msg (F := F) (V (Proc.devRef .tc main_v94 : DevRef τ sig)) (w_1 (V (Proc.devRef .tc main_arg6 : DevRef τ sig))) (v_1 (V (Proc.devRef .tc main_arg7 : DevRef τ sig))) (v_1 (V (Proc.devRef .tc main_arg8 : DevRef τ sig))) (v_1 (V (Proc.devRef .tc main_arg9 : DevRef τ sig))) := by
  after_results_simp <;> rfl

/-- Stretch 7 is message layer 2 on the state it finds, with slice 2 of each parameter array. -/
theorem s7_z (V : Valuation τ sig (Elt F)) :
    after s7 V (Proc.devRef .tc main_v181 : DevRef τ sig)
      = msg (F := F) (V (Proc.devRef .tc main_v144 : DevRef τ sig)) (w_2 (V (Proc.devRef .tc main_arg6 : DevRef τ sig))) (v_2 (V (Proc.devRef .tc main_arg7 : DevRef τ sig))) (v_2 (V (Proc.devRef .tc main_arg8 : DevRef τ sig))) (v_2 (V (Proc.devRef .tc main_arg9 : DevRef τ sig))) := by
  after_results_simp <;> rfl

/-- Stretch 4 aggregates the messages it finds along the edges, scales by the inverse in-degree and adds the state it finds:
    over contents that hold the two flat edge columns and the inverse in-degree column. -/
theorem s4_h {V : Valuation τ sig (Elt F)} {ei : IVec S2x625000 32}
    (h1 : V (Proc.devRef .tc main_v1 : DevRef τ sig) = srcFlat ei) (h3 : V (Proc.devRef .tc main_v3 : DevRef τ sig) = dstFlat ei)
    (h15 : V (Proc.devRef .tc main_v15 : DevRef τ sig) = invCol (F := F) ei) :
    after s4 V (Proc.devRef .tc main_v94 : DevRef τ sig) = step (F := F) (agg ei (V (Proc.devRef .tc main_v81 : DevRef τ sig))) (invCol ei) (V (Proc.devRef .tc main_v44 : DevRef τ sig)) := by
  after_results
  rw [h1, h3, h15]
  rfl

/-- Stretch 6 aggregates the messages it finds along the edges, scales by the inverse in-degree and adds the state it finds:
    over contents that hold the two flat edge columns and the inverse in-degree column. -/
theorem s6_h {V : Valuation τ sig (Elt F)} {ei : IVec S2x625000 32}
    (h1 : V (Proc.devRef .tc main_v1 : DevRef τ sig) = srcFlat ei) (h3 : V (Proc.devRef .tc main_v3 : DevRef τ sig) = dstFlat ei)
    (h15 : V (Proc.devRef .tc main_v15 : DevRef τ sig) = invCol (F := F) ei) :
    after s6 V (Proc.devRef .tc main_v144 : DevRef τ sig) = step (F := F) (agg ei (V (Proc.devRef .tc main_v131 : DevRef τ sig))) (invCol ei) (V (Proc.devRef .tc main_v94 : DevRef τ sig)) := by
  after_results
  rw [h1, h3, h15]
  rfl

/-- Stretch 8 aggregates the messages it finds along the edges, scales by the inverse in-degree and adds the state it finds:
    over contents that hold the two flat edge columns and the inverse in-degree column. -/
theorem s8_h {V : Valuation τ sig (Elt F)} {ei : IVec S2x625000 32}
    (h1 : V (Proc.devRef .tc main_v1 : DevRef τ sig) = srcFlat ei) (h3 : V (Proc.devRef .tc main_v3 : DevRef τ sig) = dstFlat ei)
    (h15 : V (Proc.devRef .tc main_v15 : DevRef τ sig) = invCol (F := F) ei) :
    after s8 V (Proc.devRef .tc main_v194 : DevRef τ sig) = step (F := F) (agg ei (V (Proc.devRef .tc main_v181 : DevRef τ sig))) (invCol ei) (V (Proc.devRef .tc main_v144 : DevRef τ sig)) := by
  after_results
  rw [h1, h3, h15]
  rfl

/-! ## The contents every stretch finds and leaves in place -/

/-- Contents that hold the ten arguments, the two flat edge columns and the inverse in-degree column. -/
structure Held (V : Valuation τ sig (Elt F)) (x : FVec F S100000x32 .f32) (ei : IVec S2x625000 32) (w0 : FVec F S32x128 .f32) (b0 g0 be0 : FVec F S128 .f32) (ws : FVec F S3x128x128 .f32) (bs gs bes : FVec F S3x128 .f32) : Prop where
  a0 : V (Proc.devRef .tc main_arg0 : DevRef τ sig) = x
  a1 : V (Proc.devRef .tc main_arg1 : DevRef τ sig) = ei
  a2 : V (Proc.devRef .tc main_arg2 : DevRef τ sig) = w0
  a3 : V (Proc.devRef .tc main_arg3 : DevRef τ sig) = b0
  a4 : V (Proc.devRef .tc main_arg4 : DevRef τ sig) = g0
  a5 : V (Proc.devRef .tc main_arg5 : DevRef τ sig) = be0
  a6 : V (Proc.devRef .tc main_arg6 : DevRef τ sig) = ws
  a7 : V (Proc.devRef .tc main_arg7 : DevRef τ sig) = bs
  a8 : V (Proc.devRef .tc main_arg8 : DevRef τ sig) = gs
  a9 : V (Proc.devRef .tc main_arg9 : DevRef τ sig) = bes
  c1 : V (Proc.devRef .tc main_v1 : DevRef τ sig) = srcFlat ei
  c3 : V (Proc.devRef .tc main_v3 : DevRef τ sig) = dstFlat ei
  c15 : V (Proc.devRef .tc main_v15 : DevRef τ sig) = invCol (F := F) ei

/-- The first stretch establishes them, from any contents, for the arguments it finds. -/
theorem held_s1 (V : Valuation τ sig (Elt F)) :
    Held (after s1 V) (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) where
  a0 := s1_keep V (r := main_arg0) (by decide)
  a1 := s1_keep V (r := main_arg1) (by decide)
  a2 := s1_keep V (r := main_arg2) (by decide)
  a3 := s1_keep V (r := main_arg3) (by decide)
  a4 := s1_keep V (r := main_arg4) (by decide)
  a5 := s1_keep V (r := main_arg5) (by decide)
  a6 := s1_keep V (r := main_arg6) (by decide)
  a7 := s1_keep V (r := main_arg7) (by decide)
  a8 := s1_keep V (r := main_arg8) (by decide)
  a9 := s1_keep V (r := main_arg9) (by decide)
  c1 := s1_v1 V
  c3 := s1_v3 V
  c15 := s1_v15 V

/-- Stretch 2 writes none of them. -/
theorem held_s2 {V : Valuation τ sig (Elt F)} {x : FVec F S100000x32 .f32} {ei : IVec S2x625000 32} {w0 : FVec F S32x128 .f32} {b0 g0 be0 : FVec F S128 .f32} {ws : FVec F S3x128x128 .f32} {bs gs bes : FVec F S3x128 .f32}
    (h : Held V x ei w0 b0 g0 be0 ws bs gs bes) : Held (after s2 V) x ei w0 b0 g0 be0 ws bs gs bes where
  a0 := (s2_keep V (r := main_arg0) (by decide)).trans h.a0
  a1 := (s2_keep V (r := main_arg1) (by decide)).trans h.a1
  a2 := (s2_keep V (r := main_arg2) (by decide)).trans h.a2
  a3 := (s2_keep V (r := main_arg3) (by decide)).trans h.a3
  a4 := (s2_keep V (r := main_arg4) (by decide)).trans h.a4
  a5 := (s2_keep V (r := main_arg5) (by decide)).trans h.a5
  a6 := (s2_keep V (r := main_arg6) (by decide)).trans h.a6
  a7 := (s2_keep V (r := main_arg7) (by decide)).trans h.a7
  a8 := (s2_keep V (r := main_arg8) (by decide)).trans h.a8
  a9 := (s2_keep V (r := main_arg9) (by decide)).trans h.a9
  c1 := (s2_keep V (r := main_v1) (by decide)).trans h.c1
  c3 := (s2_keep V (r := main_v3) (by decide)).trans h.c3
  c15 := (s2_keep V (r := main_v15) (by decide)).trans h.c15

/-- Stretch 3 writes none of them. -/
theorem held_s3 {V : Valuation τ sig (Elt F)} {x : FVec F S100000x32 .f32} {ei : IVec S2x625000 32} {w0 : FVec F S32x128 .f32} {b0 g0 be0 : FVec F S128 .f32} {ws : FVec F S3x128x128 .f32} {bs gs bes : FVec F S3x128 .f32}
    (h : Held V x ei w0 b0 g0 be0 ws bs gs bes) : Held (after s3 V) x ei w0 b0 g0 be0 ws bs gs bes where
  a0 := (s3_keep V (r := main_arg0) (by decide)).trans h.a0
  a1 := (s3_keep V (r := main_arg1) (by decide)).trans h.a1
  a2 := (s3_keep V (r := main_arg2) (by decide)).trans h.a2
  a3 := (s3_keep V (r := main_arg3) (by decide)).trans h.a3
  a4 := (s3_keep V (r := main_arg4) (by decide)).trans h.a4
  a5 := (s3_keep V (r := main_arg5) (by decide)).trans h.a5
  a6 := (s3_keep V (r := main_arg6) (by decide)).trans h.a6
  a7 := (s3_keep V (r := main_arg7) (by decide)).trans h.a7
  a8 := (s3_keep V (r := main_arg8) (by decide)).trans h.a8
  a9 := (s3_keep V (r := main_arg9) (by decide)).trans h.a9
  c1 := (s3_keep V (r := main_v1) (by decide)).trans h.c1
  c3 := (s3_keep V (r := main_v3) (by decide)).trans h.c3
  c15 := (s3_keep V (r := main_v15) (by decide)).trans h.c15

/-- Stretch 4 writes none of them. -/
theorem held_s4 {V : Valuation τ sig (Elt F)} {x : FVec F S100000x32 .f32} {ei : IVec S2x625000 32} {w0 : FVec F S32x128 .f32} {b0 g0 be0 : FVec F S128 .f32} {ws : FVec F S3x128x128 .f32} {bs gs bes : FVec F S3x128 .f32}
    (h : Held V x ei w0 b0 g0 be0 ws bs gs bes) : Held (after s4 V) x ei w0 b0 g0 be0 ws bs gs bes where
  a0 := (s4_keep V (r := main_arg0) (by decide)).trans h.a0
  a1 := (s4_keep V (r := main_arg1) (by decide)).trans h.a1
  a2 := (s4_keep V (r := main_arg2) (by decide)).trans h.a2
  a3 := (s4_keep V (r := main_arg3) (by decide)).trans h.a3
  a4 := (s4_keep V (r := main_arg4) (by decide)).trans h.a4
  a5 := (s4_keep V (r := main_arg5) (by decide)).trans h.a5
  a6 := (s4_keep V (r := main_arg6) (by decide)).trans h.a6
  a7 := (s4_keep V (r := main_arg7) (by decide)).trans h.a7
  a8 := (s4_keep V (r := main_arg8) (by decide)).trans h.a8
  a9 := (s4_keep V (r := main_arg9) (by decide)).trans h.a9
  c1 := (s4_keep V (r := main_v1) (by decide)).trans h.c1
  c3 := (s4_keep V (r := main_v3) (by decide)).trans h.c3
  c15 := (s4_keep V (r := main_v15) (by decide)).trans h.c15

/-- Stretch 5 writes none of them. -/
theorem held_s5 {V : Valuation τ sig (Elt F)} {x : FVec F S100000x32 .f32} {ei : IVec S2x625000 32} {w0 : FVec F S32x128 .f32} {b0 g0 be0 : FVec F S128 .f32} {ws : FVec F S3x128x128 .f32} {bs gs bes : FVec F S3x128 .f32}
    (h : Held V x ei w0 b0 g0 be0 ws bs gs bes) : Held (after s5 V) x ei w0 b0 g0 be0 ws bs gs bes where
  a0 := (s5_keep V (r := main_arg0) (by decide)).trans h.a0
  a1 := (s5_keep V (r := main_arg1) (by decide)).trans h.a1
  a2 := (s5_keep V (r := main_arg2) (by decide)).trans h.a2
  a3 := (s5_keep V (r := main_arg3) (by decide)).trans h.a3
  a4 := (s5_keep V (r := main_arg4) (by decide)).trans h.a4
  a5 := (s5_keep V (r := main_arg5) (by decide)).trans h.a5
  a6 := (s5_keep V (r := main_arg6) (by decide)).trans h.a6
  a7 := (s5_keep V (r := main_arg7) (by decide)).trans h.a7
  a8 := (s5_keep V (r := main_arg8) (by decide)).trans h.a8
  a9 := (s5_keep V (r := main_arg9) (by decide)).trans h.a9
  c1 := (s5_keep V (r := main_v1) (by decide)).trans h.c1
  c3 := (s5_keep V (r := main_v3) (by decide)).trans h.c3
  c15 := (s5_keep V (r := main_v15) (by decide)).trans h.c15

/-- Stretch 6 writes none of them. -/
theorem held_s6 {V : Valuation τ sig (Elt F)} {x : FVec F S100000x32 .f32} {ei : IVec S2x625000 32} {w0 : FVec F S32x128 .f32} {b0 g0 be0 : FVec F S128 .f32} {ws : FVec F S3x128x128 .f32} {bs gs bes : FVec F S3x128 .f32}
    (h : Held V x ei w0 b0 g0 be0 ws bs gs bes) : Held (after s6 V) x ei w0 b0 g0 be0 ws bs gs bes where
  a0 := (s6_keep V (r := main_arg0) (by decide)).trans h.a0
  a1 := (s6_keep V (r := main_arg1) (by decide)).trans h.a1
  a2 := (s6_keep V (r := main_arg2) (by decide)).trans h.a2
  a3 := (s6_keep V (r := main_arg3) (by decide)).trans h.a3
  a4 := (s6_keep V (r := main_arg4) (by decide)).trans h.a4
  a5 := (s6_keep V (r := main_arg5) (by decide)).trans h.a5
  a6 := (s6_keep V (r := main_arg6) (by decide)).trans h.a6
  a7 := (s6_keep V (r := main_arg7) (by decide)).trans h.a7
  a8 := (s6_keep V (r := main_arg8) (by decide)).trans h.a8
  a9 := (s6_keep V (r := main_arg9) (by decide)).trans h.a9
  c1 := (s6_keep V (r := main_v1) (by decide)).trans h.c1
  c3 := (s6_keep V (r := main_v3) (by decide)).trans h.c3
  c15 := (s6_keep V (r := main_v15) (by decide)).trans h.c15

/-- Stretch 7 writes none of them. -/
theorem held_s7 {V : Valuation τ sig (Elt F)} {x : FVec F S100000x32 .f32} {ei : IVec S2x625000 32} {w0 : FVec F S32x128 .f32} {b0 g0 be0 : FVec F S128 .f32} {ws : FVec F S3x128x128 .f32} {bs gs bes : FVec F S3x128 .f32}
    (h : Held V x ei w0 b0 g0 be0 ws bs gs bes) : Held (after s7 V) x ei w0 b0 g0 be0 ws bs gs bes where
  a0 := (s7_keep V (r := main_arg0) (by decide)).trans h.a0
  a1 := (s7_keep V (r := main_arg1) (by decide)).trans h.a1
  a2 := (s7_keep V (r := main_arg2) (by decide)).trans h.a2
  a3 := (s7_keep V (r := main_arg3) (by decide)).trans h.a3
  a4 := (s7_keep V (r := main_arg4) (by decide)).trans h.a4
  a5 := (s7_keep V (r := main_arg5) (by decide)).trans h.a5
  a6 := (s7_keep V (r := main_arg6) (by decide)).trans h.a6
  a7 := (s7_keep V (r := main_arg7) (by decide)).trans h.a7
  a8 := (s7_keep V (r := main_arg8) (by decide)).trans h.a8
  a9 := (s7_keep V (r := main_arg9) (by decide)).trans h.a9
  c1 := (s7_keep V (r := main_v1) (by decide)).trans h.c1
  c3 := (s7_keep V (r := main_v3) (by decide)).trans h.c3
  c15 := (s7_keep V (r := main_v15) (by decide)).trans h.c15

/-- Stretch 8 writes none of them. -/
theorem held_s8 {V : Valuation τ sig (Elt F)} {x : FVec F S100000x32 .f32} {ei : IVec S2x625000 32} {w0 : FVec F S32x128 .f32} {b0 g0 be0 : FVec F S128 .f32} {ws : FVec F S3x128x128 .f32} {bs gs bes : FVec F S3x128 .f32}
    (h : Held V x ei w0 b0 g0 be0 ws bs gs bes) : Held (after s8 V) x ei w0 b0 g0 be0 ws bs gs bes where
  a0 := (s8_keep V (r := main_arg0) (by decide)).trans h.a0
  a1 := (s8_keep V (r := main_arg1) (by decide)).trans h.a1
  a2 := (s8_keep V (r := main_arg2) (by decide)).trans h.a2
  a3 := (s8_keep V (r := main_arg3) (by decide)).trans h.a3
  a4 := (s8_keep V (r := main_arg4) (by decide)).trans h.a4
  a5 := (s8_keep V (r := main_arg5) (by decide)).trans h.a5
  a6 := (s8_keep V (r := main_arg6) (by decide)).trans h.a6
  a7 := (s8_keep V (r := main_arg7) (by decide)).trans h.a7
  a8 := (s8_keep V (r := main_arg8) (by decide)).trans h.a8
  a9 := (s8_keep V (r := main_arg9) (by decide)).trans h.a9
  c1 := (s8_keep V (r := main_v1) (by decide)).trans h.c1
  c3 := (s8_keep V (r := main_v3) (by decide)).trans h.c3
  c15 := (s8_keep V (r := main_v15) (by decide)).trans h.c15

/-! ## The whole program -/

/-- The result buffer after all 264 operations is the composed term of the arguments. -/
theorem result_eq_out (V : Valuation τ sig (Elt F)) :
    after ops V (Proc.devRef .tc main_v194 : DevRef τ sig)
      = out (F := F) (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) := by
  have h1 := held_s1 V
  have h2 := held_s2 h1
  have h3 := held_s3 h2
  have h4 := held_s4 h3
  have h5 := held_s5 h4
  have h6 := held_s6 h5
  have h7 := held_s7 h6
  simp only [ops, after_app]
  rw [s8_h h7.c1 h7.c3 h7.c15, s7_z, s7_keep _ (r := main_v144) (by decide), h6.a6, h6.a7, h6.a8, h6.a9,
    s6_h h5.c1 h5.c3 h5.c15, s5_z, s5_keep _ (r := main_v94) (by decide), h4.a6, h4.a7, h4.a8, h4.a9,
    s4_h h3.c1 h3.c3 h3.c15, s3_z, s3_keep _ (r := main_v44) (by decide), h2.a6, h2.a7, h2.a8, h2.a9,
    s2_v44, h1.a0, h1.a2, h1.a3, h1.a4, h1.a5]
  rfl

/-- The ten arguments, the flat edge columns and the inverse in-degree column after all 264 operations. -/
theorem held_ops (V : Valuation τ sig (Elt F)) :
    Held (after ops V) (V (Proc.devRef .tc main_arg0 : DevRef τ sig)) (V (Proc.devRef .tc main_arg1 : DevRef τ sig)) (V (Proc.devRef .tc main_arg2 : DevRef τ sig)) (V (Proc.devRef .tc main_arg3 : DevRef τ sig)) (V (Proc.devRef .tc main_arg4 : DevRef τ sig)) (V (Proc.devRef .tc main_arg5 : DevRef τ sig)) (V (Proc.devRef .tc main_arg6 : DevRef τ sig)) (V (Proc.devRef .tc main_arg7 : DevRef τ sig)) (V (Proc.devRef .tc main_arg8 : DevRef τ sig)) (V (Proc.devRef .tc main_arg9 : DevRef τ sig)) := by
  simp only [ops, after_app]
  exact held_s8 (held_s7 (held_s6 (held_s5 (held_s4 (held_s3 (held_s2 (held_s1 V)))))))

set_option maxRecDepth 8192 in
set_option maxHeartbeats 4000000 in
/-- The program is the straight line of its operations. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- All 264 operations touch TensorCore buffers only. -/
theorem ops_sub : (ops : List (HloOp τ sig (Elt F))).Forall fun op => op.bufs ⊆ tcRefs τ sig :=
  List.forall_append.mpr ⟨s1_sub, List.forall_append.mpr ⟨s2_sub, List.forall_append.mpr ⟨s3_sub, List.forall_append.mpr ⟨s4_sub,
    List.forall_append.mpr ⟨s5_sub, List.forall_append.mpr ⟨s6_sub, List.forall_append.mpr ⟨s7_sub, s8_sub⟩⟩⟩⟩⟩⟩⟩

/-- Each of the 264 operations determines its result. -/
theorem ops_fresh : ∀ op ∈ (ops : List (HloOp τ sig (Elt F))), op.fresh = ∅ :=
  List.forall_iff_forall_mem.mp
    (List.forall_append.mpr ⟨s1_fresh, List.forall_append.mpr ⟨s2_fresh, List.forall_append.mpr ⟨s3_fresh, List.forall_append.mpr ⟨s4_fresh,
      List.forall_append.mpr ⟨s5_fresh, List.forall_append.mpr ⟨s6_fresh, List.forall_append.mpr ⟨s7_fresh, s8_fresh⟩⟩⟩⟩⟩⟩⟩)

/-- On every device, for any float values, from any memory with zero counters: every weakly fair execution of the
    program terminates with the result buffer at the composed term `out` of the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v194) = out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c =>
      have H := held_ops (F := F) (launchContents m c)
      ⟨(h c main_v194).trans (result_eq_out (launchContents m c)),
        (h c main_arg0).trans H.a0, (h c main_arg1).trans H.a1, (h c main_arg2).trans H.a2, (h c main_arg3).trans H.a3,
        (h c main_arg4).trans H.a4, (h c main_arg5).trans H.a5, (h c main_arg6).trans H.a6, (h c main_arg7).trans H.a7,
        (h c main_arg8).trans H.a8, (h c main_arg9).trans H.a9⟩)
    (run_seq scopedRefs_eq scopedSems_eq defs main (fun _ => ops) main_eq (fun _ => ops_sub) m ρ (fun _ => ops_fresh))

end Cert.ReferenceIdeal.Chain

end
-- ==== Proof.RefLayer.lean ====
/-
  The reference's stages read entry by entry at the extended reals: each dense stage is the row-level formula of `Spec`
  applied to every row, the state update is the entry-level one, and so the program's result is the network of
  `Spec.model` over its own aggregation.
-/
import proofs.«400524_j3736621548265_3_alg».proof.Proof.RefStages
import proofs.«400524_j3736621548265_3_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.ReferenceIdeal.Chain

open Cert.ReferenceIdeal Cert.ReferenceIdeal.Gen Cert.Spec
open Idealize.ShloMosaic Idealize.ShloMosaic.TcCoe Idealize.ShloMosaic.ValueIdx

/-! ## Broadcasts read at an index -/

/-- A column [N, 1] broadcast along the 128 features reads the row's one entry. -/
theorem bcast_col_apply (i : FVec Ideal S100000x1 .f32) (r : Fin 100000) (j : Fin 128) :
    broadcastInDim S100000x128 ![0, 1] bcast_S100000x1_S100000x128_0_1 i (ix2 r j) = i (ix2 r 0) := by
  refine broadcastInDim_apply _ _ _ _ _ fun a => ?_
  match a with
  | ⟨0, _⟩ => rfl
  | ⟨1, _⟩ => rfl

/-- A scalar constant broadcast to the [N, 128] shape reads the constant. -/
theorem bcast_const_apply (w : BitVec 32) (k : S100000x128.Idx) :
    broadcastInDim S100000x128 ![] bcast_S_S100000x128 (constant (F := Ideal) S_ .f32 w) k = Ideal.ofBits .f32 w := by
  rw [broadcastInDim_scalar_apply]; rfl

/-! ## The gate -/

/-- The gate at an entry is the scalar gate of that entry. -/
theorem silu_apply (y : FVec Ideal S100000x128 .f32) (r : Fin 100000) (j : Fin 128) :
    silu (F := Ideal) y (ix2 r j) = Spec.silu (y (ix2 r j)) := by
  unfold silu Spec.silu Ideal.logistic
  rw [mulf_apply, hostDivf_apply, addf_apply, bcast_const_apply, Ideal.ofBits_one_f32]
  rfl

/-! ## The affine maps -/

/-- A vector of 128 entries laid out as a row and repeated down the N rows reads its entry `j`. -/
theorem bcast_row_apply (b : FVec Ideal S128 .f32) (r : Fin 100000) (j : Fin 128) :
    broadcastInDim S100000x128 ![0, 1] bcast_S1x128_S100000x128_0_1 (broadcastInDim S1x128 ![1] bcast_S128_S1x128_1 b) (ix2 r j)
      = b (ix1 j) := by
  refine (broadcastInDim_apply _ _ _ _ (ix2 (0 : Fin 1) j) fun a => ?_).trans ?_
  · match a with
    | ⟨0, _⟩ => rfl
    | ⟨1, _⟩ => rfl
  · refine broadcastInDim_apply _ _ _ _ _ fun a => ?_
    match a with
    | ⟨0, _⟩ => rfl

theorem lhs_d32_0 (i : S100000x128.Idx) (q : dot_S100000x32_S32x128_S100000x128_1_0_0_1_n_n.contr.Idx) :
    (dot_S100000x32_S32x128_S100000x128_1_0_0_1_n_n.lhsIdx i q 0).val = (i 0).val := by
  unfold DotDims.lhsIdx
  rw [dif_neg (show ¬(0 : Fin S100000x32.rank) ∈ dot_S100000x32_S32x128_S100000x128_1_0_0_1_n_n.lhsBatch by decide), dif_pos (show (0 : Fin S100000x32.rank) ∈ dot_S100000x32_S32x128_S100000x128_1_0_0_1_n_n.lhsNonContracting by decide)]
  rfl
theorem lhs_d32_1 (i : S100000x128.Idx) (q : dot_S100000x32_S32x128_S100000x128_1_0_0_1_n_n.contr.Idx) :
    (dot_S100000x32_S32x128_S100000x128_1_0_0_1_n_n.lhsIdx i q 1).val = (q ⟨0, by decide⟩).val :=
  dot_S100000x32_S32x128_S100000x128_1_0_0_1_n_n.lhsIdx_val_of_single rfl i q
theorem rhs_d32_0 (i : S100000x128.Idx) (q : dot_S100000x32_S32x128_S100000x128_1_0_0_1_n_n.contr.Idx) :
    (dot_S100000x32_S32x128_S100000x128_1_0_0_1_n_n.rhsIdx i q 0).val = (q ⟨0, by decide⟩).val :=
  dot_S100000x32_S32x128_S100000x128_1_0_0_1_n_n.rhsIdx_val_of_single rfl i q
theorem rhs_d32_1 (i : S100000x128.Idx) (q : dot_S100000x32_S32x128_S100000x128_1_0_0_1_n_n.contr.Idx) :
    (dot_S100000x32_S32x128_S100000x128_1_0_0_1_n_n.rhsIdx i q 1).val = (i 1).val := by
  unfold DotDims.rhsIdx
  rw [dif_neg (show ¬(1 : Fin S32x128.rank) ∈ dot_S100000x32_S32x128_S100000x128_1_0_0_1_n_n.rhsBatch by decide), dif_pos (show (1 : Fin S32x128.rank) ∈ dot_S100000x32_S32x128_S100000x128_1_0_0_1_n_n.rhsNonContracting by decide)]
  rfl

/-- The product of a [N, 32] array with a [32, 128] matrix at `(r, j)`: the sum over `k` of row `r` times column `j`. -/
theorem dot32_apply (x : FVec Ideal S100000x32 .f32) (w : FVec Ideal S32x128 .f32) (r : Fin 100000) (j : Fin 128) :
    Host.dotGeneral (F := Ideal) dot_S100000x32_S32x128_S100000x128_1_0_0_1_n_n none x w (ix2 r j) = ∑ k : Fin 32, x (ix2 r k) * w (ix2 k j) := by
  simp only [Host.dotGeneral]
  rw [Ideal.dotGeneral_apply, ← Equiv.sum_comp (ValueIdx.contrEquiv1 dot_S100000x32_S32x128_S100000x128_1_0_0_1_n_n 32 rfl rfl).symm]
  refine Finset.sum_congr rfl fun k _ => ?_
  have hk := ValueIdx.contrEquiv1_symm_val dot_S100000x32_S32x128_S100000x128_1_0_0_1_n_n 32 rfl rfl k
  have el : dot_S100000x32_S32x128_S100000x128_1_0_0_1_n_n.lhsIdx (ix2 r j) ((ValueIdx.contrEquiv1 dot_S100000x32_S32x128_S100000x128_1_0_0_1_n_n 32 rfl rfl).symm k) = ix2 r k := funext fun a => Fin.ext (by
    match a with
    | ⟨0, _⟩ => exact lhs_d32_0 _ _
    | ⟨1, _⟩ => exact (lhs_d32_1 _ _).trans hk)
  have er : dot_S100000x32_S32x128_S100000x128_1_0_0_1_n_n.rhsIdx (ix2 r j) ((ValueIdx.contrEquiv1 dot_S100000x32_S32x128_S100000x128_1_0_0_1_n_n 32 rfl rfl).symm k) = ix2 k j := funext fun a => Fin.ext (by
    match a with
    | ⟨0, _⟩ => exact (rhs_d32_0 _ _).trans hk
    | ⟨1, _⟩ => exact rhs_d32_1 _ _)
  rw [el, er]

theorem lhs_d128_0 (i : S100000x128.Idx) (q : dot_S100000x128_S128x128_S100000x128_1_0_0_1_n_n.contr.Idx) :
    (dot_S100000x128_S128x128_S100000x128_1_0_0_1_n_n.lhsIdx i q 0).val = (i 0).val := by
  unfold DotDims.lhsIdx
  rw [dif_neg (show ¬(0 : Fin S100000x128.rank) ∈ dot_S100000x128_S128x128_S100000x128_1_0_0_1_n_n.lhsBatch by decide), dif_pos (show (0 : Fin S100000x128.rank) ∈ dot_S100000x128_S128x128_S100000x128_1_0_0_1_n_n.lhsNonContracting by decide)]
  rfl
theorem lhs_d128_1 (i : S100000x128.Idx) (q : dot_S100000x128_S128x128_S100000x128_1_0_0_1_n_n.contr.Idx) :
    (dot_S100000x128_S128x128_S100000x128_1_0_0_1_n_n.lhsIdx i q 1).val = (q ⟨0, by decide⟩).val :=
  dot_S100000x128_S128x128_S100000x128_1_0_0_1_n_n.lhsIdx_val_of_single rfl i q
theorem rhs_d128_0 (i : S100000x128.Idx) (q : dot_S100000x128_S128x128_S100000x128_1_0_0_1_n_n.contr.Idx) :
    (dot_S100000x128_S128x128_S100000x128_1_0_0_1_n_n.rhsIdx i q 0).val = (q ⟨0, by decide⟩).val :=
  dot_S100000x128_S128x128_S100000x128_1_0_0_1_n_n.rhsIdx_val_of_single rfl i q
theorem rhs_d128_1 (i : S100000x128.Idx) (q : dot_S100000x128_S128x128_S100000x128_1_0_0_1_n_n.contr.Idx) :
    (dot_S100000x128_S128x128_S100000x128_1_0_0_1_n_n.rhsIdx i q 1).val = (i 1).val := by
  unfold DotDims.rhsIdx
  rw [dif_neg (show ¬(1 : Fin S128x128.rank) ∈ dot_S100000x128_S128x128_S100000x128_1_0_0_1_n_n.rhsBatch by decide), dif_pos (show (1 : Fin S128x128.rank) ∈ dot_S100000x128_S128x128_S100000x128_1_0_0_1_n_n.rhsNonContracting by decide)]
  rfl

/-- The product of a [N, 128] array with a [128, 128] matrix at `(r, j)`: the sum over `k` of row `r` times column `j`. -/
theorem dot128_apply (x : FVec Ideal S100000x128 .f32) (w : FVec Ideal S128x128 .f32) (r : Fin 100000) (j : Fin 128) :
    Host.dotGeneral (F := Ideal) dot_S100000x128_S128x128_S100000x128_1_0_0_1_n_n none x w (ix2 r j) = ∑ k : Fin 128, x (ix2 r k) * w (ix2 k j) := by
  simp only [Host.dotGeneral]
  rw [Ideal.dotGeneral_apply, ← Equiv.sum_comp (ValueIdx.contrEquiv1 dot_S100000x128_S128x128_S100000x128_1_0_0_1_n_n 128 rfl rfl).symm]
  refine Finset.sum_congr rfl fun k _ => ?_
  have hk := ValueIdx.contrEquiv1_symm_val dot_S100000x128_S128x128_S100000x128_1_0_0_1_n_n 128 rfl rfl k
  have el : dot_S100000x128_S128x128_S100000x128_1_0_0_1_n_n.lhsIdx (ix2 r j) ((ValueIdx.contrEquiv1 dot_S100000x128_S128x128_S100000x128_1_0_0_1_n_n 128 rfl rfl).symm k) = ix2 r k := funext fun a => Fin.ext (by
    match a with
    | ⟨0, _⟩ => exact lhs_d128_0 _ _
    | ⟨1, _⟩ => exact (lhs_d128_1 _ _).trans hk)
  have er : dot_S100000x128_S128x128_S100000x128_1_0_0_1_n_n.rhsIdx (ix2 r j) ((ValueIdx.contrEquiv1 dot_S100000x128_S128x128_S100000x128_1_0_0_1_n_n 128 rfl rfl).symm k) = ix2 k j := funext fun a => Fin.ext (by
    match a with
    | ⟨0, _⟩ => exact (rhs_d128_0 _ _).trans hk
    | ⟨1, _⟩ => exact rhs_d128_1 _ _)
  rw [el, er]

/-- The embedding layer's affine map at `(r, j)` is the row-level affine map of row `r`. -/
theorem pre32_apply (x : FVec Ideal S100000x32 .f32) (w : FVec Ideal S32x128 .f32) (b : FVec Ideal S128 .f32)
    (r : Fin 100000) (j : Fin 128) :
    pre32 (F := Ideal) x w b (ix2 r j)
      = Spec.lin (fun k => x (ix2 r k)) (fun k j => w (ix2 k j)) (fun j => b (ix1 j)) j := by
  unfold pre32 Spec.lin
  rw [addf_apply, dot32_apply, bcast_row_apply]

/-- A message layer's affine map at `(r, j)` is the row-level affine map of row `r`. -/
theorem pre128_apply (h : FVec Ideal S100000x128 .f32) (w : FVec Ideal S128x128 .f32) (b : FVec Ideal S128 .f32)
    (r : Fin 100000) (j : Fin 128) :
    pre128 (F := Ideal) h w b (ix2 r j)
      = Spec.lin (fun k => h (ix2 r k)) (fun k j => w (ix2 k j)) (fun j => b (ix1 j)) j := by
  unfold pre128 Spec.lin
  rw [addf_apply, dot128_apply, bcast_row_apply]

/-! ## The normalisation -/

/-- The host's inverse square root at an index is the ideal one of the element. -/
theorem hostRsqrt_apply {s : Shape} {φ : FTy} (x : FVec Ideal s φ) (i : s.Idx) :
    Host.rsqrt x i = Ideal.rsqrt (x i) := rfl

/-- A scalar constant broadcast to the [N, 1] shape reads the constant. -/
theorem bcast_const_col_apply (w : BitVec 32) (k : S100000x1.Idx) :
    broadcastInDim S100000x1 ![] bcast_S_S100000x1 (constant (F := Ideal) S_ .f32 w) k = Ideal.ofBits .f32 w := by
  rw [broadcastInDim_scalar_apply]; rfl

/-- A vector of N entries laid out as a column reads its entry `r`. -/
theorem bcast_vec_col_apply (v : FVec Ideal S100000 .f32) (r : Fin 100000) :
    broadcastInDim S100000x1 ![0] bcast_S100000_S100000x1_0 v (ix2 r 0) = v (ix1 r) := by
  refine broadcastInDim_apply _ _ _ _ _ fun c => ?_
  match c with
  | ⟨0, _⟩ => rfl

/-- The shape fact of the row sum, in the form that names the summed coordinate. -/
theorem reduces_rows : S100000x128.Reduces [1] S100000 := by decide

/-- The sum of every row over its 128 features, at row `r`. -/
theorem rowsum_apply (a : FVec Ideal S100000x128 .f32) (r : Fin 100000) :
    Host.reduceAdd a (constant (F := Ideal) S_ .f32 0x00000000#32) reducesTo_S100000x128_S100000_d1 h_S_ (ix1 r)
      = ∑ k : Fin 128, a (ix2 r k) := by
  rw [hostReduceAdd_apply, Ideal.hostReduceAdd_single reducesTo_S100000x128_S100000_d1 reduces_rows, constant_apply,
    Ideal.ofBits_zero_f32, zero_add]
  refine Finset.sum_congr rfl fun k _ => congrArg a ?_
  funext c
  match c with
  | ⟨0, _⟩ => rfl
  | ⟨1, _⟩ => rfl

/-- The column of row means: the row sums laid out as a column, divided by the number of features. -/
def meanCol (a : FVec Ideal S100000x128 .f32) : FVec Ideal S100000x1 .f32 :=
  Host.divf (broadcastInDim S100000x1 ![0] bcast_S100000_S100000x1_0 (Host.reduceAdd a (constant S_ .f32 0x00000000#32) reducesTo_S100000x128_S100000_d1 h_S_)) (broadcastInDim S100000x1 ![] bcast_S_S100000x1 (constant S_ .f32 0x43000000#32))

/-- The column of row means at row `r` is the mean of row `r`. -/
theorem meanCol_apply (a : FVec Ideal S100000x128 .f32) (r : Fin 100000) :
    meanCol a (ix2 r 0) = Spec.mean (fun j => a (ix2 r j)) := by
  unfold meanCol Spec.mean Spec.n128
  rw [hostDivf_apply, bcast_const_col_apply, bcast_vec_col_apply, rowsum_apply]

/-- The deviations from the row means. -/
def devs (a : FVec Ideal S100000x128 .f32) : FVec Ideal S100000x128 .f32 :=
  subf a (broadcastInDim S100000x128 ![0, 1] bcast_S100000x1_S100000x128_0_1 (meanCol a))

theorem devs_apply (a : FVec Ideal S100000x128 .f32) (r : Fin 100000) (j : Fin 128) :
    devs a (ix2 r j) = a (ix2 r j) - Spec.mean (fun j' => a (ix2 r j')) := by
  unfold devs
  rw [subf_apply, bcast_col_apply, meanCol_apply]

/-- The column of inverse standard deviations. -/
def rstdCol (a : FVec Ideal S100000x128 .f32) : FVec Ideal S100000x1 .f32 :=
  Host.rsqrt (addf (meanCol (mulf (devs a) (devs a))) (broadcastInDim S100000x1 ![] bcast_S_S100000x1 (constant S_ .f32 0x3727C5AC#32)))

theorem rstdCol_apply (a : FVec Ideal S100000x128 .f32) (r : Fin 100000) :
    rstdCol a (ix2 r 0) = Ideal.rsqrt (Spec.var (fun j => a (ix2 r j)) + Spec.eps) := by
  unfold rstdCol
  rw [hostRsqrt_apply, addf_apply, meanCol_apply, bcast_const_col_apply]
  have hsq : (fun j => mulf (devs a) (devs a) (ix2 r j))
      = fun j => (a (ix2 r j) - Spec.mean (fun j' => a (ix2 r j'))) * (a (ix2 r j) - Spec.mean (fun j' => a (ix2 r j'))) :=
    funext fun j => by rw [mulf_apply, devs_apply]
  rw [hsq]
  rfl

/-- The normalisation in terms of the two columns. -/
theorem lnorm_def (a : FVec Ideal S100000x128 .f32) (g be : FVec Ideal S128 .f32) :
    lnorm (F := Ideal) a g be
      = addf (mulf (mulf (devs a) (broadcastInDim S100000x128 ![0, 1] bcast_S100000x1_S100000x128_0_1 (rstdCol a)))
          (broadcastInDim S100000x128 ![0, 1] bcast_S1x128_S100000x128_0_1 (broadcastInDim S1x128 ![1] bcast_S128_S1x128_1 g)))
          (broadcastInDim S100000x128 ![0, 1] bcast_S1x128_S100000x128_0_1 (broadcastInDim S1x128 ![1] bcast_S128_S1x128_1 be)) := rfl

/-- The normalisation at `(r, j)` is the row-level normalisation of row `r`. -/
theorem lnorm_apply (a : FVec Ideal S100000x128 .f32) (g be : FVec Ideal S128 .f32) (r : Fin 100000) (j : Fin 128) :
    lnorm (F := Ideal) a g be (ix2 r j)
      = Spec.ln (fun j' => a (ix2 r j')) (fun j' => g (ix1 j')) (fun j' => be (ix1 j')) j := by
  rw [lnorm_def, addf_apply, mulf_apply, mulf_apply, devs_apply, bcast_col_apply, rstdCol_apply, bcast_row_apply, bcast_row_apply]
  rfl

/-! ## The dense stages and the whole program -/

theorem embed_eq (x : FVec Ideal S100000x32 .f32) (w0 : FVec Ideal S32x128 .f32) (b0 g0 be0 : FVec Ideal S128 .f32) :
    embed (F := Ideal) x w0 b0 g0 be0 = dense (N := 100000) (K := 32) x w0 (vec1 b0) (vec1 g0) (vec1 be0) := by
  funext k
  obtain ⟨r, j, rfl⟩ : ∃ (r : Fin 100000) (j : Fin 128), k = ix2 r j := ⟨k 0, k 1, eq_ix2 k⟩
  rw [Spec.dense, ofRows_ix2]
  unfold embed Spec.layer
  rw [lnorm_apply]
  have hrow : (fun j' => silu (F := Ideal) (pre32 x w0 b0) (ix2 r j'))
      = fun j' => Spec.silu (Spec.lin (Spec.row x r) (Spec.mat w0) (Spec.row (vec1 b0) 0) j') :=
    funext fun j' => by rw [silu_apply, pre32_apply]; rfl
  rw [hrow]
  rfl

theorem msg_eq (h : FVec Ideal S100000x128 .f32) (w : FVec Ideal S128x128 .f32) (b g be : FVec Ideal S128 .f32) :
    msg (F := Ideal) h w b g be = dense (N := 100000) (K := 128) h w (vec1 b) (vec1 g) (vec1 be) := by
  funext k
  obtain ⟨r, j, rfl⟩ : ∃ (r : Fin 100000) (j : Fin 128), k = ix2 r j := ⟨k 0, k 1, eq_ix2 k⟩
  rw [Spec.dense, ofRows_ix2]
  unfold msg Spec.layer
  rw [lnorm_apply]
  have hrow : (fun j' => silu (F := Ideal) (pre128 h w b) (ix2 r j'))
      = fun j' => Spec.silu (Spec.lin (Spec.row h r) (Spec.mat w) (Spec.row (vec1 b) 0) j') :=
    funext fun j' => by rw [silu_apply, pre128_apply]; rfl
  rw [hrow]
  rfl

/-! ## The parameter slices -/

/-- Slice `l` of the stack of three matrices, with its unit axis dropped, reads the stack at `(l, p, q)`. -/
theorem wslice_apply (ws : FVec Ideal S3x128x128 .f32) (l : Fin 3) (off : Fin 3 → Nat)
    (hs : S3x128x128.Slices off S1x128x128) (h0 : off 0 = l.val) (h1 : off 1 = 0) (h2 : off 2 = 0)
    (p q : Fin 128) :
    shapeCast S128x128 (extractStridedSlice S1x128x128 off ws hs) shapeCasts_S1x128x128_S128x128 (ix2 p q)
      = ws (ix3 l p q) := by
  refine (shapeCast_1ab_ab_apply (a := 128) (b := 128) _ shapeCasts_S1x128x128_S128x128 p q).trans ?_
  refine extractStridedSlice_apply _ _ _ _ _ fun a => ?_
  match a with
  | ⟨0, _⟩ => show l.val = off 0 + 0; omega
  | ⟨1, _⟩ => show p.val = off 1 + p.val; omega
  | ⟨2, _⟩ => show q.val = off 2 + q.val; omega

theorem w_0_eq (ws : FVec Ideal S3x128x128 .f32) : w_0 (F := Ideal) ws = wsl ws 0 := by
  funext k
  obtain ⟨p, q, rfl⟩ : ∃ (p : Fin 128) (q : Fin 128), k = ix2 p q := ⟨k 0, k 1, eq_ix2 k⟩
  exact wslice_apply ws 0 ![0, 0, 0] slices_S3x128x128_S1x128x128_0_0_0 rfl rfl rfl p q
theorem w_1_eq (ws : FVec Ideal S3x128x128 .f32) : w_1 (F := Ideal) ws = wsl ws 1 := by
  funext k
  obtain ⟨p, q, rfl⟩ : ∃ (p : Fin 128) (q : Fin 128), k = ix2 p q := ⟨k 0, k 1, eq_ix2 k⟩
  exact wslice_apply ws 1 ![1, 0, 0] slices_S3x128x128_S1x128x128_1_0_0 rfl rfl rfl p q
theorem w_2_eq (ws : FVec Ideal S3x128x128 .f32) : w_2 (F := Ideal) ws = wsl ws 2 := by
  funext k
  obtain ⟨p, q, rfl⟩ : ∃ (p : Fin 128) (q : Fin 128), k = ix2 p q := ⟨k 0, k 1, eq_ix2 k⟩
  exact wslice_apply ws 2 ![2, 0, 0] slices_S3x128x128_S1x128x128_2_0_0 rfl rfl rfl p q

/-- Row `l` of a [3, 128] array, with its unit axis dropped, reads the array at `(l, q)`. -/
theorem vslice_apply (bs : FVec Ideal S3x128 .f32) (l : Fin 3) (off : Fin 2 → Nat)
    (hs : S3x128.Slices off S1x128) (h0 : off 0 = l.val) (h1 : off 1 = 0) (q : Fin 128) :
    shapeCast S128 (extractStridedSlice S1x128 off bs hs) shapeCasts_S1x128_S128 (ix1 q) = bs (ix2 l q) := by
  refine (shapeCast_1a_a_apply (a := 128) _ shapeCasts_S1x128_S128 q).trans ?_
  refine extractStridedSlice_apply _ _ _ _ _ fun a => ?_
  match a with
  | ⟨0, _⟩ => show l.val = off 0 + 0; omega
  | ⟨1, _⟩ => show q.val = off 1 + q.val; omega

theorem v_0_eq (bs : FVec Ideal S3x128 .f32) : vec1 (v_0 (F := Ideal) bs) = vsl bs 0 := by
  funext k
  exact vslice_apply bs 0 ![0, 0] slices_S3x128_S1x128_0_0 rfl rfl (k 1)
theorem v_1_eq (bs : FVec Ideal S3x128 .f32) : vec1 (v_1 (F := Ideal) bs) = vsl bs 1 := by
  funext k
  exact vslice_apply bs 1 ![1, 0] slices_S3x128_S1x128_1_0 rfl rfl (k 1)
theorem v_2_eq (bs : FVec Ideal S3x128 .f32) : vec1 (v_2 (F := Ideal) bs) = vsl bs 2 := by
  funext k
  exact vslice_apply bs 2 ![2, 0] slices_S3x128_S1x128_2_0 rfl rfl (k 1)

/-! ## The state update -/

theorem step_eq (a : FVec Ideal S100000x128 .f32) (i : FVec Ideal S100000x1 .f32) (h : FVec Ideal S100000x128 .f32) :
    step (F := Ideal) a i h = update (N := 100000) a i h := by
  funext k
  obtain ⟨r, j, rfl⟩ : ∃ (r : Fin 100000) (j : Fin 128), k = ix2 r j := ⟨k 0, k 1, eq_ix2 k⟩
  unfold step update
  rw [ofRows_ix2, addf_apply, mulf_apply, bcast_col_apply]
  rfl

/-- The reference's result is the network over its own aggregation and inverse in-degree. -/
theorem out_eq (x : FVec Ideal S100000x32 .f32) (ei : IVec S2x625000 32) (w0 : FVec Ideal S32x128 .f32) (b0 g0 be0 : FVec Ideal S128 .f32)
    (ws : FVec Ideal S3x128x128 .f32) (bs gs bes : FVec Ideal S3x128 .f32) :
    out (F := Ideal) x ei w0 b0 g0 be0 ws bs gs bes
      = model (N := 100000) (agg (F := Ideal) ei) (invCol (F := Ideal) ei) x w0 b0 g0 be0 ws bs gs bes := by
  unfold out Spec.model
  dsimp only
  rw [embed_eq, msg_eq, msg_eq, msg_eq, step_eq, step_eq, step_eq,
    w_0_eq, w_1_eq, w_2_eq, v_0_eq, v_0_eq, v_0_eq, v_1_eq, v_1_eq, v_1_eq, v_2_eq, v_2_eq, v_2_eq]

end Cert.ReferenceIdeal.Chain

end
-- ==== Proof.lean ====
/-
  The kernel program computes a graph network layer by layer in three fused regions over blocks of 2000 node rows,
  with the gather and scatter-add along the edges done by host operations between the regions; the reference computes
  the same network by host operations on whole arrays. At the extended reals both are the network `Spec.model`: an
  embedding layer (affine map, gate `y · σ(y)`, normalisation over the 128 features), then three rounds of a message
  layer, the aggregation of the messages along the edges, and the state update `a · i + h` with the inverse
  in-degree `i`. A row of a dense layer depends on the same row of its input only, so the blockwise regions and the
  whole-array operations agree row by row; the kernel's `logistic` is by definition `1 / (1 + e^{-y})`, which is how
  the reference spells the gate; and the aggregation and the inverse in-degree are the same host operations on the
  same edge list in both programs, so they are carried as one function and never opened. No law that needs finite
  entries is used: the precondition is never opened.
-/
import proofs.«400524_j3736621548265_3_alg».proof.Defs
import proofs.«400524_j3736621548265_3_alg».proof.Proof.Gen.Kernel
import proofs.«400524_j3736621548265_3_alg».proof.Proof.Gen.Kernel.Frame
import proofs.«400524_j3736621548265_3_alg».proof.Proof.Gen.KernelIdeal
import proofs.«400524_j3736621548265_3_alg».proof.Proof.Gen.KernelIdeal.Frame
import proofs.«400524_j3736621548265_3_alg».proof.Proof.Gen.ReferenceIdeal
import proofs.«400524_j3736621548265_3_alg».proof.Proof.Gen.Pre_finite_inputs
import proofs.«400524_j3736621548265_3_alg».proof.Proof.KernelRun
import proofs.«400524_j3736621548265_3_alg».proof.Proof.KerChain
import proofs.«400524_j3736621548265_3_alg».proof.Proof.RefRun
import proofs.«400524_j3736621548265_3_alg».proof.Proof.RefLayer
import Idealize.ShloMosaic.Adequacy
import Idealize.ShloMosaic.Init

set_option maxRecDepth 16384

noncomputable section

namespace Cert.Proof

open Idealize.ShloMosaic Idealize.ShloMosaic.TcCoe Idealize.SL.Sem

/-- Both programs aggregate along the edges by the same gather and scatter-add of the same edge columns: the two
    printed stretches are one term, whatever the float values. -/
theorem agg_eq {F : FTy → Type} [FloatOps F] (ei : IVec Cert.KernelIdeal.S2x625000 32) :
    Cert.KernelIdeal.Chain.agg (F := F) ei = Cert.ReferenceIdeal.Chain.agg (F := F) ei := rfl

/-- Both programs compute the inverse in-degree column by the same operations. -/
theorem invCol_eq {F : FTy → Type} [FloatOps F] (ei : IVec Cert.KernelIdeal.S2x625000 32) :
    Cert.KernelIdeal.Chain.invCol (F := F) ei = Cert.ReferenceIdeal.Chain.invCol (F := F) ei := rfl

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Chain.run (F := Ideal) m ρ)

/-- From memories agreeing on the arguments both programs end with the network's value: the kernel's result buffer
    at the last boundary is `Spec.model` over its aggregation, the reference's composed term is `Spec.model` over its
    own, and the two aggregations and inverse in-degree columns coincide. -/
theorem algebraic : Cert.algebraic_KernelIdeal_ReferenceIdeal := by
  intro m ρ m' ρ' _ hagree
  refine ⟨fun c => Cert.KernelIdeal.Gen.W9 (F := Ideal) m ρ c (Proc.devRef .tc Cert.KernelIdeal.main_v87),
    Cert.KernelIdeal.GenRun.run_main (F := Ideal) m ρ, ?_⟩
  refine (θ_run Cert.ReferenceIdeal.defs _ _).mono (fun _ h c => ⟨(h c).1.trans ?_, (h c).2⟩)
    (Cert.ReferenceIdeal.Chain.run (F := Ideal) m' ρ')
  obtain ⟨e0, e1, e2, e3, e4, e5, e6, e7, e8, e9⟩ := hagree c
  rw [e0, e1, e2, e3, e4, e5, e6, e7, e8, e9, Cert.ReferenceIdeal.Chain.out_eq]
  refine Eq.trans ?_ (Cert.KernelIdeal.Chain.kerOut m ρ c).symm
  rw [agg_eq, invCol_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
